-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x768 : Shape := ⟨2, ![20000, 768]⟩
abbrev S320000 : Shape := ⟨1, ![320000]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S20000x768 : S_.BroadcastsInDim S20000x768 (![] : Fin 0 → Fin S20000x768.rank)
  reducesTo_S20000x768_S_d0_1 : S20000x768.ReducesTo [0, 1] S_
  h_S_ : 0 < S_.numel
  bcast_S_S320000 : S_.BroadcastsInDim S320000 (![] : Fin 0 → Fin S320000.rank)
  reducesTo_S320000_S_d0 : S320000.ReducesTo [0] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S768x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S768x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S20000x768 .f32) (main_arg1 : FVec F S320000 .f32) (main_arg2 : FVec F S768x256 .f32) (main_arg3 : FVec F S256 .f32) (main_arg4 : FVec F S256x256 .f32) (main_arg5 : FVec F S256 .f32) (main_arg6 : FVec F S256x256 .f32) (main_arg7 : FVec F S256 .f32) (main_arg8 : FVec F S768x256 .f32) (main_arg9 : FVec F S256 .f32) (main_arg10 : IVec S320000 32) (main_arg11 : IVec S320000 32) : IVec S_ 1 :=
  let main_v0 : FVec F S20000x768 .f32 := Host.absf main_arg0
  let main_cst : FVec F S_ .f32 := constant S_ .f32 0x7F800000#32
  let main_v1 : FVec F S20000x768 .f32 := broadcastInDim S20000x768 ![] bcast_S_S20000x768 main_cst
  let main_v2 : IVec S20000x768 1 := cmpf .olt main_v0 main_v1
  let main_c : IVec S_ 1 := constantI S_ 1 1#1
  let main_v3 : IVec S_ 1 := (fun x v => Host.reduce IntOp.andi x v reducesTo_S20000x768_S_d0_1 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S20000x768 : Shape := ⟨2, ![20000, 768]⟩
abbrev S320000 : Shape := ⟨1, ![320000]⟩
abbrev S768x256 : Shape := ⟨2, ![768, 256]⟩
abbrev S256 : Shape := ⟨1, ![256]⟩
abbrev S256x256 : Shape := ⟨2, ![256, 256]⟩
abbrev S_ : Shape := ⟨0, ![]⟩
abbrev S320000x1 : Shape := ⟨2, ![320000, 1]⟩
abbrev S320000x768 : Shape := ⟨2, ![320000, 768]⟩
abbrev S1x256 : Shape := ⟨2, ![1, 256]⟩
abbrev S20000x256 : Shape := ⟨2, ![20000, 256]⟩
abbrev S1000x768 : Shape := ⟨2, ![1000, 768]⟩
abbrev S1000x256 : Shape := ⟨2, ![1000, 256]⟩
abbrev S320000x256 : Shape := ⟨2, ![320000, 256]⟩

abbrev nBuf : Space → Nat
  | .hbm => 69
  | .vmem => 30
  | .smem => 0
  | _ => 0

abbrev bufTy : (tb : Table) → Fin (tcTables nBuf tb) → BufTy
  | .hbm, ⟨0, _⟩ => ⟨S20000x768, .f32⟩
  | .hbm, ⟨1, _⟩ => ⟨S320000, .f32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S768x256, .f32⟩
  | .hbm, ⟨9, _⟩ => ⟨S256, .f32⟩
  | .hbm, ⟨10, _⟩ => ⟨S320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x768, .f32⟩
  | .hbm, ⟨21, _⟩ => ⟨S320000x1, .f32⟩
  | .hbm, ⟨22, _⟩ => ⟨S320000x768, .f32⟩
  | .hbm, ⟨23, _⟩ => ⟨S320000x768, .f32⟩
  | .hbm, ⟨24, _⟩ => ⟨S_, .f32⟩
  | .hbm, ⟨25, _⟩ => ⟨S20000x768, .f32⟩
  | .hbm, ⟨26, _⟩ => ⟨S320000x1, .i32⟩
  | .hbm, ⟨27, _⟩ => ⟨S20000x768, .f32⟩
  | .hbm, ⟨28, _⟩ => ⟨S1x256, .f32⟩
  | .hbm, ⟨29, _⟩ => ⟨S20000x256, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x256, .f32⟩
  | .hbm, ⟨39, _⟩ => ⟨S320000x1, .f32⟩
  | .hbm, ⟨40, _⟩ => ⟨S320000x256, .f32⟩
  | .hbm, ⟨41, _⟩ => ⟨S320000x256, .f32⟩
  | .hbm, ⟨42, _⟩ => ⟨S_, .f32⟩
  | .hbm, ⟨43, _⟩ => ⟨S20000x256, .f32⟩
  | .hbm, ⟨44, _⟩ => ⟨S320000x1, .i32⟩
  | .hbm, ⟨45, _⟩ => ⟨S20000x256, .f32⟩
  | .hbm, ⟨46, _⟩ => ⟨S1x256, .f32⟩
  | .hbm, ⟨47, _⟩ => ⟨S20000x256, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S320000x256, .f32⟩
  | .hbm, ⟨57, _⟩ => ⟨S320000x1, .f32⟩
  | .hbm, ⟨58, _⟩ => ⟨S320000x256, .f32⟩
  | .hbm, ⟨59, _⟩ => ⟨S320000x256, .f32⟩
  | .hbm, ⟨60, _⟩ => ⟨S_, .f32⟩
  | .hbm, ⟨61, _⟩ => ⟨S20000x256, .f32⟩
  | .hbm, ⟨62, _⟩ => ⟨S320000x1, .i32⟩
  | .hbm, ⟨63, _⟩ => ⟨S20000x256, .f32⟩
  | .hbm, ⟨64, _⟩ => ⟨S1x256, .f32⟩
  | .hbm, ⟨65, _⟩ => ⟨S20000x256, .f32⟩
  | .hbm, ⟨66, _⟩ => ⟨S20000x768, .f32⟩
  | .hbm, ⟨67, _⟩ => ⟨S1x256, .f32⟩
  | .hbm, ⟨68, _⟩ => ⟨S20000x256, .f32⟩
  | .local _ .vmem, ⟨0, _⟩ => ⟨S1000x768, .f32⟩
  | .local _ .vmem, ⟨1, _⟩ => ⟨S1000x768, .f32⟩
  | .local _ .vmem, ⟨2, _⟩ => ⟨S1000x768, .f32⟩
  | .local _ .vmem, ⟨3, _⟩ => ⟨S1000x768, .f32⟩
  | .local _ .vmem, ⟨4, _⟩ => ⟨S768x256, .f32⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S256x256, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S256x256, .f32⟩
  | .local _ .vmem, ⟨21, _⟩ => ⟨S1x256, .f32⟩
  | .local _ .vmem, ⟨22, _⟩ => ⟨S1000x256, .f32⟩
  | .local _ .vmem, ⟨23, _⟩ => ⟨S1000x256, .f32⟩
  | .local _ .vmem, ⟨24, _⟩ => ⟨S1000x768, .f32⟩
  | .local _ .vmem, ⟨25, _⟩ => ⟨S1000x768, .f32⟩
  | .local _ .vmem, ⟨26, _⟩ => ⟨S768x256, .f32⟩
  | .local _ .vmem, ⟨27, _⟩ => ⟨S1x256, .f32⟩
  | .local _ .vmem, ⟨28, _⟩ => ⟨S1000x256, .f32⟩
  | .local _ .vmem, ⟨29, _⟩ => ⟨S1000x256, .f32⟩
  | _, _ => ⟨S20000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x768_0_1 : S320000x1.BroadcastsInDim S320000x768 (![0, 1] : Fin 2 → Fin S320000x768.rank)
  bcast_S_S20000x768 : S_.BroadcastsInDim S20000x768 (![] : Fin 0 → Fin S20000x768.rank)
  shapeCasts_S256_S1x256 : S256.ShapeCasts S1x256
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  concatenates_S20000x256_S20000x256_S20000x256_S20000x768_d1 : Shape.Concatenates [S20000x256, S20000x256, S20000x256] S20000x768 1
  gather_S20000x768_S320000x1_S320000x768_1_0_n_n_0_1_1768_wf : GatherDims.WF S20000x768 S320000x1 S320000x768 [1] [0] [] [0] [] 1 ![1, 768]
  scatter_S20000x768_S320000x1_S320000x768_1_0_0_1_wf : ScatterDims.WF S20000x768 S320000x1 S320000x768 [1] [0] [0] 1
  dot_S1000x768_S768x256_S1000x256_1_0_0_1_n_n_wf : DotDims.WF S1000x768 S768x256 S1000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S20000x768.size a
  hwx0_0 : ∀ i : grid0.Coords, EltTy.bits .f32 = 32 ∨ (Rect.block (s := S20000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S20000x768.size a
  hwx0_1 : ∀ i : grid0.Coords, EltTy.bits .f32 = 32 ∨ (Rect.block (s := S20000x768) S1000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .f32 = 32 ∨ (Rect.block (s := S768x256) S768x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S20000x256.size a
  hwx0_4 : ∀ i : grid0.Coords, EltTy.bits .f32 = 32 ∨ (Rect.block (s := S20000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S20000x256.size a
  hwx1_1 : ∀ i : grid1.Coords, EltTy.bits .f32 = 32 ∨ (Rect.block (s := S20000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S20000x256.size a
  hwx1_4 : ∀ i : grid1.Coords, EltTy.bits .f32 = 32 ∨ (Rect.block (s := S20000x256) S1000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S20000x256.size a
  hwx2_0 : ∀ i : grid2.Coords, EltTy.bits .f32 = 32 ∨ (Rect.block (s := S20000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S20000x256.size a
  hwx2_1 : ∀ i : grid2.Coords, EltTy.bits .f32 = 32 ∨ (Rect.block (s := S20000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S20000x256.size a
  hwx2_4 : ∀ i : grid2.Coords, EltTy.bits .f32 = 32 ∨ (Rect.block (s := S20000x256) S1000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x768.size a ≤ S20000x768.size a
  hwx3_0 : ∀ i : grid3.Coords, EltTy.bits .f32 = 32 ∨ (Rect.block (s := S20000x768) S1000x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x256.size a ≤ S768x256.size a
  hwx3_1 : ∀ i : grid3.Coords, EltTy.bits .f32 = 32 ∨ (Rect.block (s := S768x256) S768x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S20000x256.size a
  hwx3_3 : ∀ i : grid3.Coords, EltTy.bits .f32 = 32 ∨ (Rect.block (s := S20000x256) S1000x256.size (cc3_transform_3 i) (hinb3_3 i)).WholeWords (EltTy.packing .f32)

variable [Facts₀]

def gather_S20000x768_S320000x1_S320000x768_1_0_n_n_0_1_1768 : GatherDims S20000x768 S320000x1 S320000x768 where
  offsetDims := [1]
  collapsedSliceDims := [0]
  operandBatchingDims := []
  startIndicesBatchingDims := []
  startIndexMap := [0]
  indexVectorDim := 1
  sliceSizes := ![1, 768]
  wf := gather_S20000x768_S320000x1_S320000x768_1_0_n_n_0_1_1768_wf
def scatter_S20000x768_S320000x1_S320000x768_1_0_0_1 : ScatterDims S20000x768 S320000x1 S320000x768 where
  updateWindowDims := [1]
  insertedWindowDims := [0]
  scatterDimsToOperandDims := [0]
  indexVectorDim := 1
  wf := scatter_S20000x768_S320000x1_S320000x768_1_0_0_1_wf
def dot_S1000x768_S768x256_S1000x256_1_0_0_1_n_n : DotDims S1000x768 S768x256 S1000x256 where
  lhsContracting := [1]
  rhsContracting := [0]
  lhsNonContracting := [0]
  rhsNonContracting := [1]
  lhsBatch := []
  rhsBatch := []
  wf := dot_S1000x768_S768x256_S1000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S1000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S768x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x768 : Shape := ⟨2, ![20000, 768]⟩
abbrev S320000 : Shape := ⟨1, ![320000]⟩
abbrev S768x256 : Shape := ⟨2, ![768, 256]⟩
abbrev S256 : Shape := ⟨1, ![256]⟩
abbrev S256x256 : Shape := ⟨2, ![256, 256]⟩
abbrev S_ : Shape := ⟨0, ![]⟩
abbrev S320000x1 : Shape := ⟨2, ![320000, 1]⟩
abbrev S320000x768 : Shape := ⟨2, ![320000, 768]⟩
abbrev S20000x256 : Shape := ⟨2, ![20000, 256]⟩
abbrev S1x256 : Shape := ⟨2, ![1, 256]⟩
abbrev S320000x256 : Shape := ⟨2, ![320000, 256]⟩

abbrev nBuf : Space → Nat
  | .hbm => 101
  | .vmem => 0
  | .smem => 0
  | _ => 0

abbrev bufTy : (tb : Table) → Fin (tcTables nBuf tb) → BufTy
  | .hbm, ⟨0, _⟩ => ⟨S20000x768, .f32⟩
  | .hbm, ⟨1, _⟩ => ⟨S320000, .f32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S768x256, .f32⟩
  | .hbm, ⟨9, _⟩ => ⟨S256, .f32⟩
  | .hbm, ⟨10, _⟩ => ⟨S320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x768, .f32⟩
  | .hbm, ⟨21, _⟩ => ⟨S320000x1, .f32⟩
  | .hbm, ⟨22, _⟩ => ⟨S320000x768, .f32⟩
  | .hbm, ⟨23, _⟩ => ⟨S320000x768, .f32⟩
  | .hbm, ⟨24, _⟩ => ⟨S_, .f32⟩
  | .hbm, ⟨25, _⟩ => ⟨S20000x768, .f32⟩
  | .hbm, ⟨26, _⟩ => ⟨S320000x1, .i32⟩
  | .hbm, ⟨27, _⟩ => ⟨S20000x768, .f32⟩
  | .hbm, ⟨28, _⟩ => ⟨S_, .f32⟩
  | .hbm, ⟨29, _⟩ => ⟨S20000x768, .f32⟩
  | .hbm, ⟨30, _⟩ => ⟨S20000x768, .f32⟩
  | .hbm, ⟨31, _⟩ => ⟨S20000x768, .f32⟩
  | .hbm, ⟨32, _⟩ => ⟨S20000x256, .f32⟩
  | .hbm, ⟨33, _⟩ => ⟨S1x256, .f32⟩
  | .hbm, ⟨34, _⟩ => ⟨S20000x256, .f32⟩
  | .hbm, ⟨35, _⟩ => ⟨S20000x256, .f32⟩
  | .hbm, ⟨36, _⟩ => ⟨S_, .f32⟩
  | .hbm, ⟨37, _⟩ => ⟨S20000x256, .f32⟩
  | .hbm, ⟨38, _⟩ => ⟨S20000x256, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x256, .f32⟩
  | .hbm, ⟨48, _⟩ => ⟨S320000x1, .f32⟩
  | .hbm, ⟨49, _⟩ => ⟨S320000x256, .f32⟩
  | .hbm, ⟨50, _⟩ => ⟨S320000x256, .f32⟩
  | .hbm, ⟨51, _⟩ => ⟨S_, .f32⟩
  | .hbm, ⟨52, _⟩ => ⟨S20000x256, .f32⟩
  | .hbm, ⟨53, _⟩ => ⟨S320000x1, .i32⟩
  | .hbm, ⟨54, _⟩ => ⟨S20000x256, .f32⟩
  | .hbm, ⟨55, _⟩ => ⟨S_, .f32⟩
  | .hbm, ⟨56, _⟩ => ⟨S20000x256, .f32⟩
  | .hbm, ⟨57, _⟩ => ⟨S20000x256, .f32⟩
  | .hbm, ⟨58, _⟩ => ⟨S20000x256, .f32⟩
  | .hbm, ⟨59, _⟩ => ⟨S20000x256, .f32⟩
  | .hbm, ⟨60, _⟩ => ⟨S1x256, .f32⟩
  | .hbm, ⟨61, _⟩ => ⟨S20000x256, .f32⟩
  | .hbm, ⟨62, _⟩ => ⟨S20000x256, .f32⟩
  | .hbm, ⟨63, _⟩ => ⟨S_, .f32⟩
  | .hbm, ⟨64, _⟩ => ⟨S20000x256, .f32⟩
  | .hbm, ⟨65, _⟩ => ⟨S20000x256, .f32⟩
  | .hbm, ⟨66, _⟩ => ⟨S_, .i32⟩
  | .hbm, ⟨67, _⟩ => ⟨S320000, .i32⟩
  | .hbm, ⟨68, _⟩ => ⟨S320000, .i1⟩
  | .hbm, ⟨69, _⟩ => ⟨S_, .i32⟩
  | .hbm, ⟨70, _⟩ => ⟨S320000, .i32⟩
  | .hbm, ⟨71, _⟩ => ⟨S320000, .i32⟩
  | .hbm, ⟨72, _⟩ => ⟨S320000, .i32⟩
  | .hbm, ⟨73, _⟩ => ⟨S320000x1, .i32⟩
  | .hbm, ⟨74, _⟩ => ⟨S320000x256, .f32⟩
  | .hbm, ⟨75, _⟩ => ⟨S320000x1, .f32⟩
  | .hbm, ⟨76, _⟩ => ⟨S320000x256, .f32⟩
  | .hbm, ⟨77, _⟩ => ⟨S320000x256, .f32⟩
  | .hbm, ⟨78, _⟩ => ⟨S_, .f32⟩
  | .hbm, ⟨79, _⟩ => ⟨S20000x256, .f32⟩
  | .hbm, ⟨80, _⟩ => ⟨S320000x1, .i32⟩
  | .hbm, ⟨81, _⟩ => ⟨S20000x256, .f32⟩
  | .hbm, ⟨82, _⟩ => ⟨S_, .f32⟩
  | .hbm, ⟨83, _⟩ => ⟨S20000x256, .f32⟩
  | .hbm, ⟨84, _⟩ => ⟨S20000x256, .f32⟩
  | .hbm, ⟨85, _⟩ => ⟨S20000x256, .f32⟩
  | .hbm, ⟨86, _⟩ => ⟨S20000x256, .f32⟩
  | .hbm, ⟨87, _⟩ => ⟨S1x256, .f32⟩
  | .hbm, ⟨88, _⟩ => ⟨S20000x256, .f32⟩
  | .hbm, ⟨89, _⟩ => ⟨S20000x256, .f32⟩
  | .hbm, ⟨90, _⟩ => ⟨S_, .f32⟩
  | .hbm, ⟨91, _⟩ => ⟨S20000x256, .f32⟩
  | .hbm, ⟨92, _⟩ => ⟨S20000x256, .f32⟩
  | .hbm, ⟨93, _⟩ => ⟨S20000x768, .f32⟩
  | .hbm, ⟨94, _⟩ => ⟨S_, .f32⟩
  | .hbm, ⟨95, _⟩ => ⟨S20000x768, .f32⟩
  | .hbm, ⟨96, _⟩ => ⟨S20000x768, .f32⟩
  | .hbm, ⟨97, _⟩ => ⟨S20000x256, .f32⟩
  | .hbm, ⟨98, _⟩ => ⟨S1x256, .f32⟩
  | .hbm, ⟨99, _⟩ => ⟨S20000x256, .f32⟩
  | .hbm, ⟨100, _⟩ => ⟨S20000x256, .f32⟩
  | _, _ => ⟨S20000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call2_cst : Ref sig .tc := ⟨.hbm, 90, rfl⟩
abbrev main_call2_v0 : Ref sig .tc := ⟨.hbm, 91, rfl⟩
abbrev main_v62 : Ref sig .tc := ⟨.hbm, 92, rfl⟩
abbrev main_v63 : Ref sig .tc := ⟨.hbm, 93, rfl⟩
abbrev main_call3_cst : Ref sig .tc := ⟨.hbm, 94, rfl⟩
abbrev main_call3_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x768_0_1 : S320000x1.BroadcastsInDim S320000x768 (![0, 1] : Fin 2 → Fin S320000x768.rank)
  bcast_S_S20000x768 : S_.BroadcastsInDim S20000x768 (![] : Fin 0 → Fin S20000x768.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S320000x1_S320000x256_0_1 : S320000x1.BroadcastsInDim S320000x256 (![0, 1] : Fin 2 → Fin S320000x256.rank)
  concatenates_S20000x256_S20000x256_S20000x256_S20000x768_d1 : Shape.Concatenates [S20000x256, S20000x256, S20000x256] S20000x768 1
  gather_S20000x768_S320000x1_S320000x768_1_0_n_n_0_1_1768_wf : GatherDims.WF S20000x768 S320000x1 S320000x768 [1] [0] [] [0] [] 1 ![1, 768]
  scatter_S20000x768_S320000x1_S320000x768_1_0_0_1_wf : ScatterDims.WF S20000x768 S320000x1 S320000x768 [1] [0] [0] 1
  dot_S20000x768_S768x256_S20000x256_1_0_0_1_n_n_wf : DotDims.WF S20000x768 S768x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []

variable [Facts₀]

def gather_S20000x768_S320000x1_S320000x768_1_0_n_n_0_1_1768 : GatherDims S20000x768 S320000x1 S320000x768 where
  offsetDims := [1]
  collapsedSliceDims := [0]
  operandBatchingDims := []
  startIndicesBatchingDims := []
  startIndexMap := [0]
  indexVectorDim := 1
  sliceSizes := ![1, 768]
  wf := gather_S20000x768_S320000x1_S320000x768_1_0_n_n_0_1_1768_wf
def scatter_S20000x768_S320000x1_S320000x768_1_0_0_1 : ScatterDims S20000x768 S320000x1 S320000x768 where
  updateWindowDims := [1]
  insertedWindowDims := [0]
  scatterDimsToOperandDims := [0]
  indexVectorDim := 1
  wf := scatter_S20000x768_S320000x1_S320000x768_1_0_0_1_wf
def dot_S20000x768_S768x256_S20000x256_1_0_0_1_n_n : DotDims S20000x768 S768x256 S20000x256 where
  lhsContracting := [1]
  rhsContracting := [0]
  lhsNonContracting := [0]
  rhsNonContracting := [1]
  lhsBatch := []
  rhsBatch := []
  wf := dot_S20000x768_S768x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.K.Body0.lean ====
/-
  Region 0 of the program (a layer's fused step), at any float instance and at any contents `V` of the
  core's buffers on entry.

  The region walks 20 grid points. At point `t` it fetches rows [1000·t, 1000·t + 1000) of the node features and
  of their neighbour sums, keeps the whole weight matrix and the bias row resident, runs the body once, and
  writes the body's one store back as rows [1000·t, 1000·t + 1000) of the result. The body loads the four
  blocks, computes one value from them and stores it over the whole output block, so what it leaves in the
  output's staging buffer is that value and nothing else; the inputs' buffers are read only. This module
  states that as the pipeline's proof data and proves the body's obligation at every point.
-/
import proofs.«118984_j51049981280515_1_alg».proof.Proof.Gen.Kernel.Launch
import proofs.«118984_j51049981280515_1_alg».proof.Proof.Gen.Kernel.Skeleton
import proofs.«118984_j51049981280515_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (where it was not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there
    (where it was not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there
    (where it was not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not it was fetched there
    (where it was not, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_0 : Rect S1000x256 := Rect.unit (s := S1000x256) ![0, 0] S1000x256.size inb_S1000x256_S1000x256_0_0

/-- The rectangles the body loads through: each input block whole. -/
abbrev l0_a : Rect S1000x768 := Rect.unit (s := S1000x768) ![0, 0] S1000x768.size inb_S1000x768_S1000x768_0_0
abbrev l0_w : Rect S768x256 := Rect.unit (s := S768x256) ![0, 0] S768x256.size inb_S768x256_S768x256_0_0
abbrev l0_b : Rect S1x256 := Rect.unit (s := S1x256) ![0, 0] S1x256.size inb_S1x256_S1x256_0_0

/-- The output's staging buffer after the body: the one stored value, of the four loaded blocks, over the whole block. -/
def out0_4 (x0 : Vec F S1000x768 .f32) (x1 : Vec F S1000x768 .f32) (x2 : Vec F S768x256 .f32) (x3 : Vec F S1x256 .f32) : Vec F S1000x256 .f32 :=
  View.canon [⟨r0_0, k0_pay1 (View.ld x0 l0_a) (View.ld x1 l0_a) (View.ld x2 l0_w) (View.ld x3 l0_b)⟩]

/-- The store's rectangle is the whole block, so it covers it. -/
theorem cover0_4 (p0 : Vec F S1000x256 .f32) (y : S1000x256.Idx) :
    ∃ pc ∈ ([⟨r0_0, p0⟩] : List (View.Piece (Elt F) S1000x256 .f32)), y ∈ pc.1.set :=
  View.cover_of_tiled [⟨r0_0, p0⟩] S1000x256.size (by rfl) y

set_option maxHeartbeats 1000000 in
/-- The body on whole staging memrefs, the inputs' at contents `x0 … x3` and the output's at anything, runs to the
    continuation holding the inputs' as they were and the output's at `out0_4` of them. -/
theorem sound_kernel0 (c : Dev nD) (E : Set ℕ) (i : grid0.Coords)
    (arg1 : Memref sig .tc .vmem S1000x768 .f32) (harg1 : arg1.IsWhole) (arg2 : Memref sig .tc .vmem S1000x768 .f32) (harg2 : arg2.IsWhole)
    (arg3 : Memref sig .tc .vmem S768x256 .f32) (harg3 : arg3.IsWhole) (arg4 : Memref sig .tc .vmem S1x256 .f32) (harg4 : arg4.IsWhole)
    (arg5 : Memref sig .tc .vmem S1000x256 .f32) (harg5 : arg5.IsWhole)
    (x0 : Vec F S1000x768 .f32) (x1 : Vec F S1000x768 .f32) (x2 : Vec F S768x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gin_layer_kernel i arg1 harg1 arg2 harg2 arg3 harg3 arg4 harg4 arg5 harg5) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 (F := F) _)

/-- The pipeline's proof data on core `c`: the arrays as the region finds them; after the body at point `t` each
    input's buffer at its block and the output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  Region 1 of the program (a layer's fused step), at any float instance and at any contents `V` of the
  core's buffers on entry.

  The region walks 20 grid points. At point `t` it fetches rows [1000·t, 1000·t + 1000) of the node features and
  of their neighbour sums, keeps the whole weight matrix and the bias row resident, runs the body once, and
  writes the body's one store back as rows [1000·t, 1000·t + 1000) of the result. The body loads the four
  blocks, computes one value from them and stores it over the whole output block, so what it leaves in the
  output's staging buffer is that value and nothing else; the inputs' buffers are read only. This module
  states that as the pipeline's proof data and proves the body's obligation at every point.
-/
import proofs.«118984_j51049981280515_1_alg».proof.Proof.Gen.Kernel.Launch
import proofs.«118984_j51049981280515_1_alg».proof.Proof.Gen.Kernel.Skeleton
import proofs.«118984_j51049981280515_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there
    (where it was not, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there
    (where it was not, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there
    (where it was not, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it was fetched there
    (where it was not, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev r1_0 : Rect S1000x256 := Rect.unit (s := S1000x256) ![0, 0] S1000x256.size inb_S1000x256_S1000x256_0_0

/-- The rectangles the body loads through: each input block whole. -/
abbrev l1_a : Rect S1000x256 := Rect.unit (s := S1000x256) ![0, 0] S1000x256.size inb_S1000x256_S1000x256_0_0
abbrev l1_w : Rect S256x256 := Rect.unit (s := S256x256) ![0, 0] S256x256.size inb_S256x256_S256x256_0_0
abbrev l1_b : Rect S1x256 := Rect.unit (s := S1x256) ![0, 0] S1x256.size inb_S1x256_S1x256_0_0

/-- The output's staging buffer after the body: the one stored value, of the four loaded blocks, over the whole block. -/
def out1_4 (x0 : Vec F S1000x256 .f32) (x1 : Vec F S1000x256 .f32) (x2 : Vec F S256x256 .f32) (x3 : Vec F S1x256 .f32) : Vec F S1000x256 .f32 :=
  View.canon [⟨r1_0, k1_pay1 (View.ld x0 l1_a) (View.ld x1 l1_a) (View.ld x2 l1_w) (View.ld x3 l1_b)⟩]

/-- The store's rectangle is the whole block, so it covers it. -/
theorem cover1_4 (p0 : Vec F S1000x256 .f32) (y : S1000x256.Idx) :
    ∃ pc ∈ ([⟨r1_0, p0⟩] : List (View.Piece (Elt F) S1000x256 .f32)), y ∈ pc.1.set :=
  View.cover_of_tiled [⟨r1_0, p0⟩] S1000x256.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg1 : Memref sig .tc .vmem S1000x256 .f32) (harg1 : arg1.IsWhole) (arg2 : Memref sig .tc .vmem S1000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S1000x256 .f32) (harg5 : arg5.IsWhole)
    (x0 : Vec F S1000x256 .f32) (x1 : Vec F S1000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gin_layer_kernel i arg1 harg1 arg2 harg2 arg3 harg3 arg4 harg4 arg5 harg5) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 (F := F) _)

/-- The pipeline's proof data on core `c`: the arrays as the region finds them; after the body at point `t` each
    input's buffer at its block and the output's at `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  Region 2 of the program (a layer's fused step), at any float instance and at any contents `V` of the
  core's buffers on entry.

  The region walks 20 grid points. At point `t` it fetches rows [1000·t, 1000·t + 1000) of the node features and
  of their neighbour sums, keeps the whole weight matrix and the bias row resident, runs the body once, and
  writes the body's one store back as rows [1000·t, 1000·t + 1000) of the result. The body loads the four
  blocks, computes one value from them and stores it over the whole output block, so what it leaves in the
  output's staging buffer is that value and nothing else; the inputs' buffers are read only. This module
  states that as the pipeline's proof data and proves the body's obligation at every point.
-/
import proofs.«118984_j51049981280515_1_alg».proof.Proof.Gen.Kernel.Launch
import proofs.«118984_j51049981280515_1_alg».proof.Proof.Gen.Kernel.Skeleton
import proofs.«118984_j51049981280515_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there
    (where it was not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there
    (where it was not, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there
    (where it was not, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there
    (where it was not, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body stores through: the whole output block. -/
abbrev r2_0 : Rect S1000x256 := Rect.unit (s := S1000x256) ![0, 0] S1000x256.size inb_S1000x256_S1000x256_0_0

/-- The rectangles the body loads through: each input block whole. -/
abbrev l2_a : Rect S1000x256 := Rect.unit (s := S1000x256) ![0, 0] S1000x256.size inb_S1000x256_S1000x256_0_0
abbrev l2_w : Rect S256x256 := Rect.unit (s := S256x256) ![0, 0] S256x256.size inb_S256x256_S256x256_0_0
abbrev l2_b : Rect S1x256 := Rect.unit (s := S1x256) ![0, 0] S1x256.size inb_S1x256_S1x256_0_0

/-- The output's staging buffer after the body: the one stored value, of the four loaded blocks, over the whole block. -/
def out2_4 (x0 : Vec F S1000x256 .f32) (x1 : Vec F S1000x256 .f32) (x2 : Vec F S256x256 .f32) (x3 : Vec F S1x256 .f32) : Vec F S1000x256 .f32 :=
  View.canon [⟨r2_0, k2_pay1 (View.ld x0 l2_a) (View.ld x1 l2_a) (View.ld x2 l2_w) (View.ld x3 l2_b)⟩]

/-- The store's rectangle is the whole block, so it covers it. -/
theorem cover2_4 (p0 : Vec F S1000x256 .f32) (y : S1000x256.Idx) :
    ∃ pc ∈ ([⟨r2_0, p0⟩] : List (View.Piece (Elt F) S1000x256 .f32)), y ∈ pc.1.set :=
  View.cover_of_tiled [⟨r2_0, p0⟩] S1000x256.size (by rfl) y

set_option maxHeartbeats 1000000 in
/-- The body on whole staging memrefs, the inputs' at contents `x0 … x3` and the output's at anything, runs to the
    continuation holding the inputs' as they were and the output's at `out2_4` of them. -/
theorem sound_kernel2 (c : Dev nD) (E : Set ℕ) (i : grid2.Coords)
    (arg1 : Memref sig .tc .vmem S1000x256 .f32) (harg1 : arg1.IsWhole) (arg2 : Memref sig .tc .vmem S1000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S1000x256 .f32) (harg5 : arg5.IsWhole)
    (x0 : Vec F S1000x256 .f32) (x1 : Vec F S1000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__gin_layer_kernel i arg1 harg1 arg2 harg2 arg3 harg3 arg4 harg4 arg5 harg5) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 (F := F) _)

/-- The pipeline's proof data on core `c`: the arrays as the region finds them; after the body at point `t` each
    input's buffer at its block and the output's at `out2_4` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Body3.lean ====
/-
  Region 3 of the program (the readout), at any float instance and at any contents `V` of the core's buffers
  on entry.

  The region walks 20 grid points. At point `t` it fetches rows [1000·t, 1000·t + 1000) of the joined layer
  outputs, keeps the readout weights and the bias row resident, runs the body once, and writes the body's one
  store back as rows [1000·t, 1000·t + 1000) of the result. The body loads the three blocks, computes one value
  from them and stores it over the whole output block; the inputs' buffers are read only. This module states
  that as the pipeline's proof data and proves the body's obligation at every point.
-/
import proofs.«118984_j51049981280515_1_alg».proof.Proof.Gen.Kernel.Launch
import proofs.«118984_j51049981280515_1_alg».proof.Proof.Gen.Kernel.Skeleton
import proofs.«118984_j51049981280515_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (where it was not, the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (where it was not, the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (where it was not, the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body stores through: the whole output block. -/
abbrev r3_0 : Rect S1000x256 := Rect.unit (s := S1000x256) ![0, 0] S1000x256.size inb_S1000x256_S1000x256_0_0

/-- The rectangles the body loads through: each input block whole. -/
abbrev l3_a : Rect S1000x768 := Rect.unit (s := S1000x768) ![0, 0] S1000x768.size inb_S1000x768_S1000x768_0_0
abbrev l3_w : Rect S768x256 := Rect.unit (s := S768x256) ![0, 0] S768x256.size inb_S768x256_S768x256_0_0
abbrev l3_b : Rect S1x256 := Rect.unit (s := S1x256) ![0, 0] S1x256.size inb_S1x256_S1x256_0_0

/-- The output's staging buffer after the body: the one stored value, of the three loaded blocks, over the whole block. -/
def out3_3 (x0 : Vec F S1000x768 .f32) (x1 : Vec F S768x256 .f32) (x2 : Vec F S1x256 .f32) : Vec F S1000x256 .f32 :=
  View.canon [⟨r3_0, k3_pay1 (View.ld x0 l3_a) (View.ld x1 l3_w) (View.ld x2 l3_b)⟩]

/-- The store's rectangle is the whole block, so it covers it. -/
theorem cover3_3 (p0 : Vec F S1000x256 .f32) (y : S1000x256.Idx) :
    ∃ pc ∈ ([⟨r3_0, p0⟩] : List (View.Piece (Elt F) S1000x256 .f32)), y ∈ pc.1.set :=
  View.cover_of_tiled [⟨r3_0, p0⟩] S1000x256.size (by rfl) y

set_option maxHeartbeats 1000000 in
/-- The body on whole staging memrefs, the inputs' at contents `x0 x1 x2` and the output's at anything, runs to the
    continuation holding the inputs' as they were and the output's at `out3_3` of them. -/
theorem sound_kernel3 (c : Dev nD) (E : Set ℕ) (i : grid3.Coords)
    (arg1 : Memref sig .tc .vmem S1000x768 .f32) (harg1 : arg1.IsWhole) (arg2 : Memref sig .tc .vmem S768x256 .f32) (harg2 : arg2.IsWhole)
    (arg3 : Memref sig .tc .vmem S1x256 .f32) (harg3 : arg3.IsWhole) (arg4 : Memref sig .tc .vmem S1000x256 .f32) (harg4 : arg4.IsWhole)
    (x0 : Vec F S1000x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 (F := F) _)

/-- The pipeline's proof data on core `c`: the arrays as the region finds them; after the body at point `t` each
    input's buffer at its block and the output's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Run.lean ====
/-
  The whole run of the program, at any float instance: @main as eight items in order — a stretch of array
  operations on the host, then a kernel region, four times over.

  The contents of the core's buffers are followed through the items as a fold from the launch memory: a host
  stretch applies its operations; a region leaves every buffer as it found it except its one result array, which
  ends at what the region's write-backs leave. Each region is entered with every buffer at the fold's contents
  and left with them at the next; the launch deals the first state and the last is read against the final
  memory. So every weakly fair execution terminates, nothing faulting, with EVERY buffer at the fold's last
  contents `W8`: the twelve arguments as launched (no item writes one), and the result at what region 3 leaves.
-/
import proofs.«118984_j51049981280515_1_alg».proof.Proof.K.Body0
import proofs.«118984_j51049981280515_1_alg».proof.Proof.K.Body1
import proofs.«118984_j51049981280515_1_alg».proof.Proof.K.Body2
import proofs.«118984_j51049981280515_1_alg».proof.Proof.K.Body3
import proofs.«118984_j51049981280515_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core `c`'s buffers at launch. -/
abbrev W0 : Dev nD → Valuation τ sig (Elt F) := fun c b => m (c, b)

/-- After the host stretch `hostOps0`: region 0's entry. -/
abbrev W1 : Dev nD → Valuation τ sig (Elt F) := fun c => StableHlo.after hostOps0 (W0 m c)
/-- The same read at the TensorCore's references: what region 0's proof data take. -/
abbrev En0 : (c : Dev nD) → (b : Ref sig .tc) → Buf (Elt F) ((c : Thread nD τ).loc b) := fun c b => W1 m c b
/-- At region 0's exit: its arrays at what the pipeline leaves (the inputs as entered, the output's write-backs
    folded over the grid), every other buffer as entered. -/
def W2 (c : Dev nD) : Valuation τ sig (Elt F) :=
  Pipeline.withArrays spec0 c (W1 m c) fun w => (dat0 (En0 m) c).arrAt w cfg0.N
theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: region 0's exit contents. -/
abbrev Ex0 : (c : Dev nD) → (b : Ref sig .tc) → Buf (Elt F) ((c : Thread nD τ).loc b) := fun c b => W2 m c b
theorem hF0 (c : Dev nD) (w : Fin cfg0.W) : (dat0 (En0 m) c).arrAt w cfg0.N = Ex0 m c (Pipeline.arrRef spec0 w) :=
  (W2_arr m c w).symm
theorem hrest0 (c : Dev nD) : ∀ b, b ∉ Finset.univ.image (Pipeline.arrRef spec0) → Ex0 m c b = En0 m c b :=
  fun b hb => W2_of_ne m c b fun w e => hb (Finset.mem_image.mpr ⟨w, Finset.mem_univ _, e⟩)
/-- The region changes one buffer only, its result `main_v14`: an input window's array leaves as it entered, and a
    buffer that is no array of the region is not touched. -/
theorem W2_keep (c : Dev nD) (b : Ref sig .tc) (hb : b ≠ main_v14) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (En0 m) c).arrAt_in 0 rfl _).trans (A_eq0 (En0 m) c 0)
    | ⟨1, _⟩ => exact ((dat0 (En0 m) c).arrAt_in 1 rfl _).trans (A_eq0 (En0 m) c 1)
    | ⟨2, _⟩ => exact ((dat0 (En0 m) c).arrAt_in 2 rfl _).trans (A_eq0 (En0 m) c 2)
    | ⟨3, _⟩ => exact ((dat0 (En0 m) c).arrAt_in 3 rfl _).trans (A_eq0 (En0 m) c 3)
    | ⟨4, _⟩ => exact absurd rfl hb
  · exact W2_of_ne m c b fun w e => h ⟨w, e⟩

/-- After the host stretch `hostOps1`: region 1's entry. -/
abbrev W3 : Dev nD → Valuation τ sig (Elt F) := fun c => StableHlo.after hostOps1 (W2 m c)
/-- The same read at the TensorCore's references: what region 1's proof data take. -/
abbrev En1 : (c : Dev nD) → (b : Ref sig .tc) → Buf (Elt F) ((c : Thread nD τ).loc b) := fun c b => W3 m c b
/-- At region 1's exit: its arrays at what the pipeline leaves (the inputs as entered, the output's write-backs
    folded over the grid), every other buffer as entered. -/
def W4 (c : Dev nD) : Valuation τ sig (Elt F) :=
  Pipeline.withArrays spec1 c (W3 m c) fun w => (dat1 (En1 m) c).arrAt w cfg1.N
theorem W4_arr (c : Dev nD) (w : Fin cfg1.W) :
    W4 m c (Proc.devRef .tc (Pipeline.arrRef spec1 w)) = (dat1 (En1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references: region 1's exit contents. -/
abbrev Ex1 : (c : Dev nD) → (b : Ref sig .tc) → Buf (Elt F) ((c : Thread nD τ).loc b) := fun c b => W4 m c b
theorem hF1 (c : Dev nD) (w : Fin cfg1.W) : (dat1 (En1 m) c).arrAt w cfg1.N = Ex1 m c (Pipeline.arrRef spec1 w) :=
  (W4_arr m c w).symm
theorem hrest1 (c : Dev nD) : ∀ b, b ∉ Finset.univ.image (Pipeline.arrRef spec1) → Ex1 m c b = En1 m c b :=
  fun b hb => W4_of_ne m c b fun w e => hb (Finset.mem_image.mpr ⟨w, Finset.mem_univ _, e⟩)
/-- The region changes one buffer only, its result `main_v29`: an input window's array leaves as it entered, and a
    buffer that is no array of the region is not touched. -/
theorem W4_keep (c : Dev nD) (b : Ref sig .tc) (hb : b ≠ main_v29) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (En1 m) c).arrAt_in 0 rfl _).trans (A_eq1 (En1 m) c 0)
    | ⟨1, _⟩ => exact ((dat1 (En1 m) c).arrAt_in 1 rfl _).trans (A_eq1 (En1 m) c 1)
    | ⟨2, _⟩ => exact ((dat1 (En1 m) c).arrAt_in 2 rfl _).trans (A_eq1 (En1 m) c 2)
    | ⟨3, _⟩ => exact ((dat1 (En1 m) c).arrAt_in 3 rfl _).trans (A_eq1 (En1 m) c 3)
    | ⟨4, _⟩ => exact absurd rfl hb
  · exact W4_of_ne m c b fun w e => h ⟨w, e⟩

/-- After the host stretch `hostOps2`: region 2's entry. -/
abbrev W5 : Dev nD → Valuation τ sig (Elt F) := fun c => StableHlo.after hostOps2 (W4 m c)
/-- The same read at the TensorCore's references: what region 2's proof data take. -/
abbrev En2 : (c : Dev nD) → (b : Ref sig .tc) → Buf (Elt F) ((c : Thread nD τ).loc b) := fun c b => W5 m c b
/-- At region 2's exit: its arrays at what the pipeline leaves (the inputs as entered, the output's write-backs
    folded over the grid), every other buffer as entered. -/
def W6 (c : Dev nD) : Valuation τ sig (Elt F) :=
  Pipeline.withArrays spec2 c (W5 m c) fun w => (dat2 (En2 m) c).arrAt w cfg2.N
theorem W6_arr (c : Dev nD) (w : Fin cfg2.W) :
    W6 m c (Proc.devRef .tc (Pipeline.arrRef spec2 w)) = (dat2 (En2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references: region 2's exit contents. -/
abbrev Ex2 : (c : Dev nD) → (b : Ref sig .tc) → Buf (Elt F) ((c : Thread nD τ).loc b) := fun c b => W6 m c b
theorem hF2 (c : Dev nD) (w : Fin cfg2.W) : (dat2 (En2 m) c).arrAt w cfg2.N = Ex2 m c (Pipeline.arrRef spec2 w) :=
  (W6_arr m c w).symm
theorem hrest2 (c : Dev nD) : ∀ b, b ∉ Finset.univ.image (Pipeline.arrRef spec2) → Ex2 m c b = En2 m c b :=
  fun b hb => W6_of_ne m c b fun w e => hb (Finset.mem_image.mpr ⟨w, Finset.mem_univ _, e⟩)
/-- The region changes one buffer only, its result `main_v44`: an input window's array leaves as it entered, and a
    buffer that is no array of the region is not touched. -/
theorem W6_keep (c : Dev nD) (b : Ref sig .tc) (hb : b ≠ main_v44) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (En2 m) c).arrAt_in 0 rfl _).trans (A_eq2 (En2 m) c 0)
    | ⟨1, _⟩ => exact ((dat2 (En2 m) c).arrAt_in 1 rfl _).trans (A_eq2 (En2 m) c 1)
    | ⟨2, _⟩ => exact ((dat2 (En2 m) c).arrAt_in 2 rfl _).trans (A_eq2 (En2 m) c 2)
    | ⟨3, _⟩ => exact ((dat2 (En2 m) c).arrAt_in 3 rfl _).trans (A_eq2 (En2 m) c 3)
    | ⟨4, _⟩ => exact absurd rfl hb
  · exact W6_of_ne m c b fun w e => h ⟨w, e⟩

/-- After the host stretch `hostOps3`: region 3's entry. -/
abbrev W7 : Dev nD → Valuation τ sig (Elt F) := fun c => StableHlo.after hostOps3 (W6 m c)
/-- The same read at the TensorCore's references: what region 3's proof data take. -/
abbrev En3 : (c : Dev nD) → (b : Ref sig .tc) → Buf (Elt F) ((c : Thread nD τ).loc b) := fun c b => W7 m c b
/-- At region 3's exit: its arrays at what the pipeline leaves (the inputs as entered, the output's write-backs
    folded over the grid), every other buffer as entered. -/
def W8 (c : Dev nD) : Valuation τ sig (Elt F) :=
  Pipeline.withArrays spec3 c (W7 m c) fun w => (dat3 (En3 m) c).arrAt w cfg3.N
theorem W8_arr (c : Dev nD) (w : Fin cfg3.W) :
    W8 m c (Proc.devRef .tc (Pipeline.arrRef spec3 w)) = (dat3 (En3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references: region 3's exit contents. -/
abbrev Ex3 : (c : Dev nD) → (b : Ref sig .tc) → Buf (Elt F) ((c : Thread nD τ).loc b) := fun c b => W8 m c b
theorem hF3 (c : Dev nD) (w : Fin cfg3.W) : (dat3 (En3 m) c).arrAt w cfg3.N = Ex3 m c (Pipeline.arrRef spec3 w) :=
  (W8_arr m c w).symm
theorem hrest3 (c : Dev nD) : ∀ b, b ∉ Finset.univ.image (Pipeline.arrRef spec3) → Ex3 m c b = En3 m c b :=
  fun b hb => W8_of_ne m c b fun w e => hb (Finset.mem_image.mpr ⟨w, Finset.mem_univ _, e⟩)
/-- The region changes one buffer only, its result `main_v47`: an input window's array leaves as it entered, and a
    buffer that is no array of the region is not touched. -/
theorem W8_keep (c : Dev nD) (b : Ref sig .tc) (hb : b ≠ main_v47) :
    W8 m c (Proc.devRef .tc b) = W7 m c (Proc.devRef .tc b) := by
  by_cases h : ∃ w, Pipeline.arrRef spec3 w = b
  · obtain ⟨w, rfl⟩ := h
    rw [W8_arr]
    match w with
    | ⟨0, _⟩ => exact ((dat3 (En3 m) c).arrAt_in 0 rfl _).trans (A_eq3 (En3 m) c 0)
    | ⟨1, _⟩ => exact ((dat3 (En3 m) c).arrAt_in 1 rfl _).trans (A_eq3 (En3 m) c 1)
    | ⟨2, _⟩ => exact ((dat3 (En3 m) c).arrAt_in 2 rfl _).trans (A_eq3 (En3 m) c 2)
    | ⟨3, _⟩ => exact absurd rfl hb
  · exact W8_of_ne m c b fun w e => h ⟨w, e⟩

/-! ## The arguments end as launched -/

/-- `main_arg0` reaches the end as launched: no host stretch writes it and no region's result is it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_keep m c main_arg0 (by decide)
    _ = W6 m c (Proc.devRef .tc main_arg0) := StableHlo.after_of_writes_sub hostOps3 _ hostOps3_writes (by decide)
    _ = W5 m c (Proc.devRef .tc main_arg0) := W6_keep m c main_arg0 (by decide)
    _ = W4 m c (Proc.devRef .tc main_arg0) := StableHlo.after_of_writes_sub hostOps2 _ hostOps2_writes (by decide)
    _ = W3 m c (Proc.devRef .tc main_arg0) := W4_keep m c main_arg0 (by decide)
    _ = W2 m c (Proc.devRef .tc main_arg0) := StableHlo.after_of_writes_sub hostOps1 _ hostOps1_writes (by decide)
    _ = W1 m c (Proc.devRef .tc main_arg0) := W2_keep m c main_arg0 (by decide)
    _ = W0 m c (Proc.devRef .tc main_arg0) := StableHlo.after_of_writes_sub hostOps0 _ hostOps0_writes (by decide)
    _ = m ((c : Thread nD τ).loc main_arg0) := rfl

/-- `main_arg1` reaches the end as launched: no host stretch writes it and no region's result is it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_keep m c main_arg1 (by decide)
    _ = W6 m c (Proc.devRef .tc main_arg1) := StableHlo.after_of_writes_sub hostOps3 _ hostOps3_writes (by decide)
    _ = W5 m c (Proc.devRef .tc main_arg1) := W6_keep m c main_arg1 (by decide)
    _ = W4 m c (Proc.devRef .tc main_arg1) := StableHlo.after_of_writes_sub hostOps2 _ hostOps2_writes (by decide)
    _ = W3 m c (Proc.devRef .tc main_arg1) := W4_keep m c main_arg1 (by decide)
    _ = W2 m c (Proc.devRef .tc main_arg1) := StableHlo.after_of_writes_sub hostOps1 _ hostOps1_writes (by decide)
    _ = W1 m c (Proc.devRef .tc main_arg1) := W2_keep m c main_arg1 (by decide)
    _ = W0 m c (Proc.devRef .tc main_arg1) := StableHlo.after_of_writes_sub hostOps0 _ hostOps0_writes (by decide)
    _ = m ((c : Thread nD τ).loc main_arg1) := rfl

/-- `main_arg2` reaches the end as launched: no host stretch writes it and no region's result is it. -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_keep m c main_arg2 (by decide)
    _ = W6 m c (Proc.devRef .tc main_arg2) := StableHlo.after_of_writes_sub hostOps3 _ hostOps3_writes (by decide)
    _ = W5 m c (Proc.devRef .tc main_arg2) := W6_keep m c main_arg2 (by decide)
    _ = W4 m c (Proc.devRef .tc main_arg2) := StableHlo.after_of_writes_sub hostOps2 _ hostOps2_writes (by decide)
    _ = W3 m c (Proc.devRef .tc main_arg2) := W4_keep m c main_arg2 (by decide)
    _ = W2 m c (Proc.devRef .tc main_arg2) := StableHlo.after_of_writes_sub hostOps1 _ hostOps1_writes (by decide)
    _ = W1 m c (Proc.devRef .tc main_arg2) := W2_keep m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host stretch writes it and no region's result is it. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_keep m c main_arg3 (by decide)
    _ = W6 m c (Proc.devRef .tc main_arg3) := StableHlo.after_of_writes_sub hostOps3 _ hostOps3_writes (by decide)
    _ = W5 m c (Proc.devRef .tc main_arg3) := W6_keep m c main_arg3 (by decide)
    _ = W4 m c (Proc.devRef .tc main_arg3) := StableHlo.after_of_writes_sub hostOps2 _ hostOps2_writes (by decide)
    _ = W3 m c (Proc.devRef .tc main_arg3) := W4_keep m c main_arg3 (by decide)
    _ = W2 m c (Proc.devRef .tc main_arg3) := StableHlo.after_of_writes_sub hostOps1 _ hostOps1_writes (by decide)
    _ = W1 m c (Proc.devRef .tc main_arg3) := W2_keep m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host stretch writes it and no region's result is it. -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_keep m c main_arg4 (by decide)
    _ = W6 m c (Proc.devRef .tc main_arg4) := StableHlo.after_of_writes_sub hostOps3 _ hostOps3_writes (by decide)
    _ = W5 m c (Proc.devRef .tc main_arg4) := W6_keep m c main_arg4 (by decide)
    _ = W4 m c (Proc.devRef .tc main_arg4) := StableHlo.after_of_writes_sub hostOps2 _ hostOps2_writes (by decide)
    _ = W3 m c (Proc.devRef .tc main_arg4) := W4_keep m c main_arg4 (by decide)
    _ = W2 m c (Proc.devRef .tc main_arg4) := StableHlo.after_of_writes_sub hostOps1 _ hostOps1_writes (by decide)
    _ = W1 m c (Proc.devRef .tc main_arg4) := W2_keep m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host stretch writes it and no region's result is it. -/
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_keep m c main_arg5 (by decide)
    _ = W6 m c (Proc.devRef .tc main_arg5) := StableHlo.after_of_writes_sub hostOps3 _ hostOps3_writes (by decide)
    _ = W5 m c (Proc.devRef .tc main_arg5) := W6_keep m c main_arg5 (by decide)
    _ = W4 m c (Proc.devRef .tc main_arg5) := StableHlo.after_of_writes_sub hostOps2 _ hostOps2_writes (by decide)
    _ = W3 m c (Proc.devRef .tc main_arg5) := W4_keep m c main_arg5 (by decide)
    _ = W2 m c (Proc.devRef .tc main_arg5) := StableHlo.after_of_writes_sub hostOps1 _ hostOps1_writes (by decide)
    _ = W1 m c (Proc.devRef .tc main_arg5) := W2_keep m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host stretch writes it and no region's result is it. -/
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_keep m c main_arg6 (by decide)
    _ = W6 m c (Proc.devRef .tc main_arg6) := StableHlo.after_of_writes_sub hostOps3 _ hostOps3_writes (by decide)
    _ = W5 m c (Proc.devRef .tc main_arg6) := W6_keep m c main_arg6 (by decide)
    _ = W4 m c (Proc.devRef .tc main_arg6) := StableHlo.after_of_writes_sub hostOps2 _ hostOps2_writes (by decide)
    _ = W3 m c (Proc.devRef .tc main_arg6) := W4_keep m c main_arg6 (by decide)
    _ = W2 m c (Proc.devRef .tc main_arg6) := StableHlo.after_of_writes_sub hostOps1 _ hostOps1_writes (by decide)
    _ = W1 m c (Proc.devRef .tc main_arg6) := W2_keep m c main_arg6 (by decide)
    _ = W0 m c (Proc.devRef .tc main_arg6) := StableHlo.after_of_writes_sub hostOps0 _ hostOps0_writes (by decide)
    _ = m ((c : Thread nD τ).loc main_arg6) := rfl

/-- `main_arg7` reaches the end as launched: no host stretch writes it and no region's result is it. -/
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_keep m c main_arg7 (by decide)
    _ = W6 m c (Proc.devRef .tc main_arg7) := StableHlo.after_of_writes_sub hostOps3 _ hostOps3_writes (by decide)
    _ = W5 m c (Proc.devRef .tc main_arg7) := W6_keep m c main_arg7 (by decide)
    _ = W4 m c (Proc.devRef .tc main_arg7) := StableHlo.after_of_writes_sub hostOps2 _ hostOps2_writes (by decide)
    _ = W3 m c (Proc.devRef .tc main_arg7) := W4_keep m c main_arg7 (by decide)
    _ = W2 m c (Proc.devRef .tc main_arg7) := StableHlo.after_of_writes_sub hostOps1 _ hostOps1_writes (by decide)
    _ = W1 m c (Proc.devRef .tc main_arg7) := W2_keep m c main_arg7 (by decide)
    _ = W0 m c (Proc.devRef .tc main_arg7) := StableHlo.after_of_writes_sub hostOps0 _ hostOps0_writes (by decide)
    _ = m ((c : Thread nD τ).loc main_arg7) := rfl

/-- `main_arg8` reaches the end as launched: no host stretch writes it and no region's result is it. -/
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_keep m c main_arg8 (by decide)
    _ = W6 m c (Proc.devRef .tc main_arg8) := StableHlo.after_of_writes_sub hostOps3 _ hostOps3_writes (by decide)
    _ = W5 m c (Proc.devRef .tc main_arg8) := W6_keep m c main_arg8 (by decide)
    _ = W4 m c (Proc.devRef .tc main_arg8) := StableHlo.after_of_writes_sub hostOps2 _ hostOps2_writes (by decide)
    _ = W3 m c (Proc.devRef .tc main_arg8) := W4_keep m c main_arg8 (by decide)
    _ = W2 m c (Proc.devRef .tc main_arg8) := StableHlo.after_of_writes_sub hostOps1 _ hostOps1_writes (by decide)
    _ = W1 m c (Proc.devRef .tc main_arg8) := W2_keep m c main_arg8 (by decide)
    _ = W0 m c (Proc.devRef .tc main_arg8) := StableHlo.after_of_writes_sub hostOps0 _ hostOps0_writes (by decide)
    _ = m ((c : Thread nD τ).loc main_arg8) := rfl

/-- `main_arg9` reaches the end as launched: no host stretch writes it and no region's result is it. -/
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_keep m c main_arg9 (by decide)
    _ = W6 m c (Proc.devRef .tc main_arg9) := StableHlo.after_of_writes_sub hostOps3 _ hostOps3_writes (by decide)
    _ = W5 m c (Proc.devRef .tc main_arg9) := W6_keep m c main_arg9 (by decide)
    _ = W4 m c (Proc.devRef .tc main_arg9) := StableHlo.after_of_writes_sub hostOps2 _ hostOps2_writes (by decide)
    _ = W3 m c (Proc.devRef .tc main_arg9) := W4_keep m c main_arg9 (by decide)
    _ = W2 m c (Proc.devRef .tc main_arg9) := StableHlo.after_of_writes_sub hostOps1 _ hostOps1_writes (by decide)
    _ = W1 m c (Proc.devRef .tc main_arg9) := W2_keep m c main_arg9 (by decide)
    _ = W0 m c (Proc.devRef .tc main_arg9) := StableHlo.after_of_writes_sub hostOps0 _ hostOps0_writes (by decide)
    _ = m ((c : Thread nD τ).loc main_arg9) := rfl

/-- `main_arg10` reaches the end as launched: no host stretch writes it and no region's result is it. -/
theorem W8_main_arg10 (c : Dev nD) : W8 m c (Proc.devRef .tc main_arg10) = m ((c : Thread nD τ).loc main_arg10) :=
  calc W8 m c (Proc.devRef .tc main_arg10)
    _ = W7 m c (Proc.devRef .tc main_arg10) := W8_keep m c main_arg10 (by decide)
    _ = W6 m c (Proc.devRef .tc main_arg10) := StableHlo.after_of_writes_sub hostOps3 _ hostOps3_writes (by decide)
    _ = W5 m c (Proc.devRef .tc main_arg10) := W6_keep m c main_arg10 (by decide)
    _ = W4 m c (Proc.devRef .tc main_arg10) := StableHlo.after_of_writes_sub hostOps2 _ hostOps2_writes (by decide)
    _ = W3 m c (Proc.devRef .tc main_arg10) := W4_keep m c main_arg10 (by decide)
    _ = W2 m c (Proc.devRef .tc main_arg10) := StableHlo.after_of_writes_sub hostOps1 _ hostOps1_writes (by decide)
    _ = W1 m c (Proc.devRef .tc main_arg10) := W2_keep m c main_arg10 (by decide)
    _ = W0 m c (Proc.devRef .tc main_arg10) := StableHlo.after_of_writes_sub hostOps0 _ hostOps0_writes (by decide)
    _ = m ((c : Thread nD τ).loc main_arg10) := rfl

/-- `main_arg11` reaches the end as launched: no host stretch writes it and no region's result is it. -/
theorem W8_main_arg11 (c : Dev nD) : W8 m c (Proc.devRef .tc main_arg11) = m ((c : Thread nD τ).loc main_arg11) :=
  calc W8 m c (Proc.devRef .tc main_arg11)
    _ = W7 m c (Proc.devRef .tc main_arg11) := W8_keep m c main_arg11 (by decide)
    _ = W6 m c (Proc.devRef .tc main_arg11) := StableHlo.after_of_writes_sub hostOps3 _ hostOps3_writes (by decide)
    _ = W5 m c (Proc.devRef .tc main_arg11) := W6_keep m c main_arg11 (by decide)
    _ = W4 m c (Proc.devRef .tc main_arg11) := StableHlo.after_of_writes_sub hostOps2 _ hostOps2_writes (by decide)
    _ = W3 m c (Proc.devRef .tc main_arg11) := W4_keep m c main_arg11 (by decide)
    _ = W2 m c (Proc.devRef .tc main_arg11) := StableHlo.after_of_writes_sub hostOps1 _ hostOps1_writes (by decide)
    _ = W1 m c (Proc.devRef .tc main_arg11) := W2_keep m c main_arg11 (by decide)
    _ = W0 m c (Proc.devRef .tc main_arg11) := StableHlo.after_of_writes_sub hostOps0 _ hostOps0_writes (by decide)
    _ = m ((c : Thread nD τ).loc main_arg11) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents `W8`, the generator register at some state. -/
abbrev Tₙ (c : Dev nD) : sProp 𝕄 := iprop(StableHlo.held (c : Thread nD τ) (Pipeline.ucRefs τ sig) (W8 m c) ∗ ∃ r, prngReg c r)

/-! ## The regions as items -/

set_option backward.isDefEq.respectTransparency.types false in
/-- Region 0 over the thread state: entered with every unscoped buffer at `W1`, left with them at `W2`. Its
    arrays are split out of the unscoped buffers on entry and put back at their exit contents; the generator
    register goes into the pipeline's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers on entry and put back at their exit contents; the generator
    register goes into the pipeline's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers on entry and put back at their exit contents; the generator
    register goes into the pipeline's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers on entry and put back at their exit contents; the generator
    register goes into the pipeline's invariant and comes back; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (Ex3 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main IS the run of the items. -/
theorem main_run (c : Dev nD) : main (F := F) c = Pipeline.Seg.run (segs m) := (main_chain c).trans (by chain_rfl)

set_option backward.isDefEq.respectTransparency.types false in
/-- THE RUN: from any memory with zero counters, every weakly fair execution of @main on the TensorCores
    terminates, nothing faulting, and in every final state each unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.Kernel.Fr

end
-- ==== Proof.KI.Body0.lean ====
/-
  Region 0 of the program (a layer's fused step), at any float instance and at any contents `V` of the
  core's buffers on entry.

  The region walks 20 grid points. At point `t` it fetches rows [1000·t, 1000·t + 1000) of the node features and
  of their neighbour sums, keeps the whole weight matrix and the bias row resident, runs the body once, and
  writes the body's one store back as rows [1000·t, 1000·t + 1000) of the result. The body loads the four
  blocks, computes one value from them and stores it over the whole output block, so what it leaves in the
  output's staging buffer is that value and nothing else; the inputs' buffers are read only. This module
  states that as the pipeline's proof data and proves the body's obligation at every point.
-/
import proofs.«118984_j51049981280515_1_alg».proof.Proof.Gen.KernelIdeal.Launch
import proofs.«118984_j51049981280515_1_alg».proof.Proof.Gen.KernelIdeal.Skeleton
import proofs.«118984_j51049981280515_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (where it was not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there
    (where it was not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there
    (where it was not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not it was fetched there
    (where it was not, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_0 : Rect S1000x256 := Rect.unit (s := S1000x256) ![0, 0] S1000x256.size inb_S1000x256_S1000x256_0_0

/-- The rectangles the body loads through: each input block whole. -/
abbrev l0_a : Rect S1000x768 := Rect.unit (s := S1000x768) ![0, 0] S1000x768.size inb_S1000x768_S1000x768_0_0
abbrev l0_w : Rect S768x256 := Rect.unit (s := S768x256) ![0, 0] S768x256.size inb_S768x256_S768x256_0_0
abbrev l0_b : Rect S1x256 := Rect.unit (s := S1x256) ![0, 0] S1x256.size inb_S1x256_S1x256_0_0

/-- The output's staging buffer after the body: the one stored value, of the four loaded blocks, over the whole block. -/
def out0_4 (x0 : Vec F S1000x768 .f32) (x1 : Vec F S1000x768 .f32) (x2 : Vec F S768x256 .f32) (x3 : Vec F S1x256 .f32) : Vec F S1000x256 .f32 :=
  View.canon [⟨r0_0, k0_pay1 (View.ld x0 l0_a) (View.ld x1 l0_a) (View.ld x2 l0_w) (View.ld x3 l0_b)⟩]

/-- The store's rectangle is the whole block, so it covers it. -/
theorem cover0_4 (p0 : Vec F S1000x256 .f32) (y : S1000x256.Idx) :
    ∃ pc ∈ ([⟨r0_0, p0⟩] : List (View.Piece (Elt F) S1000x256 .f32)), y ∈ pc.1.set :=
  View.cover_of_tiled [⟨r0_0, p0⟩] S1000x256.size (by rfl) y

set_option maxHeartbeats 1000000 in
/-- The body on whole staging memrefs, the inputs' at contents `x0 … x3` and the output's at anything, runs to the
    continuation holding the inputs' as they were and the output's at `out0_4` of them. -/
theorem sound_kernel0 (c : Dev nD) (E : Set ℕ) (i : grid0.Coords)
    (arg1 : Memref sig .tc .vmem S1000x768 .f32) (harg1 : arg1.IsWhole) (arg2 : Memref sig .tc .vmem S1000x768 .f32) (harg2 : arg2.IsWhole)
    (arg3 : Memref sig .tc .vmem S768x256 .f32) (harg3 : arg3.IsWhole) (arg4 : Memref sig .tc .vmem S1x256 .f32) (harg4 : arg4.IsWhole)
    (arg5 : Memref sig .tc .vmem S1000x256 .f32) (harg5 : arg5.IsWhole)
    (x0 : Vec F S1000x768 .f32) (x1 : Vec F S1000x768 .f32) (x2 : Vec F S768x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gin_layer_kernel i arg1 harg1 arg2 harg2 arg3 harg3 arg4 harg4 arg5 harg5) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 (F := F) _)

/-- The pipeline's proof data on core `c`: the arrays as the region finds them; after the body at point `t` each
    input's buffer at its block and the output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1 of the program (a layer's fused step), at any float instance and at any contents `V` of the
  core's buffers on entry.

  The region walks 20 grid points. At point `t` it fetches rows [1000·t, 1000·t + 1000) of the node features and
  of their neighbour sums, keeps the whole weight matrix and the bias row resident, runs the body once, and
  writes the body's one store back as rows [1000·t, 1000·t + 1000) of the result. The body loads the four
  blocks, computes one value from them and stores it over the whole output block, so what it leaves in the
  output's staging buffer is that value and nothing else; the inputs' buffers are read only. This module
  states that as the pipeline's proof data and proves the body's obligation at every point.
-/
import proofs.«118984_j51049981280515_1_alg».proof.Proof.Gen.KernelIdeal.Launch
import proofs.«118984_j51049981280515_1_alg».proof.Proof.Gen.KernelIdeal.Skeleton
import proofs.«118984_j51049981280515_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there
    (where it was not, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there
    (where it was not, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there
    (where it was not, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it was fetched there
    (where it was not, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev r1_0 : Rect S1000x256 := Rect.unit (s := S1000x256) ![0, 0] S1000x256.size inb_S1000x256_S1000x256_0_0

/-- The rectangles the body loads through: each input block whole. -/
abbrev l1_a : Rect S1000x256 := Rect.unit (s := S1000x256) ![0, 0] S1000x256.size inb_S1000x256_S1000x256_0_0
abbrev l1_w : Rect S256x256 := Rect.unit (s := S256x256) ![0, 0] S256x256.size inb_S256x256_S256x256_0_0
abbrev l1_b : Rect S1x256 := Rect.unit (s := S1x256) ![0, 0] S1x256.size inb_S1x256_S1x256_0_0

/-- The output's staging buffer after the body: the one stored value, of the four loaded blocks, over the whole block. -/
def out1_4 (x0 : Vec F S1000x256 .f32) (x1 : Vec F S1000x256 .f32) (x2 : Vec F S256x256 .f32) (x3 : Vec F S1x256 .f32) : Vec F S1000x256 .f32 :=
  View.canon [⟨r1_0, k1_pay1 (View.ld x0 l1_a) (View.ld x1 l1_a) (View.ld x2 l1_w) (View.ld x3 l1_b)⟩]

/-- The store's rectangle is the whole block, so it covers it. -/
theorem cover1_4 (p0 : Vec F S1000x256 .f32) (y : S1000x256.Idx) :
    ∃ pc ∈ ([⟨r1_0, p0⟩] : List (View.Piece (Elt F) S1000x256 .f32)), y ∈ pc.1.set :=
  View.cover_of_tiled [⟨r1_0, p0⟩] S1000x256.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg1 : Memref sig .tc .vmem S1000x256 .f32) (harg1 : arg1.IsWhole) (arg2 : Memref sig .tc .vmem S1000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S1000x256 .f32) (harg5 : arg5.IsWhole)
    (x0 : Vec F S1000x256 .f32) (x1 : Vec F S1000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gin_layer_kernel i arg1 harg1 arg2 harg2 arg3 harg3 arg4 harg4 arg5 harg5) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 (F := F) _)

/-- The pipeline's proof data on core `c`: the arrays as the region finds them; after the body at point `t` each
    input's buffer at its block and the output's at `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2 of the program (a layer's fused step), at any float instance and at any contents `V` of the
  core's buffers on entry.

  The region walks 20 grid points. At point `t` it fetches rows [1000·t, 1000·t + 1000) of the node features and
  of their neighbour sums, keeps the whole weight matrix and the bias row resident, runs the body once, and
  writes the body's one store back as rows [1000·t, 1000·t + 1000) of the result. The body loads the four
  blocks, computes one value from them and stores it over the whole output block, so what it leaves in the
  output's staging buffer is that value and nothing else; the inputs' buffers are read only. This module
  states that as the pipeline's proof data and proves the body's obligation at every point.
-/
import proofs.«118984_j51049981280515_1_alg».proof.Proof.Gen.KernelIdeal.Launch
import proofs.«118984_j51049981280515_1_alg».proof.Proof.Gen.KernelIdeal.Skeleton
import proofs.«118984_j51049981280515_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there
    (where it was not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there
    (where it was not, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there
    (where it was not, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there
    (where it was not, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body stores through: the whole output block. -/
abbrev r2_0 : Rect S1000x256 := Rect.unit (s := S1000x256) ![0, 0] S1000x256.size inb_S1000x256_S1000x256_0_0

/-- The rectangles the body loads through: each input block whole. -/
abbrev l2_a : Rect S1000x256 := Rect.unit (s := S1000x256) ![0, 0] S1000x256.size inb_S1000x256_S1000x256_0_0
abbrev l2_w : Rect S256x256 := Rect.unit (s := S256x256) ![0, 0] S256x256.size inb_S256x256_S256x256_0_0
abbrev l2_b : Rect S1x256 := Rect.unit (s := S1x256) ![0, 0] S1x256.size inb_S1x256_S1x256_0_0

/-- The output's staging buffer after the body: the one stored value, of the four loaded blocks, over the whole block. -/
def out2_4 (x0 : Vec F S1000x256 .f32) (x1 : Vec F S1000x256 .f32) (x2 : Vec F S256x256 .f32) (x3 : Vec F S1x256 .f32) : Vec F S1000x256 .f32 :=
  View.canon [⟨r2_0, k2_pay1 (View.ld x0 l2_a) (View.ld x1 l2_a) (View.ld x2 l2_w) (View.ld x3 l2_b)⟩]

/-- The store's rectangle is the whole block, so it covers it. -/
theorem cover2_4 (p0 : Vec F S1000x256 .f32) (y : S1000x256.Idx) :
    ∃ pc ∈ ([⟨r2_0, p0⟩] : List (View.Piece (Elt F) S1000x256 .f32)), y ∈ pc.1.set :=
  View.cover_of_tiled [⟨r2_0, p0⟩] S1000x256.size (by rfl) y

set_option maxHeartbeats 1000000 in
/-- The body on whole staging memrefs, the inputs' at contents `x0 … x3` and the output's at anything, runs to the
    continuation holding the inputs' as they were and the output's at `out2_4` of them. -/
theorem sound_kernel2 (c : Dev nD) (E : Set ℕ) (i : grid2.Coords)
    (arg1 : Memref sig .tc .vmem S1000x256 .f32) (harg1 : arg1.IsWhole) (arg2 : Memref sig .tc .vmem S1000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S1000x256 .f32) (harg5 : arg5.IsWhole)
    (x0 : Vec F S1000x256 .f32) (x1 : Vec F S1000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__gin_layer_kernel i arg1 harg1 arg2 harg2 arg3 harg3 arg4 harg4 arg5 harg5) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 (F := F) _)

/-- The pipeline's proof data on core `c`: the arrays as the region finds them; after the body at point `t` each
    input's buffer at its block and the output's at `out2_4` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/-
  Region 3 of the program (the readout), at any float instance and at any contents `V` of the core's buffers
  on entry.

  The region walks 20 grid points. At point `t` it fetches rows [1000·t, 1000·t + 1000) of the joined layer
  outputs, keeps the readout weights and the bias row resident, runs the body once, and writes the body's one
  store back as rows [1000·t, 1000·t + 1000) of the result. The body loads the three blocks, computes one value
  from them and stores it over the whole output block; the inputs' buffers are read only. This module states
  that as the pipeline's proof data and proves the body's obligation at every point.
-/
import proofs.«118984_j51049981280515_1_alg».proof.Proof.Gen.KernelIdeal.Launch
import proofs.«118984_j51049981280515_1_alg».proof.Proof.Gen.KernelIdeal.Skeleton
import proofs.«118984_j51049981280515_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (where it was not, the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (where it was not, the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (where it was not, the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body stores through: the whole output block. -/
abbrev r3_0 : Rect S1000x256 := Rect.unit (s := S1000x256) ![0, 0] S1000x256.size inb_S1000x256_S1000x256_0_0

/-- The rectangles the body loads through: each input block whole. -/
abbrev l3_a : Rect S1000x768 := Rect.unit (s := S1000x768) ![0, 0] S1000x768.size inb_S1000x768_S1000x768_0_0
abbrev l3_w : Rect S768x256 := Rect.unit (s := S768x256) ![0, 0] S768x256.size inb_S768x256_S768x256_0_0
abbrev l3_b : Rect S1x256 := Rect.unit (s := S1x256) ![0, 0] S1x256.size inb_S1x256_S1x256_0_0

/-- The output's staging buffer after the body: the one stored value, of the three loaded blocks, over the whole block. -/
def out3_3 (x0 : Vec F S1000x768 .f32) (x1 : Vec F S768x256 .f32) (x2 : Vec F S1x256 .f32) : Vec F S1000x256 .f32 :=
  View.canon [⟨r3_0, k3_pay1 (View.ld x0 l3_a) (View.ld x1 l3_w) (View.ld x2 l3_b)⟩]

/-- The store's rectangle is the whole block, so it covers it. -/
theorem cover3_3 (p0 : Vec F S1000x256 .f32) (y : S1000x256.Idx) :
    ∃ pc ∈ ([⟨r3_0, p0⟩] : List (View.Piece (Elt F) S1000x256 .f32)), y ∈ pc.1.set :=
  View.cover_of_tiled [⟨r3_0, p0⟩] S1000x256.size (by rfl) y

set_option maxHeartbeats 1000000 in
/-- The body on whole staging memrefs, the inputs' at contents `x0 x1 x2` and the output's at anything, runs to the
    continuation holding the inputs' as they were and the output's at `out3_3` of them. -/
theorem sound_kernel3 (c : Dev nD) (E : Set ℕ) (i : grid3.Coords)
    (arg1 : Memref sig .tc .vmem S1000x768 .f32) (harg1 : arg1.IsWhole) (arg2 : Memref sig .tc .vmem S768x256 .f32) (harg2 : arg2.IsWhole)
    (arg3 : Memref sig .tc .vmem S1x256 .f32) (harg3 : arg3.IsWhole) (arg4 : Memref sig .tc .vmem S1000x256 .f32) (harg4 : arg4.IsWhole)
    (x0 : Vec F S1000x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 (F := F) _)

/-- The pipeline's proof data on core `c`: the arrays as the region finds them; after the body at point `t` each
    input's buffer at its block and the output's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Run.lean ====
/-
  The whole run of the program, at any float instance: @main as eight items in order — a stretch of array
  operations on the host, then a kernel region, four times over.

  The contents of the core's buffers are followed through the items as a fold from the launch memory: a host
  stretch applies its operations; a region leaves every buffer as it found it except its one result array, which
  ends at what the region's write-backs leave. Each region is entered with every buffer at the fold's contents
  and left with them at the next; the launch deals the first state and the last is read against the final
  memory. So every weakly fair execution terminates, nothing faulting, with EVERY buffer at the fold's last
  contents `W8`: the twelve arguments as launched (no item writes one), and the result at what region 3 leaves.
-/
import proofs.«118984_j51049981280515_1_alg».proof.Proof.KI.Body0
import proofs.«118984_j51049981280515_1_alg».proof.Proof.KI.Body1
import proofs.«118984_j51049981280515_1_alg».proof.Proof.KI.Body2
import proofs.«118984_j51049981280515_1_alg».proof.Proof.KI.Body3
import proofs.«118984_j51049981280515_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core `c`'s buffers at launch. -/
abbrev W0 : Dev nD → Valuation τ sig (Elt F) := fun c b => m (c, b)

/-- After the host stretch `hostOps0`: region 0's entry. -/
abbrev W1 : Dev nD → Valuation τ sig (Elt F) := fun c => StableHlo.after hostOps0 (W0 m c)
/-- The same read at the TensorCore's references: what region 0's proof data take. -/
abbrev En0 : (c : Dev nD) → (b : Ref sig .tc) → Buf (Elt F) ((c : Thread nD τ).loc b) := fun c b => W1 m c b
/-- At region 0's exit: its arrays at what the pipeline leaves (the inputs as entered, the output's write-backs
    folded over the grid), every other buffer as entered. -/
def W2 (c : Dev nD) : Valuation τ sig (Elt F) :=
  Pipeline.withArrays spec0 c (W1 m c) fun w => (dat0 (En0 m) c).arrAt w cfg0.N
theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: region 0's exit contents. -/
abbrev Ex0 : (c : Dev nD) → (b : Ref sig .tc) → Buf (Elt F) ((c : Thread nD τ).loc b) := fun c b => W2 m c b
theorem hF0 (c : Dev nD) (w : Fin cfg0.W) : (dat0 (En0 m) c).arrAt w cfg0.N = Ex0 m c (Pipeline.arrRef spec0 w) :=
  (W2_arr m c w).symm
theorem hrest0 (c : Dev nD) : ∀ b, b ∉ Finset.univ.image (Pipeline.arrRef spec0) → Ex0 m c b = En0 m c b :=
  fun b hb => W2_of_ne m c b fun w e => hb (Finset.mem_image.mpr ⟨w, Finset.mem_univ _, e⟩)
/-- The region changes one buffer only, its result `main_v14`: an input window's array leaves as it entered, and a
    buffer that is no array of the region is not touched. -/
theorem W2_keep (c : Dev nD) (b : Ref sig .tc) (hb : b ≠ main_v14) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (En0 m) c).arrAt_in 0 rfl _).trans (A_eq0 (En0 m) c 0)
    | ⟨1, _⟩ => exact ((dat0 (En0 m) c).arrAt_in 1 rfl _).trans (A_eq0 (En0 m) c 1)
    | ⟨2, _⟩ => exact ((dat0 (En0 m) c).arrAt_in 2 rfl _).trans (A_eq0 (En0 m) c 2)
    | ⟨3, _⟩ => exact ((dat0 (En0 m) c).arrAt_in 3 rfl _).trans (A_eq0 (En0 m) c 3)
    | ⟨4, _⟩ => exact absurd rfl hb
  · exact W2_of_ne m c b fun w e => h ⟨w, e⟩

/-- After the host stretch `hostOps1`: region 1's entry. -/
abbrev W3 : Dev nD → Valuation τ sig (Elt F) := fun c => StableHlo.after hostOps1 (W2 m c)
/-- The same read at the TensorCore's references: what region 1's proof data take. -/
abbrev En1 : (c : Dev nD) → (b : Ref sig .tc) → Buf (Elt F) ((c : Thread nD τ).loc b) := fun c b => W3 m c b
/-- At region 1's exit: its arrays at what the pipeline leaves (the inputs as entered, the output's write-backs
    folded over the grid), every other buffer as entered. -/
def W4 (c : Dev nD) : Valuation τ sig (Elt F) :=
  Pipeline.withArrays spec1 c (W3 m c) fun w => (dat1 (En1 m) c).arrAt w cfg1.N
theorem W4_arr (c : Dev nD) (w : Fin cfg1.W) :
    W4 m c (Proc.devRef .tc (Pipeline.arrRef spec1 w)) = (dat1 (En1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references: region 1's exit contents. -/
abbrev Ex1 : (c : Dev nD) → (b : Ref sig .tc) → Buf (Elt F) ((c : Thread nD τ).loc b) := fun c b => W4 m c b
theorem hF1 (c : Dev nD) (w : Fin cfg1.W) : (dat1 (En1 m) c).arrAt w cfg1.N = Ex1 m c (Pipeline.arrRef spec1 w) :=
  (W4_arr m c w).symm
theorem hrest1 (c : Dev nD) : ∀ b, b ∉ Finset.univ.image (Pipeline.arrRef spec1) → Ex1 m c b = En1 m c b :=
  fun b hb => W4_of_ne m c b fun w e => hb (Finset.mem_image.mpr ⟨w, Finset.mem_univ _, e⟩)
/-- The region changes one buffer only, its result `main_v29`: an input window's array leaves as it entered, and a
    buffer that is no array of the region is not touched. -/
theorem W4_keep (c : Dev nD) (b : Ref sig .tc) (hb : b ≠ main_v29) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (En1 m) c).arrAt_in 0 rfl _).trans (A_eq1 (En1 m) c 0)
    | ⟨1, _⟩ => exact ((dat1 (En1 m) c).arrAt_in 1 rfl _).trans (A_eq1 (En1 m) c 1)
    | ⟨2, _⟩ => exact ((dat1 (En1 m) c).arrAt_in 2 rfl _).trans (A_eq1 (En1 m) c 2)
    | ⟨3, _⟩ => exact ((dat1 (En1 m) c).arrAt_in 3 rfl _).trans (A_eq1 (En1 m) c 3)
    | ⟨4, _⟩ => exact absurd rfl hb
  · exact W4_of_ne m c b fun w e => h ⟨w, e⟩

/-- After the host stretch `hostOps2`: region 2's entry. -/
abbrev W5 : Dev nD → Valuation τ sig (Elt F) := fun c => StableHlo.after hostOps2 (W4 m c)
/-- The same read at the TensorCore's references: what region 2's proof data take. -/
abbrev En2 : (c : Dev nD) → (b : Ref sig .tc) → Buf (Elt F) ((c : Thread nD τ).loc b) := fun c b => W5 m c b
/-- At region 2's exit: its arrays at what the pipeline leaves (the inputs as entered, the output's write-backs
    folded over the grid), every other buffer as entered. -/
def W6 (c : Dev nD) : Valuation τ sig (Elt F) :=
  Pipeline.withArrays spec2 c (W5 m c) fun w => (dat2 (En2 m) c).arrAt w cfg2.N
theorem W6_arr (c : Dev nD) (w : Fin cfg2.W) :
    W6 m c (Proc.devRef .tc (Pipeline.arrRef spec2 w)) = (dat2 (En2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references: region 2's exit contents. -/
abbrev Ex2 : (c : Dev nD) → (b : Ref sig .tc) → Buf (Elt F) ((c : Thread nD τ).loc b) := fun c b => W6 m c b
theorem hF2 (c : Dev nD) (w : Fin cfg2.W) : (dat2 (En2 m) c).arrAt w cfg2.N = Ex2 m c (Pipeline.arrRef spec2 w) :=
  (W6_arr m c w).symm
theorem hrest2 (c : Dev nD) : ∀ b, b ∉ Finset.univ.image (Pipeline.arrRef spec2) → Ex2 m c b = En2 m c b :=
  fun b hb => W6_of_ne m c b fun w e => hb (Finset.mem_image.mpr ⟨w, Finset.mem_univ _, e⟩)
/-- The region changes one buffer only, its result `main_v44`: an input window's array leaves as it entered, and a
    buffer that is no array of the region is not touched. -/
theorem W6_keep (c : Dev nD) (b : Ref sig .tc) (hb : b ≠ main_v44) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (En2 m) c).arrAt_in 0 rfl _).trans (A_eq2 (En2 m) c 0)
    | ⟨1, _⟩ => exact ((dat2 (En2 m) c).arrAt_in 1 rfl _).trans (A_eq2 (En2 m) c 1)
    | ⟨2, _⟩ => exact ((dat2 (En2 m) c).arrAt_in 2 rfl _).trans (A_eq2 (En2 m) c 2)
    | ⟨3, _⟩ => exact ((dat2 (En2 m) c).arrAt_in 3 rfl _).trans (A_eq2 (En2 m) c 3)
    | ⟨4, _⟩ => exact absurd rfl hb
  · exact W6_of_ne m c b fun w e => h ⟨w, e⟩

/-- After the host stretch `hostOps3`: region 3's entry. -/
abbrev W7 : Dev nD → Valuation τ sig (Elt F) := fun c => StableHlo.after hostOps3 (W6 m c)
/-- The same read at the TensorCore's references: what region 3's proof data take. -/
abbrev En3 : (c : Dev nD) → (b : Ref sig .tc) → Buf (Elt F) ((c : Thread nD τ).loc b) := fun c b => W7 m c b
/-- At region 3's exit: its arrays at what the pipeline leaves (the inputs as entered, the output's write-backs
    folded over the grid), every other buffer as entered. -/
def W8 (c : Dev nD) : Valuation τ sig (Elt F) :=
  Pipeline.withArrays spec3 c (W7 m c) fun w => (dat3 (En3 m) c).arrAt w cfg3.N
theorem W8_arr (c : Dev nD) (w : Fin cfg3.W) :
    W8 m c (Proc.devRef .tc (Pipeline.arrRef spec3 w)) = (dat3 (En3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references: region 3's exit contents. -/
abbrev Ex3 : (c : Dev nD) → (b : Ref sig .tc) → Buf (Elt F) ((c : Thread nD τ).loc b) := fun c b => W8 m c b
theorem hF3 (c : Dev nD) (w : Fin cfg3.W) : (dat3 (En3 m) c).arrAt w cfg3.N = Ex3 m c (Pipeline.arrRef spec3 w) :=
  (W8_arr m c w).symm
theorem hrest3 (c : Dev nD) : ∀ b, b ∉ Finset.univ.image (Pipeline.arrRef spec3) → Ex3 m c b = En3 m c b :=
  fun b hb => W8_of_ne m c b fun w e => hb (Finset.mem_image.mpr ⟨w, Finset.mem_univ _, e⟩)
/-- The region changes one buffer only, its result `main_v47`: an input window's array leaves as it entered, and a
    buffer that is no array of the region is not touched. -/
theorem W8_keep (c : Dev nD) (b : Ref sig .tc) (hb : b ≠ main_v47) :
    W8 m c (Proc.devRef .tc b) = W7 m c (Proc.devRef .tc b) := by
  by_cases h : ∃ w, Pipeline.arrRef spec3 w = b
  · obtain ⟨w, rfl⟩ := h
    rw [W8_arr]
    match w with
    | ⟨0, _⟩ => exact ((dat3 (En3 m) c).arrAt_in 0 rfl _).trans (A_eq3 (En3 m) c 0)
    | ⟨1, _⟩ => exact ((dat3 (En3 m) c).arrAt_in 1 rfl _).trans (A_eq3 (En3 m) c 1)
    | ⟨2, _⟩ => exact ((dat3 (En3 m) c).arrAt_in 2 rfl _).trans (A_eq3 (En3 m) c 2)
    | ⟨3, _⟩ => exact absurd rfl hb
  · exact W8_of_ne m c b fun w e => h ⟨w, e⟩

/-! ## The arguments end as launched -/

/-- `main_arg0` reaches the end as launched: no host stretch writes it and no region's result is it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_keep m c main_arg0 (by decide)
    _ = W6 m c (Proc.devRef .tc main_arg0) := StableHlo.after_of_writes_sub hostOps3 _ hostOps3_writes (by decide)
    _ = W5 m c (Proc.devRef .tc main_arg0) := W6_keep m c main_arg0 (by decide)
    _ = W4 m c (Proc.devRef .tc main_arg0) := StableHlo.after_of_writes_sub hostOps2 _ hostOps2_writes (by decide)
    _ = W3 m c (Proc.devRef .tc main_arg0) := W4_keep m c main_arg0 (by decide)
    _ = W2 m c (Proc.devRef .tc main_arg0) := StableHlo.after_of_writes_sub hostOps1 _ hostOps1_writes (by decide)
    _ = W1 m c (Proc.devRef .tc main_arg0) := W2_keep m c main_arg0 (by decide)
    _ = W0 m c (Proc.devRef .tc main_arg0) := StableHlo.after_of_writes_sub hostOps0 _ hostOps0_writes (by decide)
    _ = m ((c : Thread nD τ).loc main_arg0) := rfl

/-- `main_arg1` reaches the end as launched: no host stretch writes it and no region's result is it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_keep m c main_arg1 (by decide)
    _ = W6 m c (Proc.devRef .tc main_arg1) := StableHlo.after_of_writes_sub hostOps3 _ hostOps3_writes (by decide)
    _ = W5 m c (Proc.devRef .tc main_arg1) := W6_keep m c main_arg1 (by decide)
    _ = W4 m c (Proc.devRef .tc main_arg1) := StableHlo.after_of_writes_sub hostOps2 _ hostOps2_writes (by decide)
    _ = W3 m c (Proc.devRef .tc main_arg1) := W4_keep m c main_arg1 (by decide)
    _ = W2 m c (Proc.devRef .tc main_arg1) := StableHlo.after_of_writes_sub hostOps1 _ hostOps1_writes (by decide)
    _ = W1 m c (Proc.devRef .tc main_arg1) := W2_keep m c main_arg1 (by decide)
    _ = W0 m c (Proc.devRef .tc main_arg1) := StableHlo.after_of_writes_sub hostOps0 _ hostOps0_writes (by decide)
    _ = m ((c : Thread nD τ).loc main_arg1) := rfl

/-- `main_arg2` reaches the end as launched: no host stretch writes it and no region's result is it. -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_keep m c main_arg2 (by decide)
    _ = W6 m c (Proc.devRef .tc main_arg2) := StableHlo.after_of_writes_sub hostOps3 _ hostOps3_writes (by decide)
    _ = W5 m c (Proc.devRef .tc main_arg2) := W6_keep m c main_arg2 (by decide)
    _ = W4 m c (Proc.devRef .tc main_arg2) := StableHlo.after_of_writes_sub hostOps2 _ hostOps2_writes (by decide)
    _ = W3 m c (Proc.devRef .tc main_arg2) := W4_keep m c main_arg2 (by decide)
    _ = W2 m c (Proc.devRef .tc main_arg2) := StableHlo.after_of_writes_sub hostOps1 _ hostOps1_writes (by decide)
    _ = W1 m c (Proc.devRef .tc main_arg2) := W2_keep m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host stretch writes it and no region's result is it. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_keep m c main_arg3 (by decide)
    _ = W6 m c (Proc.devRef .tc main_arg3) := StableHlo.after_of_writes_sub hostOps3 _ hostOps3_writes (by decide)
    _ = W5 m c (Proc.devRef .tc main_arg3) := W6_keep m c main_arg3 (by decide)
    _ = W4 m c (Proc.devRef .tc main_arg3) := StableHlo.after_of_writes_sub hostOps2 _ hostOps2_writes (by decide)
    _ = W3 m c (Proc.devRef .tc main_arg3) := W4_keep m c main_arg3 (by decide)
    _ = W2 m c (Proc.devRef .tc main_arg3) := StableHlo.after_of_writes_sub hostOps1 _ hostOps1_writes (by decide)
    _ = W1 m c (Proc.devRef .tc main_arg3) := W2_keep m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host stretch writes it and no region's result is it. -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_keep m c main_arg4 (by decide)
    _ = W6 m c (Proc.devRef .tc main_arg4) := StableHlo.after_of_writes_sub hostOps3 _ hostOps3_writes (by decide)
    _ = W5 m c (Proc.devRef .tc main_arg4) := W6_keep m c main_arg4 (by decide)
    _ = W4 m c (Proc.devRef .tc main_arg4) := StableHlo.after_of_writes_sub hostOps2 _ hostOps2_writes (by decide)
    _ = W3 m c (Proc.devRef .tc main_arg4) := W4_keep m c main_arg4 (by decide)
    _ = W2 m c (Proc.devRef .tc main_arg4) := StableHlo.after_of_writes_sub hostOps1 _ hostOps1_writes (by decide)
    _ = W1 m c (Proc.devRef .tc main_arg4) := W2_keep m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host stretch writes it and no region's result is it. -/
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_keep m c main_arg5 (by decide)
    _ = W6 m c (Proc.devRef .tc main_arg5) := StableHlo.after_of_writes_sub hostOps3 _ hostOps3_writes (by decide)
    _ = W5 m c (Proc.devRef .tc main_arg5) := W6_keep m c main_arg5 (by decide)
    _ = W4 m c (Proc.devRef .tc main_arg5) := StableHlo.after_of_writes_sub hostOps2 _ hostOps2_writes (by decide)
    _ = W3 m c (Proc.devRef .tc main_arg5) := W4_keep m c main_arg5 (by decide)
    _ = W2 m c (Proc.devRef .tc main_arg5) := StableHlo.after_of_writes_sub hostOps1 _ hostOps1_writes (by decide)
    _ = W1 m c (Proc.devRef .tc main_arg5) := W2_keep m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host stretch writes it and no region's result is it. -/
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_keep m c main_arg6 (by decide)
    _ = W6 m c (Proc.devRef .tc main_arg6) := StableHlo.after_of_writes_sub hostOps3 _ hostOps3_writes (by decide)
    _ = W5 m c (Proc.devRef .tc main_arg6) := W6_keep m c main_arg6 (by decide)
    _ = W4 m c (Proc.devRef .tc main_arg6) := StableHlo.after_of_writes_sub hostOps2 _ hostOps2_writes (by decide)
    _ = W3 m c (Proc.devRef .tc main_arg6) := W4_keep m c main_arg6 (by decide)
    _ = W2 m c (Proc.devRef .tc main_arg6) := StableHlo.after_of_writes_sub hostOps1 _ hostOps1_writes (by decide)
    _ = W1 m c (Proc.devRef .tc main_arg6) := W2_keep m c main_arg6 (by decide)
    _ = W0 m c (Proc.devRef .tc main_arg6) := StableHlo.after_of_writes_sub hostOps0 _ hostOps0_writes (by decide)
    _ = m ((c : Thread nD τ).loc main_arg6) := rfl

/-- `main_arg7` reaches the end as launched: no host stretch writes it and no region's result is it. -/
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_keep m c main_arg7 (by decide)
    _ = W6 m c (Proc.devRef .tc main_arg7) := StableHlo.after_of_writes_sub hostOps3 _ hostOps3_writes (by decide)
    _ = W5 m c (Proc.devRef .tc main_arg7) := W6_keep m c main_arg7 (by decide)
    _ = W4 m c (Proc.devRef .tc main_arg7) := StableHlo.after_of_writes_sub hostOps2 _ hostOps2_writes (by decide)
    _ = W3 m c (Proc.devRef .tc main_arg7) := W4_keep m c main_arg7 (by decide)
    _ = W2 m c (Proc.devRef .tc main_arg7) := StableHlo.after_of_writes_sub hostOps1 _ hostOps1_writes (by decide)
    _ = W1 m c (Proc.devRef .tc main_arg7) := W2_keep m c main_arg7 (by decide)
    _ = W0 m c (Proc.devRef .tc main_arg7) := StableHlo.after_of_writes_sub hostOps0 _ hostOps0_writes (by decide)
    _ = m ((c : Thread nD τ).loc main_arg7) := rfl

/-- `main_arg8` reaches the end as launched: no host stretch writes it and no region's result is it. -/
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_keep m c main_arg8 (by decide)
    _ = W6 m c (Proc.devRef .tc main_arg8) := StableHlo.after_of_writes_sub hostOps3 _ hostOps3_writes (by decide)
    _ = W5 m c (Proc.devRef .tc main_arg8) := W6_keep m c main_arg8 (by decide)
    _ = W4 m c (Proc.devRef .tc main_arg8) := StableHlo.after_of_writes_sub hostOps2 _ hostOps2_writes (by decide)
    _ = W3 m c (Proc.devRef .tc main_arg8) := W4_keep m c main_arg8 (by decide)
    _ = W2 m c (Proc.devRef .tc main_arg8) := StableHlo.after_of_writes_sub hostOps1 _ hostOps1_writes (by decide)
    _ = W1 m c (Proc.devRef .tc main_arg8) := W2_keep m c main_arg8 (by decide)
    _ = W0 m c (Proc.devRef .tc main_arg8) := StableHlo.after_of_writes_sub hostOps0 _ hostOps0_writes (by decide)
    _ = m ((c : Thread nD τ).loc main_arg8) := rfl

/-- `main_arg9` reaches the end as launched: no host stretch writes it and no region's result is it. -/
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_keep m c main_arg9 (by decide)
    _ = W6 m c (Proc.devRef .tc main_arg9) := StableHlo.after_of_writes_sub hostOps3 _ hostOps3_writes (by decide)
    _ = W5 m c (Proc.devRef .tc main_arg9) := W6_keep m c main_arg9 (by decide)
    _ = W4 m c (Proc.devRef .tc main_arg9) := StableHlo.after_of_writes_sub hostOps2 _ hostOps2_writes (by decide)
    _ = W3 m c (Proc.devRef .tc main_arg9) := W4_keep m c main_arg9 (by decide)
    _ = W2 m c (Proc.devRef .tc main_arg9) := StableHlo.after_of_writes_sub hostOps1 _ hostOps1_writes (by decide)
    _ = W1 m c (Proc.devRef .tc main_arg9) := W2_keep m c main_arg9 (by decide)
    _ = W0 m c (Proc.devRef .tc main_arg9) := StableHlo.after_of_writes_sub hostOps0 _ hostOps0_writes (by decide)
    _ = m ((c : Thread nD τ).loc main_arg9) := rfl

/-- `main_arg10` reaches the end as launched: no host stretch writes it and no region's result is it. -/
theorem W8_main_arg10 (c : Dev nD) : W8 m c (Proc.devRef .tc main_arg10) = m ((c : Thread nD τ).loc main_arg10) :=
  calc W8 m c (Proc.devRef .tc main_arg10)
    _ = W7 m c (Proc.devRef .tc main_arg10) := W8_keep m c main_arg10 (by decide)
    _ = W6 m c (Proc.devRef .tc main_arg10) := StableHlo.after_of_writes_sub hostOps3 _ hostOps3_writes (by decide)
    _ = W5 m c (Proc.devRef .tc main_arg10) := W6_keep m c main_arg10 (by decide)
    _ = W4 m c (Proc.devRef .tc main_arg10) := StableHlo.after_of_writes_sub hostOps2 _ hostOps2_writes (by decide)
    _ = W3 m c (Proc.devRef .tc main_arg10) := W4_keep m c main_arg10 (by decide)
    _ = W2 m c (Proc.devRef .tc main_arg10) := StableHlo.after_of_writes_sub hostOps1 _ hostOps1_writes (by decide)
    _ = W1 m c (Proc.devRef .tc main_arg10) := W2_keep m c main_arg10 (by decide)
    _ = W0 m c (Proc.devRef .tc main_arg10) := StableHlo.after_of_writes_sub hostOps0 _ hostOps0_writes (by decide)
    _ = m ((c : Thread nD τ).loc main_arg10) := rfl

/-- `main_arg11` reaches the end as launched: no host stretch writes it and no region's result is it. -/
theorem W8_main_arg11 (c : Dev nD) : W8 m c (Proc.devRef .tc main_arg11) = m ((c : Thread nD τ).loc main_arg11) :=
  calc W8 m c (Proc.devRef .tc main_arg11)
    _ = W7 m c (Proc.devRef .tc main_arg11) := W8_keep m c main_arg11 (by decide)
    _ = W6 m c (Proc.devRef .tc main_arg11) := StableHlo.after_of_writes_sub hostOps3 _ hostOps3_writes (by decide)
    _ = W5 m c (Proc.devRef .tc main_arg11) := W6_keep m c main_arg11 (by decide)
    _ = W4 m c (Proc.devRef .tc main_arg11) := StableHlo.after_of_writes_sub hostOps2 _ hostOps2_writes (by decide)
    _ = W3 m c (Proc.devRef .tc main_arg11) := W4_keep m c main_arg11 (by decide)
    _ = W2 m c (Proc.devRef .tc main_arg11) := StableHlo.after_of_writes_sub hostOps1 _ hostOps1_writes (by decide)
    _ = W1 m c (Proc.devRef .tc main_arg11) := W2_keep m c main_arg11 (by decide)
    _ = W0 m c (Proc.devRef .tc main_arg11) := StableHlo.after_of_writes_sub hostOps0 _ hostOps0_writes (by decide)
    _ = m ((c : Thread nD τ).loc main_arg11) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents `W8`, the generator register at some state. -/
abbrev Tₙ (c : Dev nD) : sProp 𝕄 := iprop(StableHlo.held (c : Thread nD τ) (Pipeline.ucRefs τ sig) (W8 m c) ∗ ∃ r, prngReg c r)

/-! ## The regions as items -/

set_option backward.isDefEq.respectTransparency.types false in
/-- Region 0 over the thread state: entered with every unscoped buffer at `W1`, left with them at `W2`. Its
    arrays are split out of the unscoped buffers on entry and put back at their exit contents; the generator
    register goes into the pipeline's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers on entry and put back at their exit contents; the generator
    register goes into the pipeline's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers on entry and put back at their exit contents; the generator
    register goes into the pipeline's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers on entry and put back at their exit contents; the generator
    register goes into the pipeline's invariant and comes back; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (Ex3 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main IS the run of the items. -/
theorem main_run (c : Dev nD) : main (F := F) c = Pipeline.Seg.run (segs m) := (main_chain c).trans (by chain_rfl)

set_option backward.isDefEq.respectTransparency.types false in
/-- THE RUN: from any memory with zero counters, every weakly fair execution of @main on the TensorCores
    terminates, nothing faulting, and in every final state each unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.KernelIdeal.Fr

end
-- ==== Proof.Val.Pay.lean ====
/-
  The four kernels' stored values read at one index, at the exact-arithmetic instance: a float is an
  extended real, the narrowing to bf16 is the identity, and a matrix product into the zero accumulator is
  the plain sum over the contracted coordinate. Each of the three layer kernels stores
  max (Σ_k (x0[p,k] + x1[p,k]) · w[k,q] + b[0,q], 0); the readout stores Σ_k max (x0[p,k], 0) · w[k,q] + b[0,q].
  First the two products (768 and 256 contracted coordinates) are read at (p, q): the contraction index
  set has one axis and is re-indexed by its coordinate, and on each operand axis the product's index is
  either the output's coordinate or the contracted one. Then each stored value is unfolded and read
  through its pointwise operations, the casts of a shape to itself, and the bias row's broadcast.
-/
import proofs.«118984_j51049981280515_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Val

open Cert.KernelIdeal Cert.KernelIdeal.Gen Idealize.ShloMosaic Idealize.ShloMosaic.ValueIdx
open scoped BigOperators

/-- On the left operand's row axis, the dot's index is the output's row. -/
theorem lhsW_0 (i : S1000x256.Idx) (q : dot_S1000x768_S768x256_S1000x256_1_0_0_1_n_n.contr.Idx) :
    (dot_S1000x768_S768x256_S1000x256_1_0_0_1_n_n.lhsIdx i q 0).val = (i 0).val := by
  unfold DotDims.lhsIdx
  rw [dif_neg (show ¬(0 : Fin S1000x768.rank) ∈ dot_S1000x768_S768x256_S1000x256_1_0_0_1_n_n.lhsBatch by decide), dif_pos (show (0 : Fin S1000x768.rank) ∈ dot_S1000x768_S768x256_S1000x256_1_0_0_1_n_n.lhsNonContracting by decide)]
  rfl
/-- On the left operand's column axis, the dot's index is the contraction coordinate. -/
theorem lhsW_1 (i : S1000x256.Idx) (q : dot_S1000x768_S768x256_S1000x256_1_0_0_1_n_n.contr.Idx) :
    (dot_S1000x768_S768x256_S1000x256_1_0_0_1_n_n.lhsIdx i q 1).val = (q ⟨0, by decide⟩).val :=
  dot_S1000x768_S768x256_S1000x256_1_0_0_1_n_n.lhsIdx_val_of_single rfl i q
/-- On the right operand's row axis, the dot's index is the contraction coordinate. -/
theorem rhsW_0 (i : S1000x256.Idx) (q : dot_S1000x768_S768x256_S1000x256_1_0_0_1_n_n.contr.Idx) :
    (dot_S1000x768_S768x256_S1000x256_1_0_0_1_n_n.rhsIdx i q 0).val = (q ⟨0, by decide⟩).val :=
  dot_S1000x768_S768x256_S1000x256_1_0_0_1_n_n.rhsIdx_val_of_single rfl i q
/-- On the right operand's column axis, the dot's index is the output's column. -/
theorem rhsW_1 (i : S1000x256.Idx) (q : dot_S1000x768_S768x256_S1000x256_1_0_0_1_n_n.contr.Idx) :
    (dot_S1000x768_S768x256_S1000x256_1_0_0_1_n_n.rhsIdx i q 1).val = (i 1).val := by
  unfold DotDims.rhsIdx
  rw [dif_neg (show ¬(1 : Fin S768x256.rank) ∈ dot_S1000x768_S768x256_S1000x256_1_0_0_1_n_n.rhsBatch by decide), dif_pos (show (1 : Fin S768x256.rank) ∈ dot_S1000x768_S768x256_S1000x256_1_0_0_1_n_n.rhsNonContracting by decide)]
  rfl

/-- The product into the zero accumulator, read at row `p` and column `q`: the sum over the
    768 contracted coordinates of left row `p` times right column `q`. -/
theorem matmulW_apply (a : FVec Ideal S1000x768 .bf16) (b : FVec Ideal S768x256 .bf16) (p : Fin 1000) (q : Fin 256) :
    matmul dot_S1000x768_S768x256_S1000x256_1_0_0_1_n_n none a b (constant (F := Ideal) S1000x256 .f32 0x00000000#32) (ix2 p q)
      = ∑ k : Fin 768, a (ix2 p k) * b (ix2 k q) := by
  refine (Ideal.matmul_constant_zero_apply dot_S1000x768_S768x256_S1000x256_1_0_0_1_n_n none a b (ix2 p q)).trans ?_
  rw [← Equiv.sum_comp (contrEquiv1 dot_S1000x768_S768x256_S1000x256_1_0_0_1_n_n 768 rfl rfl).symm]
  refine Finset.sum_congr rfl fun k _ => ?_
  have hk := contrEquiv1_symm_val dot_S1000x768_S768x256_S1000x256_1_0_0_1_n_n 768 rfl rfl k
  have el : dot_S1000x768_S768x256_S1000x256_1_0_0_1_n_n.lhsIdx (ix2 p q) ((contrEquiv1 dot_S1000x768_S768x256_S1000x256_1_0_0_1_n_n 768 rfl rfl).symm k) = ix2 p k := funext fun a => Fin.ext (by
    match a with
    | ⟨0, _⟩ => exact lhsW_0 _ _
    | ⟨1, _⟩ => exact (lhsW_1 _ _).trans hk)
  have er : dot_S1000x768_S768x256_S1000x256_1_0_0_1_n_n.rhsIdx (ix2 p q) ((contrEquiv1 dot_S1000x768_S768x256_S1000x256_1_0_0_1_n_n 768 rfl rfl).symm k) = ix2 k q := funext fun a => Fin.ext (by
    match a with
    | ⟨0, _⟩ => exact (rhsW_0 _ _).trans hk
    | ⟨1, _⟩ => exact rhsW_1 _ _)
  rw [el, er]

/-- On the left operand's row axis, the dot's index is the output's row. -/
theorem lhsN_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
/-- On the left operand's column axis, the dot's index is the contraction coordinate. -/
theorem lhsN_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
/-- On the right operand's row axis, the dot's index is the contraction coordinate. -/
theorem rhsN_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
/-- On the right operand's column axis, the dot's index is the output's column. -/
theorem rhsN_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The product into the zero accumulator, read at row `p` and column `q`: the sum over the
    256 contracted coordinates of left row `p` times right column `q`. -/
theorem matmulN_apply (a : FVec Ideal S1000x256 .bf16) (b : FVec Ideal S256x256 .bf16) (p : Fin 1000) (q : Fin 256) :
    matmul dot_S1000x256_S256x256_S1000x256_1_0_0_1_n_n none a b (constant (F := Ideal) S1000x256 .f32 0x00000000#32) (ix2 p q)
      = ∑ k : Fin 256, a (ix2 p k) * b (ix2 k q) := by
  refine (Ideal.matmul_constant_zero_apply dot_S1000x256_S256x256_S1000x256_1_0_0_1_n_n none a b (ix2 p q)).trans ?_
  rw [← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhsN_0 _ _
    | ⟨1, _⟩ => exact (lhsN_1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhsN_0 _ _).trans hk
    | ⟨1, _⟩ => exact rhsN_1 _ _)
  rw [el, er]

/-- The first layer's stored value at row `p`, column `q`: the two inputs are added, multiplied by the
    weight along the 768 contracted coordinates, the bias row is added and the result is clamped below at zero. -/
theorem pay0_apply (x0 x1 : Vec Ideal S1000x768 .f32) (x2 : Vec Ideal S768x256 .f32) (x3 : Vec Ideal S1x256 .f32) (p : Fin 1000) (q : Fin 256) :
    k0_pay1 (F := Ideal) x0 x1 x2 x3 (ix2 p q)
      = max ((∑ k : Fin 768, (x0 (ix2 p k) + x1 (ix2 p k)) * x2 (ix2 k q)) + x3 (ix2 (0 : Fin 1) q)) 0 := by
  unfold k0_pay1
  show max (matmul dot_S1000x768_S768x256_S1000x256_1_0_0_1_n_n none (truncf .bf16 (addf x0 (shapeCast S1000x768 x1 _)) _) (truncf .bf16 x2 _) (constant (F := Ideal) S1000x256 .f32 0x00000000#32) (ix2 p q) + broadcastTo S1000x256 (shapeCast S1x256 x3 _) _ (ix2 p q)) (Ideal.ofBits .f32 0x00000000#32) = _
  rw [matmulW_apply, broadcastTo_1b_ab_apply, shapeCast_self, shapeCast_self, Ideal.ofBits_zero_f32]
  rfl

/-- The second layer's stored value at row `p`, column `q`: the same with 256 contracted coordinates. -/
theorem pay1_apply (x0 x1 : Vec Ideal S1000x256 .f32) (x2 : Vec Ideal S256x256 .f32) (x3 : Vec Ideal S1x256 .f32) (p : Fin 1000) (q : Fin 256) :
    k1_pay1 (F := Ideal) x0 x1 x2 x3 (ix2 p q)
      = max ((∑ k : Fin 256, (x0 (ix2 p k) + x1 (ix2 p k)) * x2 (ix2 k q)) + x3 (ix2 (0 : Fin 1) q)) 0 := by
  unfold k1_pay1
  show max (matmul dot_S1000x256_S256x256_S1000x256_1_0_0_1_n_n none (truncf .bf16 (addf (shapeCast S1000x256 x0 _) (shapeCast S1000x256 x1 _)) _) (truncf .bf16 x2 _) (constant (F := Ideal) S1000x256 .f32 0x00000000#32) (ix2 p q) + broadcastTo S1000x256 (shapeCast S1x256 x3 _) _ (ix2 p q)) (Ideal.ofBits .f32 0x00000000#32) = _
  rw [matmulN_apply, broadcastTo_1b_ab_apply, shapeCast_self, shapeCast_self, shapeCast_self, Ideal.ofBits_zero_f32]
  rfl

/-- The third layer's stored value at row `p`, column `q`: as the second layer's. -/
theorem pay2_apply (x0 x1 : Vec Ideal S1000x256 .f32) (x2 : Vec Ideal S256x256 .f32) (x3 : Vec Ideal S1x256 .f32) (p : Fin 1000) (q : Fin 256) :
    k2_pay1 (F := Ideal) x0 x1 x2 x3 (ix2 p q)
      = max ((∑ k : Fin 256, (x0 (ix2 p k) + x1 (ix2 p k)) * x2 (ix2 k q)) + x3 (ix2 (0 : Fin 1) q)) 0 := by
  unfold k2_pay1
  show max (matmul dot_S1000x256_S256x256_S1000x256_1_0_0_1_n_n none (truncf .bf16 (addf (shapeCast S1000x256 x0 _) (shapeCast S1000x256 x1 _)) _) (truncf .bf16 x2 _) (constant (F := Ideal) S1000x256 .f32 0x00000000#32) (ix2 p q) + broadcastTo S1000x256 (shapeCast S1x256 x3 _) _ (ix2 p q)) (Ideal.ofBits .f32 0x00000000#32) = _
  rw [matmulN_apply, broadcastTo_1b_ab_apply, shapeCast_self, shapeCast_self, shapeCast_self, Ideal.ofBits_zero_f32]
  rfl

/-- The readout's stored value at row `p`, column `q`: the input is clamped below at zero, multiplied by the
    weight along the 768 contracted coordinates, and the bias row is added. -/
theorem pay3_apply (x0 : Vec Ideal S1000x768 .f32) (x2 : Vec Ideal S768x256 .f32) (x3 : Vec Ideal S1x256 .f32) (p : Fin 1000) (q : Fin 256) :
    k3_pay1 (F := Ideal) x0 x2 x3 (ix2 p q)
      = (∑ k : Fin 768, max (x0 (ix2 p k)) 0 * x2 (ix2 k q)) + x3 (ix2 (0 : Fin 1) q) := by
  unfold k3_pay1
  show matmul dot_S1000x768_S768x256_S1000x256_1_0_0_1_n_n none (truncf .bf16 (maximumf (shapeCast S1000x768 x0 _) (broadcast S1000x768 (Ideal.ofBits .f32 0x00000000#32))) _) (truncf .bf16 x2 _) (constant (F := Ideal) S1000x256 .f32 0x00000000#32) (ix2 p q) + broadcastTo S1000x256 (shapeCast S1x256 x3 _) _ (ix2 p q) = _
  rw [matmulW_apply, broadcastTo_1b_ab_apply, shapeCast_self, shapeCast_self, Ideal.ofBits_zero_f32]
  rfl

end Cert.Val

end
-- ==== Proof.Spec.lean ====
/-
  What one graph layer and the readout compute, as whole-array functions over the extended reals.

  A layer takes node features `h` (20000 rows), their edge-weighted neighbour sums `g` (same shape), a weight
  matrix `W` and a bias row `b`, and returns, at row `r` and column `q`,
      max ( (∑ₖ (h r k + g r k) · W k q) + b q , 0 ).
  The readout takes the three layers' outputs side by side (768 columns) and returns
      (∑ₖ max (x r k, 0) · W k q) + b q.
  The neighbour sum `g` of features `h` is one fixed chain of array operations on `h`, the edge weights and the
  two endpoint lists (wrap a negative source index, gather the source rows, scale each by its edge's weight,
  add the scaled rows into their destination rows from zero); both programs apply that same chain, so it is
  named here once and never opened.
-/
import proofs.«118984_j51049981280515_1_alg».proof.KernelIdeal
import Idealize.ShloMosaic.Lib.ValueIdx
import Idealize.ShloMosaic.PureOps.Ideal

noncomputable section

namespace Cert.Spec

open Idealize.ShloMosaic Idealize.ShloMosaic.ValueIdx Cert.KernelIdeal

variable [Cert.KernelIdeal.Facts₀]
open Cert.KernelIdeal.Facts₀

/-- A first-layer entry: 768 input columns. -/
def gin768At (h g : FVec Ideal S20000x768 .f32) (W : FVec Ideal S768x256 .f32) (b : FVec Ideal S256 .f32)
    (r : Fin 20000) (q : Fin 256) : EReal :=
  max ((∑ k : Fin 768, (h (ix2 r k) + g (ix2 r k)) * W (ix2 k q)) + b (ix1 q)) 0

/-- The first layer as an array. -/
def gin768 (h g : FVec Ideal S20000x768 .f32) (W : FVec Ideal S768x256 .f32) (b : FVec Ideal S256 .f32) :
    FVec Ideal S20000x256 .f32 :=
  fun i => gin768At h g W b (i 0) (i 1)

theorem gin768_apply (h g : FVec Ideal S20000x768 .f32) (W : FVec Ideal S768x256 .f32) (b : FVec Ideal S256 .f32)
    (r : Fin 20000) (q : Fin 256) : gin768 h g W b (ix2 r q) = gin768At h g W b r q := rfl

/-- A later-layer entry: 256 input columns. -/
def gin256At (h g : FVec Ideal S20000x256 .f32) (W : FVec Ideal S256x256 .f32) (b : FVec Ideal S256 .f32)
    (r : Fin 20000) (q : Fin 256) : EReal :=
  max ((∑ k : Fin 256, (h (ix2 r k) + g (ix2 r k)) * W (ix2 k q)) + b (ix1 q)) 0

/-- A later layer as an array. -/
def gin256 (h g : FVec Ideal S20000x256 .f32) (W : FVec Ideal S256x256 .f32) (b : FVec Ideal S256 .f32) :
    FVec Ideal S20000x256 .f32 :=
  fun i => gin256At h g W b (i 0) (i 1)

theorem gin256_apply (h g : FVec Ideal S20000x256 .f32) (W : FVec Ideal S256x256 .f32) (b : FVec Ideal S256 .f32)
    (r : Fin 20000) (q : Fin 256) : gin256 h g W b (ix2 r q) = gin256At h g W b r q := rfl

/-- A readout entry: the joined features clipped below at zero, times the readout weights, plus its bias. -/
def readoutAt (x : FVec Ideal S20000x768 .f32) (W : FVec Ideal S768x256 .f32) (b : FVec Ideal S256 .f32)
    (r : Fin 20000) (q : Fin 256) : EReal :=
  (∑ k : Fin 768, max (x (ix2 r k)) 0 * W (ix2 k q)) + b (ix1 q)

/-- The readout as an array. -/
def readout (x : FVec Ideal S20000x768 .f32) (W : FVec Ideal S768x256 .f32) (b : FVec Ideal S256 .f32) :
    FVec Ideal S20000x256 .f32 :=
  fun i => readoutAt x W b (i 0) (i 1)

theorem readout_apply (x : FVec Ideal S20000x768 .f32) (W : FVec Ideal S768x256 .f32) (b : FVec Ideal S256 .f32)
    (r : Fin 20000) (q : Fin 256) : readout x W b (ix2 r q) = readoutAt x W b r q := rfl

/-- The source endpoints with a negative index wrapped round by the node count, as a column. -/
def srcCol (s : IVec S320000 32) : IVec S320000x1 32 :=
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 20000#32))) s)

/-- The neighbour sums of 768-column features. -/
def agg768 (h : FVec Ideal S20000x768 .f32) (w : FVec Ideal S320000 .f32) (s d : IVec S320000 32) :
    FVec Ideal S20000x768 .f32 :=
  Host.scatterAdd (F := Ideal) scatter_S20000x768_S320000x1_S320000x768_1_0_0_1
    (broadcastInDim S20000x768 ![] bcast_S_S20000x768 (constant (F := Ideal) S_ .f32 0x00000000#32))
    (broadcastInDim S320000x1 ![0] bcast_S320000_S320000x1_0 d)
    (mulf (Host.gather gather_S20000x768_S320000x1_S320000x768_1_0_n_n_0_1_1768 h (srcCol s))
      (broadcastInDim S320000x768 ![0, 1] bcast_S320000x1_S320000x768_0_1
        (broadcastInDim S320000x1 ![0] bcast_S320000_S320000x1_0 w)))

/-- The neighbour sums of 256-column features. -/
def agg256 (h : FVec Ideal S20000x256 .f32) (w : FVec Ideal S320000 .f32) (s d : IVec S320000 32) :
    FVec Ideal S20000x256 .f32 :=
  Host.scatterAdd (F := Ideal) scatter_S20000x256_S320000x1_S320000x256_1_0_0_1
    (broadcastInDim S20000x256 ![] bcast_S_S20000x256 (constant (F := Ideal) S_ .f32 0x00000000#32))
    (broadcastInDim S320000x1 ![0] bcast_S320000_S320000x1_0 d)
    (mulf (Host.gather gather_S20000x256_S320000x1_S320000x256_1_0_n_n_0_1_1256 h (srcCol s))
      (broadcastInDim S320000x256 ![0, 1] bcast_S320000x1_S320000x256_0_1
        (broadcastInDim S320000x1 ![0] bcast_S320000_S320000x1_0 w)))

/-- Three 256-column arrays side by side. -/
def join3 (a b c : FVec Ideal S20000x256 .f32) : FVec Ideal S20000x768 .f32 :=
  concatenate S20000x768 1 [⟨S20000x256, a⟩, ⟨S20000x256, b⟩, ⟨S20000x256, c⟩]
    concatenates_S20000x256_S20000x256_S20000x256_S20000x768_d1

/-- The whole network: three layers, each fed the one before and its neighbour sums, then the readout of
    the three joined. -/
def net (x0 : FVec Ideal S20000x768 .f32) (w : FVec Ideal S320000 .f32)
    (W0 : FVec Ideal S768x256 .f32) (b0 : FVec Ideal S256 .f32) (W1 : FVec Ideal S256x256 .f32) (b1 : FVec Ideal S256 .f32)
    (W2 : FVec Ideal S256x256 .f32) (b2 : FVec Ideal S256 .f32) (Wr : FVec Ideal S768x256 .f32) (br : FVec Ideal S256 .f32)
    (s d : IVec S320000 32) : FVec Ideal S20000x256 .f32 :=
  let l1 := gin768 x0 (agg768 x0 w s d) W0 b0
  let l2 := gin256 l1 (agg256 l1 w s d) W1 b1
  let l3 := gin256 l2 (agg256 l2 w s d) W2 b2
  readout (join3 l1 l2 l3) Wr br

end Cert.Spec

end
-- ==== Proof.Val.Final0.lean ====
/-
  Region 0 of the program (the first layer), at exact arithmetic: the result array after the region, as one
  function of the arrays the region finds.

  The region walks 20 points. Point `t` reads rows [1000·t, 1000·t + 1000) of the node features and of their
  neighbour sums, the whole weight matrix and the whole bias row, and writes the stored value back as rows
  [1000·t, 1000·t + 1000) of the result. Entry (p, q) of the stored value is
      max ( (∑ₖ (x0 p k + x1 p k) · x2 k q) + x3 0 q , 0 )
  of the four blocks, and entry (p, k) of a row block at point `t` is entry (1000·t + p, k) of its array: a block's
  coordinate is always block index × block size + the coordinate inside the block. So what point `t` writes back is
  block `t` of the layer's whole-array function. Row `r` of the result lies in the block of point `r / 1000`, every
  point writes back, so the blocks cover the array and it ends holding that function.
-/
import proofs.«118984_j51049981280515_1_alg».proof.Proof.KI.Body0
import proofs.«118984_j51049981280515_1_alg».proof.Proof.Val.Pay
import proofs.«118984_j51049981280515_1_alg».proof.Proof.Spec
import Idealize.ShloMosaic.Lib.ValueIdx
import Idealize.ShloMosaic.Lib.Pipeline.Value

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-- The zero offsets of a whole-block rectangle, spelt as the constant function. -/
theorem zeroOff0 : (![0, 0] : Fin 2 → Nat) = fun _ => 0 := funext fun a => by fin_cases a <;> rfl

/-- The block index of each window at each of the 20 points: the two row-blocked inputs and the output sit at
    block (t, 0); the weight matrix and the bias row at block (0, 0). -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry of the stored value, once every entry of the four blocks it reads is known to be the matching entry
    of a whole array: row `p` of the two row blocks is row `r` of `h` and `g`, the weight block is `W`, the bias
    block's one row is `b`. It is then the layer's entry at row `r`. -/
theorem layer0_entry (x0 x1 : Vec Ideal S1000x768 .f32) (x2 : Vec Ideal S768x256 .f32) (x3 : Vec Ideal S1x256 .f32)
    (h g : FVec Ideal S20000x768 .f32) (W : FVec Ideal S768x256 .f32) (b : FVec Ideal S256 .f32)
    (p : Fin 1000) (q : Fin 256) (r : Fin 20000)
    (e0 : ∀ k : Fin 768, x0 (ix2 p k) = h (ix2 r k)) (e1 : ∀ k : Fin 768, x1 (ix2 p k) = g (ix2 r k))
    (e2 : ∀ k : Fin 768, x2 (ix2 k q) = W (ix2 k q)) (e3 : x3 (ix2 (0 : Fin 1) q) = b (ix1 q)) :
    k0_pay1 (F := Ideal) x0 x1 x2 x3 (ix2 p q) = Cert.Spec.gin768 h g W b (ix2 r q) := by
  rw [pay0_apply, Cert.Spec.gin768_apply]
  unfold Cert.Spec.gin768At
  rw [e3]
  simp only [e0, e1, e2]

variable (V : (c : Dev nD) → (b : Ref sig .tc) → Buf (Elt Ideal) ((c : Thread nD τ).loc b))

/-- The node-feature block at point `t`: its row `p` is row `1000·t + p` of the array. -/
theorem featBlock0 (c : Dev nD) (t : Fin cfg0.N) (p : Fin 1000) (k : Fin 768) (r : Fin 20000) (hr : r.val = 1000 * t.val + p.val) :
    (iblk0 V c 0 t : Vec Ideal S1000x768 .f32) (ix2 p k) = (V c main_arg0 : FVec Ideal S20000x768 .f32) (ix2 r k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 768 + 1 * k.val = k.val; rw [e1]; omega

/-- The neighbour-sum block at point `t`: its row `p` is row `1000·t + p` of the array. -/
theorem nbrBlock0 (c : Dev nD) (t : Fin cfg0.N) (p : Fin 1000) (k : Fin 768) (r : Fin 20000) (hr : r.val = 1000 * t.val + p.val) :
    (iblk0 V c 1 t : Vec Ideal S1000x768 .f32) (ix2 p k) = (V c main_v12 : FVec Ideal S20000x768 .f32) (ix2 r k) := by
  obtain ⟨-, -, e0, e1, -⟩ := blockIdx0 t
  unfold iblk0
  rw [View.read_apply]
  show V c main_v12 _ = V c main_v12 _
  congr 1
  funext a
  apply Fin.ext
  match a with
  | ⟨0, _⟩ => show win0_1.index t (0 : Fin 2) * 1000 + 1 * p.val = r.val; rw [e0, hr]; omega
  | ⟨1, _⟩ => show win0_1.index t (1 : Fin 2) * 768 + 1 * k.val = k.val; rw [e1]; omega

/-- The weight block at every point is the whole weight matrix. -/
theorem weightBlock0 (c : Dev nD) (t : Fin cfg0.N) (k : Fin 768) (q : Fin 256) :
    (iblk0 V c 2 t : Vec Ideal S768x256 .f32) (ix2 k q) = (V c main_arg2 : FVec Ideal S768x256 .f32) (ix2 k q) := by
  obtain ⟨-, -, -, -, e0, e1, -⟩ := blockIdx0 t
  unfold iblk0
  rw [View.read_apply]
  show V c main_arg2 _ = V c main_arg2 _
  congr 1
  funext a
  apply Fin.ext
  match a with
  | ⟨0, _⟩ => show win0_2.index t (0 : Fin 2) * 768 + 1 * k.val = k.val; rw [e0]; omega
  | ⟨1, _⟩ => show win0_2.index t (1 : Fin 2) * 256 + 1 * q.val = q.val; rw [e1]; omega

/-- The bias block at every point is the whole bias row. -/
theorem biasBlock0 (c : Dev nD) (t : Fin cfg0.N) (q : Fin 256) :
    (iblk0 V c 3 t : Vec Ideal S1x256 .f32) (ix2 (0 : Fin 1) q) = (V c main_v13 : FVec Ideal S1x256 .f32) (ix2 (0 : Fin 1) q) := by
  obtain ⟨-, -, -, -, -, -, e0, e1, -⟩ := blockIdx0 t
  unfold iblk0
  rw [View.read_apply]
  show V c main_v13 _ = V c main_v13 _
  congr 1
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 256 + 1 * q.val = q.val; rw [e1]; omega

/-- The output's block at point `t`, read off a whole array `G`: its row `p` is row `1000·t + p` of `G`. -/
theorem outBlock0 (G : FVec Ideal S20000x256 .f32) (t : Fin cfg0.N) (p : Fin 1000) (q : Fin 256) (r : Fin 20000) (hr : r.val = 1000 * t.val + p.val) :
    (((cfg0.win 4).blk t).view.read (Elt Ideal) G : Vec Ideal S1000x256 .f32) (ix2 p q) = G (ix2 r q) := by
  obtain ⟨-, -, -, -, -, -, -, -, e0, e1⟩ := blockIdx0 t
  rw [View.read_apply]
  show G _ = G _
  congr 1
  funext a
  apply Fin.ext
  match a with
  | ⟨0, _⟩ => show win0_4.index t (0 : Fin 2) * 1000 + 1 * p.val = r.val; rw [e0, hr]; omega
  | ⟨1, _⟩ => show win0_4.index t (1 : Fin 2) * 256 + 1 * q.val = q.val; rw [e1]; omega

/-- What point `t` writes back is block `t` of the layer's whole-array function of the arrays as the region finds them. -/
theorem flushed0_eq (c : Dev nD) (b : FVec Ideal S256 .f32) (hb : ∀ q : Fin 256, V c main_v13 (ix2 (0 : Fin 1) q) = b (ix1 q)) (t : Fin cfg0.N) :
    (dat0 (F := Ideal) V c).flushed 4 t = ((cfg0.win 4).blk t).view.read (Elt Ideal) (Cert.Spec.gin768 (V c main_arg0) (V c main_v12) (V c main_arg2) b) := by
  show (cfg0.win 4).cut (grid0.coords t) ((dat0 V c).after 4 t) = _
  rw [after0_4]
  unfold out0_4
  rw [View.canon_unit_zero zeroOff0]
  simp only [View.ld_unit_zero (S := S1000x768) zeroOff0, View.ld_unit_zero (S := S768x256) zeroOff0, View.ld_unit_zero (S := S1x256) zeroOff0]
  funext j
  obtain ⟨p, q, rfl⟩ : ∃ (p : Fin 1000) (q : Fin 256), j = ix2 p q := ⟨j 0, j 1, eq_ix2 j⟩
  have hN : grid0.N = 20 := N_0
  have ht : t.val < 20 := hN ▸ t.isLt
  have hr : 1000 * t.val + p.val < 20000 := by have := p.isLt; omega
  show k0_pay1 (F := Ideal) (iblk0 V c 0 t) (iblk0 V c 1 t) (iblk0 V c 2 t) (iblk0 V c 3 t) (ix2 p q) = _
  rw [outBlock0 _ t p q ⟨1000 * t.val + p.val, hr⟩ rfl]
  exact layer0_entry (iblk0 V c 0 t) (iblk0 V c 1 t) (iblk0 V c 2 t) (iblk0 V c 3 t) (V c main_arg0) (V c main_v12) (V c main_arg2) b p q ⟨1000 * t.val + p.val, hr⟩
    (fun k => featBlock0 V c t p k _ rfl) (fun k => nbrBlock0 V c t p k _ rfl) (fun k => weightBlock0 V c t k q) ((biasBlock0 V c t q).trans (hb q))

/-- An index of the result array is in point `t`'s block iff each coordinate is in the block's range on its axis. -/
theorem mem_outBlock0 (t : Fin cfg0.N) (i : S20000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v14).slice (win0_4.rect t)).set ↔ _
  rw [View.set_slice_whole, Rect.mem_set_unit]
  exact Iff.rfl

/-- Every row `r` of the result lies in the block of the point `r / 1000`, which is written back. -/
theorem cover0 (i : S20000x256.Idx) : ∃ t : Fin cfg0.N, (cfg0.win 4).flush t = true ∧ i ∈ ((cfg0.win 4).blk t).view.set := by
  have hi0 : (i 0).val < 20000 := (i 0).isLt
  have hi1 : (i 1).val < 256 := (i 1).isLt
  have hN : grid0.N = 20 := N_0
  have hlt : (i 0).val / 1000 < grid0.N := by rw [hN]; omega
  refine ⟨⟨(i 0).val / 1000, hlt⟩, flush0_4 _, ?_⟩
  rw [mem_outBlock0]
  obtain ⟨-, -, -, -, -, -, -, -, e0, e1⟩ := blockIdx0 ⟨(i 0).val / 1000, hlt⟩
  intro a
  match a with
  | ⟨0, _⟩ =>
    show win0_4.index ⟨(i 0).val / 1000, hlt⟩ (0 : Fin 2) * 1000 ≤ (i 0).val ∧ (i 0).val < win0_4.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win0_4.index ⟨(i 0).val / 1000, hlt⟩ (1 : Fin 2) * 256 ≤ (i 1).val ∧ (i 1).val < win0_4.index ⟨(i 0).val / 1000, hlt⟩ (1 : Fin 2) * 256 + 256
    rw [e1]; omega

/-- The result array after the region: the layer's whole-array function of the arrays as the region finds them. -/
theorem final0 (c : Dev nD) (b : FVec Ideal S256 .f32) (hb : ∀ q : Fin 256, V c main_v13 (ix2 (0 : Fin 1) q) = b (ix1 q)) :
    (dat0 (F := Ideal) V c).arrAt 4 cfg0.N = Cert.Spec.gin768 (V c main_arg0) (V c main_v12) (V c main_arg2) b :=
  (dat0 V c).arrAt_eq_of_cover 4 (Cert.Spec.gin768 (V c main_arg0) (V c main_v12) (V c main_arg2) b) (fun t _ => flushed0_eq V c b hb t) cover0

end Cert.Val

end
-- ==== Proof.Val.Final1.lean ====
/-
  Region 1 of the program (a later layer), at exact arithmetic: the result array after the region, as one
  function of the arrays the region finds.

  The region walks 20 points. Point `t` reads rows [1000·t, 1000·t + 1000) of the node features and of their
  neighbour sums, the whole weight matrix and the whole bias row, and writes the stored value back as rows
  [1000·t, 1000·t + 1000) of the result. Entry (p, q) of the stored value is
      max ( (∑ₖ (x0 p k + x1 p k) · x2 k q) + x3 0 q , 0 )
  of the four blocks, and entry (p, k) of a row block at point `t` is entry (1000·t + p, k) of its array: a block's
  coordinate is always block index × block size + the coordinate inside the block. So what point `t` writes back is
  block `t` of the layer's whole-array function. Row `r` of the result lies in the block of point `r / 1000`, every
  point writes back, so the blocks cover the array and it ends holding that function.
-/
import proofs.«118984_j51049981280515_1_alg».proof.Proof.KI.Body1
import proofs.«118984_j51049981280515_1_alg».proof.Proof.Val.Pay
import proofs.«118984_j51049981280515_1_alg».proof.Proof.Spec
import Idealize.ShloMosaic.Lib.ValueIdx
import Idealize.ShloMosaic.Lib.Pipeline.Value

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-- The zero offsets of a whole-block rectangle, spelt as the constant function. -/
theorem zeroOff1 : (![0, 0] : Fin 2 → Nat) = fun _ => 0 := funext fun a => by fin_cases a <;> rfl

/-- The block index of each window at each of the 20 points: the two row-blocked inputs and the output sit at
    block (t, 0); the weight matrix and the bias row at block (0, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of the stored value, once every entry of the four blocks it reads is known to be the matching entry
    of a whole array: row `p` of the two row blocks is row `r` of `h` and `g`, the weight block is `W`, the bias
    block's one row is `b`. It is then the layer's entry at row `r`. -/
theorem layer1_entry (x0 x1 : Vec Ideal S1000x256 .f32) (x2 : Vec Ideal S256x256 .f32) (x3 : Vec Ideal S1x256 .f32)
    (h g : FVec Ideal S20000x256 .f32) (W : FVec Ideal S256x256 .f32) (b : FVec Ideal S256 .f32)
    (p : Fin 1000) (q : Fin 256) (r : Fin 20000)
    (e0 : ∀ k : Fin 256, x0 (ix2 p k) = h (ix2 r k)) (e1 : ∀ k : Fin 256, x1 (ix2 p k) = g (ix2 r k))
    (e2 : ∀ k : Fin 256, x2 (ix2 k q) = W (ix2 k q)) (e3 : x3 (ix2 (0 : Fin 1) q) = b (ix1 q)) :
    k1_pay1 (F := Ideal) x0 x1 x2 x3 (ix2 p q) = Cert.Spec.gin256 h g W b (ix2 r q) := by
  rw [pay1_apply, Cert.Spec.gin256_apply]
  unfold Cert.Spec.gin256At
  rw [e3]
  simp only [e0, e1, e2]

variable (V : (c : Dev nD) → (b : Ref sig .tc) → Buf (Elt Ideal) ((c : Thread nD τ).loc b))

/-- The node-feature block at point `t`: its row `p` is row `1000·t + p` of the array. -/
theorem featBlock1 (c : Dev nD) (t : Fin cfg1.N) (p : Fin 1000) (k : Fin 256) (r : Fin 20000) (hr : r.val = 1000 * t.val + p.val) :
    (iblk1 V c 0 t : Vec Ideal S1000x256 .f32) (ix2 p k) = (V c main_v14 : FVec Ideal S20000x256 .f32) (ix2 r k) := by
  obtain ⟨e0, e1, -⟩ := blockIdx1 t
  unfold iblk1
  rw [View.read_apply]
  show V c main_v14 _ = V c main_v14 _
  congr 1
  funext a
  apply Fin.ext
  match a with
  | ⟨0, _⟩ => show win1_0.index t (0 : Fin 2) * 1000 + 1 * p.val = r.val; rw [e0, hr]; omega
  | ⟨1, _⟩ => show win1_0.index t (1 : Fin 2) * 256 + 1 * k.val = k.val; rw [e1]; omega

/-- The neighbour-sum block at point `t`: its row `p` is row `1000·t + p` of the array. -/
theorem nbrBlock1 (c : Dev nD) (t : Fin cfg1.N) (p : Fin 1000) (k : Fin 256) (r : Fin 20000) (hr : r.val = 1000 * t.val + p.val) :
    (iblk1 V c 1 t : Vec Ideal S1000x256 .f32) (ix2 p k) = (V c main_v27 : FVec Ideal S20000x256 .f32) (ix2 r k) := by
  obtain ⟨-, -, e0, e1, -⟩ := blockIdx1 t
  unfold iblk1
  rw [View.read_apply]
  show V c main_v27 _ = V c main_v27 _
  congr 1
  funext a
  apply Fin.ext
  match a with
  | ⟨0, _⟩ => show win1_1.index t (0 : Fin 2) * 1000 + 1 * p.val = r.val; rw [e0, hr]; omega
  | ⟨1, _⟩ => show win1_1.index t (1 : Fin 2) * 256 + 1 * k.val = k.val; rw [e1]; omega

/-- The weight block at every point is the whole weight matrix. -/
theorem weightBlock1 (c : Dev nD) (t : Fin cfg1.N) (k : Fin 256) (q : Fin 256) :
    (iblk1 V c 2 t : Vec Ideal S256x256 .f32) (ix2 k q) = (V c main_arg4 : FVec Ideal S256x256 .f32) (ix2 k q) := by
  obtain ⟨-, -, -, -, e0, e1, -⟩ := blockIdx1 t
  unfold iblk1
  rw [View.read_apply]
  show V c main_arg4 _ = V c main_arg4 _
  congr 1
  funext a
  apply Fin.ext
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The bias block at every point is the whole bias row. -/
theorem biasBlock1 (c : Dev nD) (t : Fin cfg1.N) (q : Fin 256) :
    (iblk1 V c 3 t : Vec Ideal S1x256 .f32) (ix2 (0 : Fin 1) q) = (V c main_v28 : FVec Ideal S1x256 .f32) (ix2 (0 : Fin 1) q) := by
  obtain ⟨-, -, -, -, -, -, e0, e1, -⟩ := blockIdx1 t
  unfold iblk1
  rw [View.read_apply]
  show V c main_v28 _ = V c main_v28 _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 256 + 1 * q.val = q.val; rw [e1]; omega

/-- The output's block at point `t`, read off a whole array `G`: its row `p` is row `1000·t + p` of `G`. -/
theorem outBlock1 (G : FVec Ideal S20000x256 .f32) (t : Fin cfg1.N) (p : Fin 1000) (q : Fin 256) (r : Fin 20000) (hr : r.val = 1000 * t.val + p.val) :
    (((cfg1.win 4).blk t).view.read (Elt Ideal) G : Vec Ideal S1000x256 .f32) (ix2 p q) = G (ix2 r q) := by
  obtain ⟨-, -, -, -, -, -, -, -, e0, e1⟩ := blockIdx1 t
  rw [View.read_apply]
  show G _ = G _
  congr 1
  funext a
  apply Fin.ext
  match a with
  | ⟨0, _⟩ => show win1_4.index t (0 : Fin 2) * 1000 + 1 * p.val = r.val; rw [e0, hr]; omega
  | ⟨1, _⟩ => show win1_4.index t (1 : Fin 2) * 256 + 1 * q.val = q.val; rw [e1]; omega

/-- What point `t` writes back is block `t` of the layer's whole-array function of the arrays as the region finds them. -/
theorem flushed1_eq (c : Dev nD) (b : FVec Ideal S256 .f32) (hb : ∀ q : Fin 256, V c main_v28 (ix2 (0 : Fin 1) q) = b (ix1 q)) (t : Fin cfg1.N) :
    (dat1 (F := Ideal) V c).flushed 4 t = ((cfg1.win 4).blk t).view.read (Elt Ideal) (Cert.Spec.gin256 (V c main_v14) (V c main_v27) (V c main_arg4) b) := by
  show (cfg1.win 4).cut (grid1.coords t) ((dat1 V c).after 4 t) = _
  rw [after1_4]
  unfold out1_4
  rw [View.canon_unit_zero zeroOff1]
  simp only [View.ld_unit_zero (S := S1000x256) zeroOff1, View.ld_unit_zero (S := S256x256) zeroOff1, View.ld_unit_zero (S := S1x256) zeroOff1]
  funext j
  obtain ⟨p, q, rfl⟩ : ∃ (p : Fin 1000) (q : Fin 256), j = ix2 p q := ⟨j 0, j 1, eq_ix2 j⟩
  have hN : grid1.N = 20 := N_1
  have ht : t.val < 20 := hN ▸ t.isLt
  have hr : 1000 * t.val + p.val < 20000 := by have := p.isLt; omega
  show k1_pay1 (F := Ideal) (iblk1 V c 0 t) (iblk1 V c 1 t) (iblk1 V c 2 t) (iblk1 V c 3 t) (ix2 p q) = _
  rw [outBlock1 _ t p q ⟨1000 * t.val + p.val, hr⟩ rfl]
  exact layer1_entry (iblk1 V c 0 t) (iblk1 V c 1 t) (iblk1 V c 2 t) (iblk1 V c 3 t) (V c main_v14) (V c main_v27) (V c main_arg4) b p q ⟨1000 * t.val + p.val, hr⟩
    (fun k => featBlock1 V c t p k _ rfl) (fun k => nbrBlock1 V c t p k _ rfl) (fun k => weightBlock1 V c t k q) ((biasBlock1 V c t q).trans (hb q))

/-- An index of the result array is in point `t`'s block iff each coordinate is in the block's range on its axis. -/
theorem mem_outBlock1 (t : Fin cfg1.N) (i : S20000x256.Idx) :
    i ∈ ((cfg1.win 4).blk t).view.set ↔ ∀ a : Fin 2, win1_4.index t a * S1000x256.size a ≤ (i a).val ∧ (i a).val < win1_4.index t a * S1000x256.size a + S1000x256.size a := by
  show i ∈ ((View.whole main_v29).slice (win1_4.rect t)).set ↔ _
  rw [View.set_slice_whole, Rect.mem_set_unit]
  exact Iff.rfl

/-- Every row `r` of the result lies in the block of the point `r / 1000`, which is written back. -/
theorem cover1 (i : S20000x256.Idx) : ∃ t : Fin cfg1.N, (cfg1.win 4).flush t = true ∧ i ∈ ((cfg1.win 4).blk t).view.set := by
  have hi0 : (i 0).val < 20000 := (i 0).isLt
  have hi1 : (i 1).val < 256 := (i 1).isLt
  have hN : grid1.N = 20 := N_1
  have hlt : (i 0).val / 1000 < grid1.N := by rw [hN]; omega
  refine ⟨⟨(i 0).val / 1000, hlt⟩, flush1_4 _, ?_⟩
  rw [mem_outBlock1]
  obtain ⟨-, -, -, -, -, -, -, -, e0, e1⟩ := blockIdx1 ⟨(i 0).val / 1000, hlt⟩
  intro a
  match a with
  | ⟨0, _⟩ =>
    show win1_4.index ⟨(i 0).val / 1000, hlt⟩ (0 : Fin 2) * 1000 ≤ (i 0).val ∧ (i 0).val < win1_4.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win1_4.index ⟨(i 0).val / 1000, hlt⟩ (1 : Fin 2) * 256 ≤ (i 1).val ∧ (i 1).val < win1_4.index ⟨(i 0).val / 1000, hlt⟩ (1 : Fin 2) * 256 + 256
    rw [e1]; omega

/-- The result array after the region: the layer's whole-array function of the arrays as the region finds them. -/
theorem final1 (c : Dev nD) (b : FVec Ideal S256 .f32) (hb : ∀ q : Fin 256, V c main_v28 (ix2 (0 : Fin 1) q) = b (ix1 q)) :
    (dat1 (F := Ideal) V c).arrAt 4 cfg1.N = Cert.Spec.gin256 (V c main_v14) (V c main_v27) (V c main_arg4) b :=
  (dat1 V c).arrAt_eq_of_cover 4 (Cert.Spec.gin256 (V c main_v14) (V c main_v27) (V c main_arg4) b) (fun t _ => flushed1_eq V c b hb t) cover1

end Cert.Val

end
-- ==== Proof.Val.Final2.lean ====
/-
  Region 2 of the program (a later layer), at exact arithmetic: the result array after the region, as one
  function of the arrays the region finds.

  The region walks 20 points. Point `t` reads rows [1000·t, 1000·t + 1000) of the node features and of their
  neighbour sums, the whole weight matrix and the whole bias row, and writes the stored value back as rows
  [1000·t, 1000·t + 1000) of the result. Entry (p, q) of the stored value is
      max ( (∑ₖ (x0 p k + x1 p k) · x2 k q) + x3 0 q , 0 )
  of the four blocks, and entry (p, k) of a row block at point `t` is entry (1000·t + p, k) of its array: a block's
  coordinate is always block index × block size + the coordinate inside the block. So what point `t` writes back is
  block `t` of the layer's whole-array function. Row `r` of the result lies in the block of point `r / 1000`, every
  point writes back, so the blocks cover the array and it ends holding that function.
-/
import proofs.«118984_j51049981280515_1_alg».proof.Proof.KI.Body2
import proofs.«118984_j51049981280515_1_alg».proof.Proof.Val.Pay
import proofs.«118984_j51049981280515_1_alg».proof.Proof.Spec
import Idealize.ShloMosaic.Lib.ValueIdx
import Idealize.ShloMosaic.Lib.Pipeline.Value

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-- The zero offsets of a whole-block rectangle, spelt as the constant function. -/
theorem zeroOff2 : (![0, 0] : Fin 2 → Nat) = fun _ => 0 := funext fun a => by fin_cases a <;> rfl

/-- The block index of each window at each of the 20 points: the two row-blocked inputs and the output sit at
    block (t, 0); the weight matrix and the bias row at block (0, 0). -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- One entry of the stored value, once every entry of the four blocks it reads is known to be the matching entry
    of a whole array: row `p` of the two row blocks is row `r` of `h` and `g`, the weight block is `W`, the bias
    block's one row is `b`. It is then the layer's entry at row `r`. -/
theorem layer2_entry (x0 x1 : Vec Ideal S1000x256 .f32) (x2 : Vec Ideal S256x256 .f32) (x3 : Vec Ideal S1x256 .f32)
    (h g : FVec Ideal S20000x256 .f32) (W : FVec Ideal S256x256 .f32) (b : FVec Ideal S256 .f32)
    (p : Fin 1000) (q : Fin 256) (r : Fin 20000)
    (e0 : ∀ k : Fin 256, x0 (ix2 p k) = h (ix2 r k)) (e1 : ∀ k : Fin 256, x1 (ix2 p k) = g (ix2 r k))
    (e2 : ∀ k : Fin 256, x2 (ix2 k q) = W (ix2 k q)) (e3 : x3 (ix2 (0 : Fin 1) q) = b (ix1 q)) :
    k2_pay1 (F := Ideal) x0 x1 x2 x3 (ix2 p q) = Cert.Spec.gin256 h g W b (ix2 r q) := by
  rw [pay2_apply, Cert.Spec.gin256_apply]
  unfold Cert.Spec.gin256At
  rw [e3]
  simp only [e0, e1, e2]

variable (V : (c : Dev nD) → (b : Ref sig .tc) → Buf (Elt Ideal) ((c : Thread nD τ).loc b))

/-- The node-feature block at point `t`: its row `p` is row `1000·t + p` of the array. -/
theorem featBlock2 (c : Dev nD) (t : Fin cfg2.N) (p : Fin 1000) (k : Fin 256) (r : Fin 20000) (hr : r.val = 1000 * t.val + p.val) :
    (iblk2 V c 0 t : Vec Ideal S1000x256 .f32) (ix2 p k) = (V c main_v29 : FVec Ideal S20000x256 .f32) (ix2 r k) := by
  obtain ⟨e0, e1, -⟩ := blockIdx2 t
  unfold iblk2
  rw [View.read_apply]
  show V c main_v29 _ = V c main_v29 _
  congr 1
  funext a
  apply Fin.ext
  match a with
  | ⟨0, _⟩ => show win2_0.index t (0 : Fin 2) * 1000 + 1 * p.val = r.val; rw [e0, hr]; omega
  | ⟨1, _⟩ => show win2_0.index t (1 : Fin 2) * 256 + 1 * k.val = k.val; rw [e1]; omega

/-- The neighbour-sum block at point `t`: its row `p` is row `1000·t + p` of the array. -/
theorem nbrBlock2 (c : Dev nD) (t : Fin cfg2.N) (p : Fin 1000) (k : Fin 256) (r : Fin 20000) (hr : r.val = 1000 * t.val + p.val) :
    (iblk2 V c 1 t : Vec Ideal S1000x256 .f32) (ix2 p k) = (V c main_v42 : FVec Ideal S20000x256 .f32) (ix2 r k) := by
  obtain ⟨-, -, e0, e1, -⟩ := blockIdx2 t
  unfold iblk2
  rw [View.read_apply]
  show V c main_v42 _ = V c main_v42 _
  congr 1
  funext a
  apply Fin.ext
  match a with
  | ⟨0, _⟩ => show win2_1.index t (0 : Fin 2) * 1000 + 1 * p.val = r.val; rw [e0, hr]; omega
  | ⟨1, _⟩ => show win2_1.index t (1 : Fin 2) * 256 + 1 * k.val = k.val; rw [e1]; omega

/-- The weight block at every point is the whole weight matrix. -/
theorem weightBlock2 (c : Dev nD) (t : Fin cfg2.N) (k : Fin 256) (q : Fin 256) :
    (iblk2 V c 2 t : Vec Ideal S256x256 .f32) (ix2 k q) = (V c main_arg6 : FVec Ideal S256x256 .f32) (ix2 k q) := by
  obtain ⟨-, -, -, -, e0, e1, -⟩ := blockIdx2 t
  unfold iblk2
  rw [View.read_apply]
  show V c main_arg6 _ = V c main_arg6 _
  congr 1
  funext a
  apply Fin.ext
  match a with
  | ⟨0, _⟩ => show win2_2.index t (0 : Fin 2) * 256 + 1 * k.val = k.val; rw [e0]; omega
  | ⟨1, _⟩ => show win2_2.index t (1 : Fin 2) * 256 + 1 * q.val = q.val; rw [e1]; omega

/-- The bias block at every point is the whole bias row. -/
theorem biasBlock2 (c : Dev nD) (t : Fin cfg2.N) (q : Fin 256) :
    (iblk2 V c 3 t : Vec Ideal S1x256 .f32) (ix2 (0 : Fin 1) q) = (V c main_v43 : FVec Ideal S1x256 .f32) (ix2 (0 : Fin 1) q) := by
  obtain ⟨-, -, -, -, -, -, e0, e1, -⟩ := blockIdx2 t
  unfold iblk2
  rw [View.read_apply]
  show V c main_v43 _ = V c main_v43 _
  congr 1
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 256 + 1 * q.val = q.val; rw [e1]; omega

/-- The output's block at point `t`, read off a whole array `G`: its row `p` is row `1000·t + p` of `G`. -/
theorem outBlock2 (G : FVec Ideal S20000x256 .f32) (t : Fin cfg2.N) (p : Fin 1000) (q : Fin 256) (r : Fin 20000) (hr : r.val = 1000 * t.val + p.val) :
    (((cfg2.win 4).blk t).view.read (Elt Ideal) G : Vec Ideal S1000x256 .f32) (ix2 p q) = G (ix2 r q) := by
  obtain ⟨-, -, -, -, -, -, -, -, e0, e1⟩ := blockIdx2 t
  rw [View.read_apply]
  show G _ = G _
  congr 1
  funext a
  apply Fin.ext
  match a with
  | ⟨0, _⟩ => show win2_4.index t (0 : Fin 2) * 1000 + 1 * p.val = r.val; rw [e0, hr]; omega
  | ⟨1, _⟩ => show win2_4.index t (1 : Fin 2) * 256 + 1 * q.val = q.val; rw [e1]; omega

/-- What point `t` writes back is block `t` of the layer's whole-array function of the arrays as the region finds them. -/
theorem flushed2_eq (c : Dev nD) (b : FVec Ideal S256 .f32) (hb : ∀ q : Fin 256, V c main_v43 (ix2 (0 : Fin 1) q) = b (ix1 q)) (t : Fin cfg2.N) :
    (dat2 (F := Ideal) V c).flushed 4 t = ((cfg2.win 4).blk t).view.read (Elt Ideal) (Cert.Spec.gin256 (V c main_v29) (V c main_v42) (V c main_arg6) b) := by
  show (cfg2.win 4).cut (grid2.coords t) ((dat2 V c).after 4 t) = _
  rw [after2_4]
  unfold out2_4
  rw [View.canon_unit_zero zeroOff2]
  simp only [View.ld_unit_zero (S := S1000x256) zeroOff2, View.ld_unit_zero (S := S256x256) zeroOff2, View.ld_unit_zero (S := S1x256) zeroOff2]
  funext j
  obtain ⟨p, q, rfl⟩ : ∃ (p : Fin 1000) (q : Fin 256), j = ix2 p q := ⟨j 0, j 1, eq_ix2 j⟩
  have hN : grid2.N = 20 := N_2
  have ht : t.val < 20 := hN ▸ t.isLt
  have hr : 1000 * t.val + p.val < 20000 := by have := p.isLt; omega
  show k2_pay1 (F := Ideal) (iblk2 V c 0 t) (iblk2 V c 1 t) (iblk2 V c 2 t) (iblk2 V c 3 t) (ix2 p q) = _
  rw [outBlock2 _ t p q ⟨1000 * t.val + p.val, hr⟩ rfl]
  exact layer2_entry (iblk2 V c 0 t) (iblk2 V c 1 t) (iblk2 V c 2 t) (iblk2 V c 3 t) (V c main_v29) (V c main_v42) (V c main_arg6) b p q ⟨1000 * t.val + p.val, hr⟩
    (fun k => featBlock2 V c t p k _ rfl) (fun k => nbrBlock2 V c t p k _ rfl) (fun k => weightBlock2 V c t k q) ((biasBlock2 V c t q).trans (hb q))

/-- An index of the result array is in point `t`'s block iff each coordinate is in the block's range on its axis. -/
theorem mem_outBlock2 (t : Fin cfg2.N) (i : S20000x256.Idx) :
    i ∈ ((cfg2.win 4).blk t).view.set ↔ ∀ a : Fin 2, win2_4.index t a * S1000x256.size a ≤ (i a).val ∧ (i a).val < win2_4.index t a * S1000x256.size a + S1000x256.size a := by
  show i ∈ ((View.whole main_v44).slice (win2_4.rect t)).set ↔ _
  rw [View.set_slice_whole, Rect.mem_set_unit]
  exact Iff.rfl

/-- Every row `r` of the result lies in the block of the point `r / 1000`, which is written back. -/
theorem cover2 (i : S20000x256.Idx) : ∃ t : Fin cfg2.N, (cfg2.win 4).flush t = true ∧ i ∈ ((cfg2.win 4).blk t).view.set := by
  have hi0 : (i 0).val < 20000 := (i 0).isLt
  have hi1 : (i 1).val < 256 := (i 1).isLt
  have hN : grid2.N = 20 := N_2
  have hlt : (i 0).val / 1000 < grid2.N := by rw [hN]; omega
  refine ⟨⟨(i 0).val / 1000, hlt⟩, flush2_4 _, ?_⟩
  rw [mem_outBlock2]
  obtain ⟨-, -, -, -, -, -, -, -, e0, e1⟩ := blockIdx2 ⟨(i 0).val / 1000, hlt⟩
  intro a
  match a with
  | ⟨0, _⟩ =>
    show win2_4.index ⟨(i 0).val / 1000, hlt⟩ (0 : Fin 2) * 1000 ≤ (i 0).val ∧ (i 0).val < win2_4.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win2_4.index ⟨(i 0).val / 1000, hlt⟩ (1 : Fin 2) * 256 ≤ (i 1).val ∧ (i 1).val < win2_4.index ⟨(i 0).val / 1000, hlt⟩ (1 : Fin 2) * 256 + 256
    rw [e1]; omega

/-- The result array after the region: the layer's whole-array function of the arrays as the region finds them. -/
theorem final2 (c : Dev nD) (b : FVec Ideal S256 .f32) (hb : ∀ q : Fin 256, V c main_v43 (ix2 (0 : Fin 1) q) = b (ix1 q)) :
    (dat2 (F := Ideal) V c).arrAt 4 cfg2.N = Cert.Spec.gin256 (V c main_v29) (V c main_v42) (V c main_arg6) b :=
  (dat2 V c).arrAt_eq_of_cover 4 (Cert.Spec.gin256 (V c main_v29) (V c main_v42) (V c main_arg6) b) (fun t _ => flushed2_eq V c b hb t) cover2

end Cert.Val

end
-- ==== Proof.Val.Final3.lean ====
/-
  Region 3 of the program (the readout), at exact arithmetic: the result array after the region, as one
  function of the arrays the region finds.

  The region walks 20 points. Point `t` reads rows [1000·t, 1000·t + 1000) of the joined layer outputs, the whole
  readout weight matrix and the whole bias row, and writes the stored value back as rows [1000·t, 1000·t + 1000)
  of the result. Entry (p, q) of the stored value is
      (∑ₖ max (x0 p k, 0) · x1 k q) + x2 0 q
  of the three blocks, and entry (p, k) of the row block at point `t` is entry (1000·t + p, k) of its array: a block's
  coordinate is always block index × block size + the coordinate inside the block. So what point `t` writes back is
  block `t` of the readout's whole-array function. Row `r` of the result lies in the block of point `r / 1000`, every
  point writes back, so the blocks cover the array and it ends holding that function.
-/
import proofs.«118984_j51049981280515_1_alg».proof.Proof.KI.Body3
import proofs.«118984_j51049981280515_1_alg».proof.Proof.Val.Pay
import proofs.«118984_j51049981280515_1_alg».proof.Proof.Spec
import Idealize.ShloMosaic.Lib.ValueIdx
import Idealize.ShloMosaic.Lib.Pipeline.Value

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-- The zero offsets of a whole-block rectangle, spelt as the constant function. -/
theorem zeroOff3 : (![0, 0] : Fin 2 → Nat) = fun _ => 0 := funext fun a => by fin_cases a <;> rfl

/-- The block index of each window at each of the 20 points: the row-blocked input and the output sit at
    block (t, 0); the weight matrix and the bias row at block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of the stored value, once every entry of the three blocks it reads is known to be the matching entry
    of a whole array: row `p` of the row block is row `r` of `x`, the weight block is `W`, the bias block's one
    row is `b`. It is then the readout's entry at row `r`. -/
theorem readout_entry3 (x0 : Vec Ideal S1000x768 .f32) (x1 : Vec Ideal S768x256 .f32) (x2 : Vec Ideal S1x256 .f32)
    (x : FVec Ideal S20000x768 .f32) (W : FVec Ideal S768x256 .f32) (b : FVec Ideal S256 .f32)
    (p : Fin 1000) (q : Fin 256) (r : Fin 20000)
    (e0 : ∀ k : Fin 768, x0 (ix2 p k) = x (ix2 r k))
    (e1 : ∀ k : Fin 768, x1 (ix2 k q) = W (ix2 k q)) (e2 : x2 (ix2 (0 : Fin 1) q) = b (ix1 q)) :
    k3_pay1 (F := Ideal) x0 x1 x2 (ix2 p q) = Cert.Spec.readout x W b (ix2 r q) := by
  rw [pay3_apply, Cert.Spec.readout_apply]
  unfold Cert.Spec.readoutAt
  rw [e2]
  simp only [e0, e1]

variable (V : (c : Dev nD) → (b : Ref sig .tc) → Buf (Elt Ideal) ((c : Thread nD τ).loc b))

/-- The joined-features block at point `t`: its row `p` is row `1000·t + p` of the array. -/
theorem featBlock3 (c : Dev nD) (t : Fin cfg3.N) (p : Fin 1000) (k : Fin 768) (r : Fin 20000) (hr : r.val = 1000 * t.val + p.val) :
    (iblk3 V c 0 t : Vec Ideal S1000x768 .f32) (ix2 p k) = (V c main_v45 : FVec Ideal S20000x768 .f32) (ix2 r k) := by
  obtain ⟨e0, e1, -⟩ := blockIdx3 t
  unfold iblk3
  rw [View.read_apply]
  show V c main_v45 _ = V c main_v45 _
  congr 1
  funext a
  apply Fin.ext
  match a with
  | ⟨0, _⟩ => show win3_0.index t (0 : Fin 2) * 1000 + 1 * p.val = r.val; rw [e0, hr]; omega
  | ⟨1, _⟩ => show win3_0.index t (1 : Fin 2) * 768 + 1 * k.val = k.val; rw [e1]; omega

/-- The weight block at every point is the whole weight matrix. -/
theorem weightBlock3 (c : Dev nD) (t : Fin cfg3.N) (k : Fin 768) (q : Fin 256) :
    (iblk3 V c 1 t : Vec Ideal S768x256 .f32) (ix2 k q) = (V c main_arg8 : FVec Ideal S768x256 .f32) (ix2 k q) := by
  obtain ⟨-, -, e0, e1, -⟩ := blockIdx3 t
  unfold iblk3
  rw [View.read_apply]
  show V c main_arg8 _ = V c main_arg8 _
  congr 1
  funext a
  apply Fin.ext
  match a with
  | ⟨0, _⟩ => show win3_1.index t (0 : Fin 2) * 768 + 1 * k.val = k.val; rw [e0]; omega
  | ⟨1, _⟩ => show win3_1.index t (1 : Fin 2) * 256 + 1 * q.val = q.val; rw [e1]; omega

/-- The bias block at every point is the whole bias row. -/
theorem biasBlock3 (c : Dev nD) (t : Fin cfg3.N) (q : Fin 256) :
    (iblk3 V c 2 t : Vec Ideal S1x256 .f32) (ix2 (0 : Fin 1) q) = (V c main_v46 : FVec Ideal S1x256 .f32) (ix2 (0 : Fin 1) q) := by
  obtain ⟨-, -, -, -, e0, e1, -⟩ := blockIdx3 t
  unfold iblk3
  rw [View.read_apply]
  show V c main_v46 _ = V c main_v46 _
  congr 1
  funext a
  apply Fin.ext
  match a with
  | ⟨0, _⟩ => show win3_2.index t (0 : Fin 2) * 1 + 1 * (0 : Fin 1).val = (0 : Fin 1).val; rw [e0]; rfl
  | ⟨1, _⟩ => show win3_2.index t (1 : Fin 2) * 256 + 1 * q.val = q.val; rw [e1]; omega

/-- The output's block at point `t`, read off a whole array `G`: its row `p` is row `1000·t + p` of `G`. -/
theorem outBlock3 (G : FVec Ideal S20000x256 .f32) (t : Fin cfg3.N) (p : Fin 1000) (q : Fin 256) (r : Fin 20000) (hr : r.val = 1000 * t.val + p.val) :
    (((cfg3.win 3).blk t).view.read (Elt Ideal) G : Vec Ideal S1000x256 .f32) (ix2 p q) = G (ix2 r q) := by
  obtain ⟨-, -, -, -, -, -, e0, e1⟩ := blockIdx3 t
  rw [View.read_apply]
  show G _ = G _
  congr 1
  funext a
  apply Fin.ext
  match a with
  | ⟨0, _⟩ => show win3_3.index t (0 : Fin 2) * 1000 + 1 * p.val = r.val; rw [e0, hr]; omega
  | ⟨1, _⟩ => show win3_3.index t (1 : Fin 2) * 256 + 1 * q.val = q.val; rw [e1]; omega

/-- What point `t` writes back is block `t` of the readout's whole-array function of the arrays as the region finds them. -/
theorem flushed3_eq (c : Dev nD) (b : FVec Ideal S256 .f32) (hb : ∀ q : Fin 256, V c main_v46 (ix2 (0 : Fin 1) q) = b (ix1 q)) (t : Fin cfg3.N) :
    (dat3 (F := Ideal) V c).flushed 3 t = ((cfg3.win 3).blk t).view.read (Elt Ideal) (Cert.Spec.readout (V c main_v45) (V c main_arg8) b) := by
  show (cfg3.win 3).cut (grid3.coords t) ((dat3 V c).after 3 t) = _
  rw [after3_3]
  unfold out3_3
  rw [View.canon_unit_zero zeroOff3]
  simp only [View.ld_unit_zero (S := S1000x768) zeroOff3, View.ld_unit_zero (S := S768x256) zeroOff3, View.ld_unit_zero (S := S1x256) zeroOff3]
  funext j
  obtain ⟨p, q, rfl⟩ : ∃ (p : Fin 1000) (q : Fin 256), j = ix2 p q := ⟨j 0, j 1, eq_ix2 j⟩
  have hN : grid3.N = 20 := N_3
  have ht : t.val < 20 := hN ▸ t.isLt
  have hr : 1000 * t.val + p.val < 20000 := by have := p.isLt; omega
  show k3_pay1 (F := Ideal) (iblk3 V c 0 t) (iblk3 V c 1 t) (iblk3 V c 2 t) (ix2 p q) = _
  rw [outBlock3 _ t p q ⟨1000 * t.val + p.val, hr⟩ rfl]
  exact readout_entry3 (iblk3 V c 0 t) (iblk3 V c 1 t) (iblk3 V c 2 t) (V c main_v45) (V c main_arg8) b p q ⟨1000 * t.val + p.val, hr⟩
    (fun k => featBlock3 V c t p k _ rfl) (fun k => weightBlock3 V c t k q) ((biasBlock3 V c t q).trans (hb q))

/-- An index of the result array is in point `t`'s block iff each coordinate is in the block's range on its axis. -/
theorem mem_outBlock3 (t : Fin cfg3.N) (i : S20000x256.Idx) :
    i ∈ ((cfg3.win 3).blk t).view.set ↔ ∀ a : Fin 2, win3_3.index t a * S1000x256.size a ≤ (i a).val ∧ (i a).val < win3_3.index t a * S1000x256.size a + S1000x256.size a := by
  show i ∈ ((View.whole main_v47).slice (win3_3.rect t)).set ↔ _
  rw [View.set_slice_whole, Rect.mem_set_unit]
  exact Iff.rfl

/-- Every row `r` of the result lies in the block of the point `r / 1000`, which is written back. -/
theorem cover3 (i : S20000x256.Idx) : ∃ t : Fin cfg3.N, (cfg3.win 3).flush t = true ∧ i ∈ ((cfg3.win 3).blk t).view.set := by
  have hi0 : (i 0).val < 20000 := (i 0).isLt
  have hi1 : (i 1).val < 256 := (i 1).isLt
  have hN : grid3.N = 20 := N_3
  have hlt : (i 0).val / 1000 < grid3.N := by rw [hN]; omega
  refine ⟨⟨(i 0).val / 1000, hlt⟩, flush3_3 _, ?_⟩
  rw [mem_outBlock3]
  obtain ⟨-, -, -, -, -, -, e0, e1⟩ := blockIdx3 ⟨(i 0).val / 1000, hlt⟩
  intro a
  match a with
  | ⟨0, _⟩ =>
    show win3_3.index ⟨(i 0).val / 1000, hlt⟩ (0 : Fin 2) * 1000 ≤ (i 0).val ∧ (i 0).val < win3_3.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win3_3.index ⟨(i 0).val / 1000, hlt⟩ (1 : Fin 2) * 256 ≤ (i 1).val ∧ (i 1).val < win3_3.index ⟨(i 0).val / 1000, hlt⟩ (1 : Fin 2) * 256 + 256
    rw [e1]; omega

/-- The result array after the region: the readout's whole-array function of the arrays as the region finds them. -/
theorem final3 (c : Dev nD) (b : FVec Ideal S256 .f32) (hb : ∀ q : Fin 256, V c main_v46 (ix2 (0 : Fin 1) q) = b (ix1 q)) :
    (dat3 (F := Ideal) V c).arrAt 3 cfg3.N = Cert.Spec.readout (V c main_v45) (V c main_arg8) b :=
  (dat3 V c).arrAt_eq_of_cover 3 (Cert.Spec.readout (V c main_v45) (V c main_arg8) b) (fun t _ => flushed3_eq V c b hb t) cover3

end Cert.Val

end
-- ==== Proof.Val.Host.lean ====
/-
  What each stretch of host operations leaves in the arrays the next kernel region reads, as a function of
  whatever contents `W` the stretch starts from.

  The program runs four stretches of whole-array operations, each followed by a kernel region. Each of the first
  three stretches computes the neighbour sums of the features the coming layer takes (wrap a negative source
  index, gather the source rows, scale each by its edge's weight, add the scaled rows into their destination rows
  from zero) and recasts that layer's bias vector `[256]` as a one-row matrix `[1, 256]`; the fourth joins the
  three layers' outputs side by side and recasts the readout's bias the same way.

  For the neighbour sums and the join, the stretch's composed term — each operation's function applied to the
  contents of its operands' arrays, the contents of an array an earlier operation of the stretch wrote being that
  operation's own term — is the specification's definition itself: the same operations in the same order over the
  same records, so the two sides agree by unfolding the definitions, and the gather–scale–scatter chain is never
  opened. For a bias row, the composed term is the shape cast of the bias vector, and a `[256]` array cast to
  `[1, 256]` reads at `(0, q)` the vector's entry `q`: both have row-major position `q`.
-/
import proofs.«118984_j51049981280515_1_alg».proof.Proof.Gen.KernelIdeal.Launch
import proofs.«118984_j51049981280515_1_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal

noncomputable section

namespace Cert.Val

open Cert.KernelIdeal Cert.KernelIdeal.Gen Idealize.ShloMosaic Idealize.ShloMosaic.TcCoe Idealize.ShloMosaic.ValueIdx
  Idealize.ShloMosaic.StableHlo

/-! ## The first stretch: before the first layer -/

/-- The first stretch leaves, in the array the first layer reads its neighbour sums from, the neighbour sums of the input features: its sixteen operations on that array are the chain the specification names, in the same order over the same records. -/
theorem host0_agg (W : Valuation τ sig (Elt Ideal)) :
    (StableHlo.after (hostOps0 (F := Ideal)) W (Proc.devRef .tc main_v12) : FVec Ideal S20000x768 .f32)
      = Cert.Spec.agg768 (W (Proc.devRef .tc main_arg0)) (W (Proc.devRef .tc main_arg1)) (W (Proc.devRef .tc main_arg10)) (W (Proc.devRef .tc main_arg11)) := by
  show StableHlo.after (hostOps0 (F := Ideal)) W (Proc.devRef .tc main_v12) = _
  after_results_simp
  rfl

/-- The first stretch leaves the first layer's bias as a one-row matrix: its entry in column `q` is the bias vector's entry `q`. -/
theorem host0_bias (W : Valuation τ sig (Elt Ideal)) (q : Fin 256) :
    (StableHlo.after (hostOps0 (F := Ideal)) W (Proc.devRef .tc main_v13) : FVec Ideal S1x256 .f32) (ix2 (0 : Fin 1) q)
      = (W (Proc.devRef .tc main_arg3) : FVec Ideal S256 .f32) (ix1 q) := by
  have e : (StableHlo.after (hostOps0 (F := Ideal)) W (Proc.devRef .tc main_v13) : FVec Ideal S1x256 .f32)
      = shapeCast S1x256 (W (Proc.devRef .tc main_arg3) : FVec Ideal S256 .f32) shapeCasts_S256_S1x256 := by
    show StableHlo.after (hostOps0 (F := Ideal)) W (Proc.devRef .tc main_v13) = _
    after_results_simp
    rfl
  rw [e]
  exact shapeCast_a_1a_apply _ _ _ _

/-! ## The second stretch: before the second layer -/

/-- The second stretch leaves the neighbour sums of the first layer's output, whatever that output is. -/
theorem host1_agg (W : Valuation τ sig (Elt Ideal)) :
    (StableHlo.after (hostOps1 (F := Ideal)) W (Proc.devRef .tc main_v27) : FVec Ideal S20000x256 .f32)
      = Cert.Spec.agg256 (W (Proc.devRef .tc main_v14)) (W (Proc.devRef .tc main_arg1)) (W (Proc.devRef .tc main_arg10)) (W (Proc.devRef .tc main_arg11)) := by
  show StableHlo.after (hostOps1 (F := Ideal)) W (Proc.devRef .tc main_v27) = _
  after_results_simp
  rfl

/-- The second stretch leaves the second layer's bias as a one-row matrix. -/
theorem host1_bias (W : Valuation τ sig (Elt Ideal)) (q : Fin 256) :
    (StableHlo.after (hostOps1 (F := Ideal)) W (Proc.devRef .tc main_v28) : FVec Ideal S1x256 .f32) (ix2 (0 : Fin 1) q)
      = (W (Proc.devRef .tc main_arg5) : FVec Ideal S256 .f32) (ix1 q) := by
  have e : (StableHlo.after (hostOps1 (F := Ideal)) W (Proc.devRef .tc main_v28) : FVec Ideal S1x256 .f32)
      = shapeCast S1x256 (W (Proc.devRef .tc main_arg5) : FVec Ideal S256 .f32) shapeCasts_S256_S1x256 := by
    show StableHlo.after (hostOps1 (F := Ideal)) W (Proc.devRef .tc main_v28) = _
    after_results_simp
    rfl
  rw [e]
  exact shapeCast_a_1a_apply _ _ _ _

/-! ## The third stretch: before the third layer -/

/-- The third stretch leaves the neighbour sums of the second layer's output, whatever that output is. -/
theorem host2_agg (W : Valuation τ sig (Elt Ideal)) :
    (StableHlo.after (hostOps2 (F := Ideal)) W (Proc.devRef .tc main_v42) : FVec Ideal S20000x256 .f32)
      = Cert.Spec.agg256 (W (Proc.devRef .tc main_v29)) (W (Proc.devRef .tc main_arg1)) (W (Proc.devRef .tc main_arg10)) (W (Proc.devRef .tc main_arg11)) := by
  show StableHlo.after (hostOps2 (F := Ideal)) W (Proc.devRef .tc main_v42) = _
  after_results_simp
  rfl

/-- The third stretch leaves the third layer's bias as a one-row matrix. -/
theorem host2_bias (W : Valuation τ sig (Elt Ideal)) (q : Fin 256) :
    (StableHlo.after (hostOps2 (F := Ideal)) W (Proc.devRef .tc main_v43) : FVec Ideal S1x256 .f32) (ix2 (0 : Fin 1) q)
      = (W (Proc.devRef .tc main_arg7) : FVec Ideal S256 .f32) (ix1 q) := by
  have e : (StableHlo.after (hostOps2 (F := Ideal)) W (Proc.devRef .tc main_v43) : FVec Ideal S1x256 .f32)
      = shapeCast S1x256 (W (Proc.devRef .tc main_arg7) : FVec Ideal S256 .f32) shapeCasts_S256_S1x256 := by
    show StableHlo.after (hostOps2 (F := Ideal)) W (Proc.devRef .tc main_v43) = _
    after_results_simp
    rfl
  rw [e]
  exact shapeCast_a_1a_apply _ _ _ _

/-! ## The fourth stretch: before the readout -/

/-- The fourth stretch leaves the three layers' outputs side by side: the concatenate reads each operand at its own
    array, and those are the three arrays the specification joins. -/
theorem host3_join (W : Valuation τ sig (Elt Ideal)) :
    (StableHlo.after (hostOps3 (F := Ideal)) W (Proc.devRef .tc main_v45) : FVec Ideal S20000x768 .f32)
      = Cert.Spec.join3 (W (Proc.devRef .tc main_v14)) (W (Proc.devRef .tc main_v29)) (W (Proc.devRef .tc main_v44)) := by
  show StableHlo.after (hostOps3 (F := Ideal)) W (Proc.devRef .tc main_v45) = _
  after_results_simp
  rfl

/-- The fourth stretch leaves the readout's bias as a one-row matrix. -/
theorem host3_bias (W : Valuation τ sig (Elt Ideal)) (q : Fin 256) :
    (StableHlo.after (hostOps3 (F := Ideal)) W (Proc.devRef .tc main_v46) : FVec Ideal S1x256 .f32) (ix2 (0 : Fin 1) q)
      = (W (Proc.devRef .tc main_arg9) : FVec Ideal S256 .f32) (ix1 q) := by
  have e : (StableHlo.after (hostOps3 (F := Ideal)) W (Proc.devRef .tc main_v46) : FVec Ideal S1x256 .f32)
      = shapeCast S1x256 (W (Proc.devRef .tc main_arg9) : FVec Ideal S256 .f32) shapeCasts_S256_S1x256 := by
    show StableHlo.after (hostOps3 (F := Ideal)) W (Proc.devRef .tc main_v46) = _
    after_results_simp
    rfl
  rw [e]
  exact shapeCast_a_1a_apply _ _ _ _

end Cert.Val

end
-- ==== Proof.Val.Compose.lean ====
/-
  The kernel program's result is the specification's network of its twelve arguments, at exact arithmetic.

  The buffers' contents are followed through @main's eight items. A host stretch leaves, in the buffers the next
  region reads, the neighbour sums of the previous layer's output (or, before the readout, the three layers'
  outputs joined) and the next bias as a row; a region leaves, in its result array, the layer (or the readout) of
  the arrays it was entered with. An argument's buffer is written by no item, so every stage reads the arguments
  as launched; a layer's result is written once, by its region, and read unchanged by every later item.
-/
import proofs.«118984_j51049981280515_1_alg».proof.Proof.KI.Run
import proofs.«118984_j51049981280515_1_alg».proof.Proof.Val.Final0
import proofs.«118984_j51049981280515_1_alg».proof.Proof.Val.Final1
import proofs.«118984_j51049981280515_1_alg».proof.Proof.Val.Final2
import proofs.«118984_j51049981280515_1_alg».proof.Proof.Val.Final3
import proofs.«118984_j51049981280515_1_alg».proof.Proof.Val.Host
import proofs.«118984_j51049981280515_1_alg».proof.Proof.Spec

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

/-! ## What no item changes -/

/-- A host stretch leaves a buffer it does not write as it found it. -/
theorem W1_of (r : Ref sig .tc) (h : r ∉ hostOps0_W) : W1 m c (Proc.devRef .tc r) = W0 m c (Proc.devRef .tc r) :=
  StableHlo.after_of_writes_sub hostOps0 _ hostOps0_writes h
theorem W3_of (r : Ref sig .tc) (h : r ∉ hostOps1_W) : W3 m c (Proc.devRef .tc r) = W2 m c (Proc.devRef .tc r) :=
  StableHlo.after_of_writes_sub hostOps1 _ hostOps1_writes h
theorem W5_of (r : Ref sig .tc) (h : r ∉ hostOps2_W) : W5 m c (Proc.devRef .tc r) = W4 m c (Proc.devRef .tc r) :=
  StableHlo.after_of_writes_sub hostOps2 _ hostOps2_writes h
theorem W7_of (r : Ref sig .tc) (h : r ∉ hostOps3_W) : W7 m c (Proc.devRef .tc r) = W6 m c (Proc.devRef .tc r) :=
  StableHlo.after_of_writes_sub hostOps3 _ hostOps3_writes h

/-- A buffer that no item up to region 0's exit writes still holds its launch contents there. -/
theorem W2_in (r : Ref sig .tc) (h0 : r ∉ hostOps0_W) (ha : r ≠ main_v14) :
    W2 m c (Proc.devRef .tc r) = m ((c : Thread nD τ).loc r) :=
  (W2_keep m c r ha).trans ((W1_of m c r h0).trans rfl)
/-- … up to region 1's exit. -/
theorem W4_in (r : Ref sig .tc) (h0 : r ∉ hostOps0_W) (h1 : r ∉ hostOps1_W) (ha : r ≠ main_v14) (hb : r ≠ main_v29) :
    W4 m c (Proc.devRef .tc r) = m ((c : Thread nD τ).loc r) :=
  (W4_keep m c r hb).trans ((W3_of m c r h1).trans (W2_in m c r h0 ha))
/-- … up to region 2's exit. -/
theorem W6_in (r : Ref sig .tc) (h0 : r ∉ hostOps0_W) (h1 : r ∉ hostOps1_W) (h2 : r ∉ hostOps2_W)
    (ha : r ≠ main_v14) (hb : r ≠ main_v29) (hc : r ≠ main_v44) :
    W6 m c (Proc.devRef .tc r) = m ((c : Thread nD τ).loc r) :=
  (W6_keep m c r hc).trans ((W5_of m c r h2).trans (W4_in m c r h0 h1 ha hb))

/-! ## The arguments, by name -/

abbrev a0 : FVec Ideal S20000x768 .f32 := m ((c : Thread nD τ).loc main_arg0)
abbrev a1 : FVec Ideal S320000 .f32 := m ((c : Thread nD τ).loc main_arg1)
abbrev a2 : FVec Ideal S768x256 .f32 := m ((c : Thread nD τ).loc main_arg2)
abbrev a3 : FVec Ideal S256 .f32 := m ((c : Thread nD τ).loc main_arg3)
abbrev a4 : FVec Ideal S256x256 .f32 := m ((c : Thread nD τ).loc main_arg4)
abbrev a5 : FVec Ideal S256 .f32 := m ((c : Thread nD τ).loc main_arg5)
abbrev a6 : FVec Ideal S256x256 .f32 := m ((c : Thread nD τ).loc main_arg6)
abbrev a7 : FVec Ideal S256 .f32 := m ((c : Thread nD τ).loc main_arg7)
abbrev a8 : FVec Ideal S768x256 .f32 := m ((c : Thread nD τ).loc main_arg8)
abbrev a9 : FVec Ideal S256 .f32 := m ((c : Thread nD τ).loc main_arg9)
abbrev a10 : IVec S320000 32 := m ((c : Thread nD τ).loc main_arg10)
abbrev a11 : IVec S320000 32 := m ((c : Thread nD τ).loc main_arg11)

/-- The three layers' outputs, as the specification composes them. -/
abbrev l1 : FVec Ideal S20000x256 .f32 := Cert.Spec.gin768 (a0 m c) (Cert.Spec.agg768 (a0 m c) (a1 m c) (a10 m c) (a11 m c)) (a2 m c) (a3 m c)
abbrev l2 : FVec Ideal S20000x256 .f32 := Cert.Spec.gin256 (l1 m c) (Cert.Spec.agg256 (l1 m c) (a1 m c) (a10 m c) (a11 m c)) (a4 m c) (a5 m c)
abbrev l3 : FVec Ideal S20000x256 .f32 := Cert.Spec.gin256 (l2 m c) (Cert.Spec.agg256 (l2 m c) (a1 m c) (a10 m c) (a11 m c)) (a6 m c) (a7 m c)

/-! ## Layer by layer -/

/-- The first host stretch leaves the neighbour sums of the input features in `main_v12`. -/
theorem W1_v12 : (W1 m c (Proc.devRef .tc main_v12) : FVec Ideal S20000x768 .f32)
    = Cert.Spec.agg768 (a0 m c) (a1 m c) (a10 m c) (a11 m c) := host0_agg (W0 m c)

/-- Region 0 leaves the first layer in `main_v14`. -/
theorem W2_v14 : (W2 m c (Proc.devRef .tc main_v14) : FVec Ideal S20000x256 .f32) = l1 m c := by
  refine (W2_arr m c 4).trans ?_
  refine (final0 (En0 m) c (a3 m c) (fun q => host0_bias (W0 m c) q)).trans ?_
  show Cert.Spec.gin768 (W1 m c (Proc.devRef .tc main_arg0)) (W1 m c (Proc.devRef .tc main_v12)) (W1 m c (Proc.devRef .tc main_arg2)) (a3 m c) = _
  rw [W1_of m c main_arg0 (by decide), W1_of m c main_arg2 (by decide), W1_v12]

/-- The second host stretch leaves the neighbour sums of the first layer in `main_v27`. -/
theorem W3_v27 : (W3 m c (Proc.devRef .tc main_v27) : FVec Ideal S20000x256 .f32)
    = Cert.Spec.agg256 (l1 m c) (a1 m c) (a10 m c) (a11 m c) := by
  refine (host1_agg (W2 m c)).trans ?_
  rw [W2_v14, W2_in m c main_arg1 (by decide) (by decide), W2_in m c main_arg10 (by decide) (by decide),
    W2_in m c main_arg11 (by decide) (by decide)]

/-- Region 1 leaves the second layer in `main_v29`. -/
theorem W4_v29 : (W4 m c (Proc.devRef .tc main_v29) : FVec Ideal S20000x256 .f32) = l2 m c := by
  refine (W4_arr m c 4).trans ?_
  refine (final1 (En1 m) c (a5 m c) (fun q => (host1_bias (W2 m c) q).trans (congrFun (W2_in m c main_arg5 (by decide) (by decide)) _))).trans ?_
  show Cert.Spec.gin256 (W3 m c (Proc.devRef .tc main_v14)) (W3 m c (Proc.devRef .tc main_v27)) (W3 m c (Proc.devRef .tc main_arg4)) (a5 m c) = _
  rw [W3_of m c main_v14 (by decide), W2_v14, W3_of m c main_arg4 (by decide), W2_in m c main_arg4 (by decide) (by decide), W3_v27]

/-- The first layer's output is still in `main_v14` at region 1's exit. -/
theorem W4_v14 : (W4 m c (Proc.devRef .tc main_v14) : FVec Ideal S20000x256 .f32) = l1 m c :=
  (W4_keep m c main_v14 (by decide)).trans ((W3_of m c main_v14 (by decide)).trans (W2_v14 m c))

/-- The third host stretch leaves the neighbour sums of the second layer in `main_v42`. -/
theorem W5_v42 : (W5 m c (Proc.devRef .tc main_v42) : FVec Ideal S20000x256 .f32)
    = Cert.Spec.agg256 (l2 m c) (a1 m c) (a10 m c) (a11 m c) := by
  refine (host2_agg (W4 m c)).trans ?_
  rw [W4_v29, W4_in m c main_arg1 (by decide) (by decide) (by decide) (by decide),
    W4_in m c main_arg10 (by decide) (by decide) (by decide) (by decide), W4_in m c main_arg11 (by decide) (by decide) (by decide) (by decide)]

/-- Region 2 leaves the third layer in `main_v44`. -/
theorem W6_v44 : (W6 m c (Proc.devRef .tc main_v44) : FVec Ideal S20000x256 .f32) = l3 m c := by
  refine (W6_arr m c 4).trans ?_
  refine (final2 (En2 m) c (a7 m c) (fun q => (host2_bias (W4 m c) q).trans (congrFun (W4_in m c main_arg7 (by decide) (by decide) (by decide) (by decide)) _))).trans ?_
  show Cert.Spec.gin256 (W5 m c (Proc.devRef .tc main_v29)) (W5 m c (Proc.devRef .tc main_v42)) (W5 m c (Proc.devRef .tc main_arg6)) (a7 m c) = _
  rw [W5_of m c main_v29 (by decide), W4_v29, W5_of m c main_arg6 (by decide), W4_in m c main_arg6 (by decide) (by decide) (by decide) (by decide), W5_v42]

theorem W6_v14 : (W6 m c (Proc.devRef .tc main_v14) : FVec Ideal S20000x256 .f32) = l1 m c :=
  (W6_keep m c main_v14 (by decide)).trans ((W5_of m c main_v14 (by decide)).trans (W4_v14 m c))
theorem W6_v29 : (W6 m c (Proc.devRef .tc main_v29) : FVec Ideal S20000x256 .f32) = l2 m c :=
  (W6_keep m c main_v29 (by decide)).trans ((W5_of m c main_v29 (by decide)).trans (W4_v29 m c))

/-- The last host stretch leaves the three layers joined in `main_v45`. -/
theorem W7_v45 : (W7 m c (Proc.devRef .tc main_v45) : FVec Ideal S20000x768 .f32)
    = Cert.Spec.join3 (l1 m c) (l2 m c) (l3 m c) := by
  refine (host3_join (W6 m c)).trans ?_
  rw [W6_v14, W6_v29, W6_v44]

/-- THE KERNEL'S VALUE: region 3 leaves the network of the arguments in the result `main_v47`. -/
theorem kernel_value : (W8 m c (Proc.devRef .tc main_v47) : FVec Ideal S20000x256 .f32)
    = Cert.Spec.net (a0 m c) (a1 m c) (a2 m c) (a3 m c) (a4 m c) (a5 m c) (a6 m c) (a7 m c) (a8 m c) (a9 m c) (a10 m c) (a11 m c) := by
  refine (W8_arr m c 3).trans ?_
  refine (final3 (En3 m) c (a9 m c) (fun q => (host3_bias (W6 m c) q).trans (congrFun (W6_in m c main_arg9 (by decide) (by decide) (by decide) (by decide) (by decide) (by decide)) _))).trans ?_
  show Cert.Spec.readout (W7 m c (Proc.devRef .tc main_v45)) (W7 m c (Proc.devRef .tc main_arg8)) (a9 m c) = _
  rw [W7_of m c main_arg8 (by decide), W6_in m c main_arg8 (by decide) (by decide) (by decide) (by decide) (by decide) (by decide), W7_v45]
  rfl

end Cert.Val

end
-- ==== Proof.Val.Ref.lean ====
/-
  The reference program computes the specification's network.

  Each graph layer of the reference is max( (1 · h + g) · W + b , 0 ) with g the neighbour sums of h, the readout is
  max(x, 0) · W + b over the three layers' outputs joined column-wise. Read entry by entry these are the
  specification's `gin768`, `gin256` and `readout`; the neighbour sums and the joining are the specification's
  own array terms and are matched whole. The only arithmetic fact used is 1 · a = a.
-/
import proofs.«118984_j51049981280515_1_alg».proof.Proof.Spec
import proofs.«118984_j51049981280515_1_alg».proof.Proof.Gen.ReferenceIdeal.Read
import Idealize.ShloMosaic.Lib.ValueIdx
import Idealize.ShloMosaic.PureOps.Ideal.Laws

noncomputable section

namespace Cert.Val

open Idealize.ShloMosaic Idealize.ShloMosaic.ValueIdx Cert.ReferenceIdeal Cert.ReferenceIdeal.Read

variable [Cert.KernelIdeal.Facts₀]

/-! ## The one literal that is evaluated -/

/-- The word 0x3F800000 denotes the number one: sign 0, exponent field 127 (the bias), fraction 0. -/
theorem ofBits_one_f32 : Ideal.ofBits .f32 0x3F800000#32 = 1 := by
  simp [Ideal.ofBits, Ideal.ieee, -EReal.coe_mul]
  norm_num

/-! ## Where the matrix products and the bias rows are read

  At the entry (r, q) of a product the left factor is read at (r, k) and the right one at (k, q); the bias row,
  spread over the rows, is read at q. -/

theorem lidx16 (r : Fin 20000) (q : Fin 256) (k : Fin 768) : lidx_main_v16 (ix2 r q) k = ix2 r k :=
  funext fun a => Fin.ext (by match a with | ⟨0, _⟩ => rfl | ⟨1, _⟩ => rfl)
theorem ridx16 (r : Fin 20000) (q : Fin 256) (k : Fin 768) : ridx_main_v16 (ix2 r q) k = ix2 k q :=
  funext fun a => Fin.ext (by match a with | ⟨0, _⟩ => rfl | ⟨1, _⟩ => rfl)
theorem bidx17 (r : Fin 20000) (q : Fin 256) : idx_main_v17 (idx_main_v18 (ix2 r q)) = ix1 q :=
  funext fun a => Fin.ext (by match a with | ⟨0, _⟩ => rfl)

theorem lidx37 (r : Fin 20000) (q : Fin 256) (k : Fin 256) : lidx_main_v37 (ix2 r q) k = ix2 r k :=
  funext fun a => Fin.ext (by match a with | ⟨0, _⟩ => rfl | ⟨1, _⟩ => rfl)
theorem ridx37 (r : Fin 20000) (q : Fin 256) (k : Fin 256) : ridx_main_v37 (ix2 r q) k = ix2 k q :=
  funext fun a => Fin.ext (by match a with | ⟨0, _⟩ => rfl | ⟨1, _⟩ => rfl)
theorem bidx38 (r : Fin 20000) (q : Fin 256) : idx_main_v38 (idx_main_v39 (ix2 r q)) = ix1 q :=
  funext fun a => Fin.ext (by match a with | ⟨0, _⟩ => rfl)

theorem lidx58 (r : Fin 20000) (q : Fin 256) (k : Fin 256) : lidx_main_v58 (ix2 r q) k = ix2 r k :=
  funext fun a => Fin.ext (by match a with | ⟨0, _⟩ => rfl | ⟨1, _⟩ => rfl)
theorem ridx58 (r : Fin 20000) (q : Fin 256) (k : Fin 256) : ridx_main_v58 (ix2 r q) k = ix2 k q :=
  funext fun a => Fin.ext (by match a with | ⟨0, _⟩ => rfl | ⟨1, _⟩ => rfl)
theorem bidx59 (r : Fin 20000) (q : Fin 256) : idx_main_v59 (idx_main_v60 (ix2 r q)) = ix1 q :=
  funext fun a => Fin.ext (by match a with | ⟨0, _⟩ => rfl)

theorem lidx65 (r : Fin 20000) (q : Fin 256) (k : Fin 768) : lidx_main_v65 (ix2 r q) k = ix2 r k :=
  funext fun a => Fin.ext (by match a with | ⟨0, _⟩ => rfl | ⟨1, _⟩ => rfl)
theorem ridx65 (r : Fin 20000) (q : Fin 256) (k : Fin 768) : ridx_main_v65 (ix2 r q) k = ix2 k q :=
  funext fun a => Fin.ext (by match a with | ⟨0, _⟩ => rfl | ⟨1, _⟩ => rfl)
theorem bidx66 (r : Fin 20000) (q : Fin 256) : idx_main_v66 (idx_main_v67 (ix2 r q)) = ix1 q :=
  funext fun a => Fin.ext (by match a with | ⟨0, _⟩ => rfl)

/-! ## The neighbour sums are the specification's chain, taken whole

  The reference wraps the source endpoints, gathers, scales and scatter-adds exactly as the specification's
  `agg768` / `agg256` do; the two are the same composition of the same array operations, so nothing is read at
  an index. -/

theorem agg1 (x0 : (⟨S20000x768, .f32⟩ : BufTy).Contents (Elt Ideal)) (x1 : (⟨S320000, .f32⟩ : BufTy).Contents (Elt Ideal)) (x10 x11 : (⟨S320000, .i32⟩ : BufTy).Contents (Elt Ideal)) :
    val_main_v12 (F := Ideal) x0 x1 x10 x11 = Cert.Spec.agg768 x0 x1 x10 x11 := by
  unfold val_main_v12 val_main_v9 val_main_v6 val_main_v8 val_main_v7 val_main_v10 val_main_v11 val_main_cst
    val_main_v5 val_main_v4 val_main_v1 val_main_v3 val_main_v0 val_main_v2 val_main_c val_main_c_0
  unfold Cert.Spec.agg768 Cert.Spec.srcCol
  rfl

theorem agg2 (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x10 x11 : (⟨S320000, .i32⟩ : BufTy).Contents (Elt Ideal)) :
    val_main_v33 (F := Ideal) x0 x1 x2 x3 x10 x11 = Cert.Spec.agg256 (val_main_v20 (F := Ideal) x0 x1 x2 x3 x10 x11) x1 x10 x11 := by
  unfold val_main_v33 val_main_v30 val_main_v27 val_main_v29 val_main_v28 val_main_v31 val_main_v32 val_main_cst_4
    val_main_v26 val_main_v25 val_main_v22 val_main_v24 val_main_v21 val_main_v23 val_main_c_2 val_main_c_3
  generalize val_main_v20 (F := Ideal) x0 x1 x2 x3 x10 x11 = h
  unfold Cert.Spec.agg256 Cert.Spec.srcCol
  rfl

theorem agg3 (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 x11 : (⟨S320000, .i32⟩ : BufTy).Contents (Elt Ideal)) :
    val_main_v54 (F := Ideal) x0 x1 x2 x3 x4 x5 x10 x11 = Cert.Spec.agg256 (val_main_v41 (F := Ideal) x0 x1 x2 x3 x4 x5 x10 x11) x1 x10 x11 := by
  unfold val_main_v54 val_main_v51 val_main_v48 val_main_v50 val_main_v49 val_main_v52 val_main_v53 val_main_cst_8
    val_main_v47 val_main_v46 val_main_v43 val_main_v45 val_main_v42 val_main_v44 val_main_c_6 val_main_c_7
  generalize val_main_v41 (F := Ideal) x0 x1 x2 x3 x4 x5 x10 x11 = h
  unfold Cert.Spec.agg256 Cert.Spec.srcCol
  rfl

/-- The three layers' outputs side by side. -/
theorem join (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x10 x11 : (⟨S320000, .i32⟩ : BufTy).Contents (Elt Ideal)) :
    val_main_v63 (F := Ideal) x0 x1 x2 x3 x4 x5 x6 x7 x10 x11 = Cert.Spec.join3 (val_main_v20 (F := Ideal) x0 x1 x2 x3 x10 x11) (val_main_v41 (F := Ideal) x0 x1 x2 x3 x4 x5 x10 x11) (val_main_v62 (F := Ideal) x0 x1 x2 x3 x4 x5 x6 x7 x10 x11) := by
  unfold val_main_v63
  generalize val_main_v20 (F := Ideal) x0 x1 x2 x3 x10 x11 = a
  generalize val_main_v41 (F := Ideal) x0 x1 x2 x3 x4 x5 x10 x11 = b
  generalize val_main_v62 (F := Ideal) x0 x1 x2 x3 x4 x5 x6 x7 x10 x11 = c
  unfold Cert.Spec.join3
  rfl

/-! ## The layers

  Entry (r, q) of a layer: the product row is 1 · h + g, the factor 1 drops, and what is left is the
  specification's entry term by term. -/

theorem ref_l1 (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x10 x11 : (⟨S320000, .i32⟩ : BufTy).Contents (Elt Ideal)) :
    val_main_v20 (F := Ideal) x0 x1 x2 x3 x10 x11 = Cert.Spec.gin768 x0 (Cert.Spec.agg768 x0 x1 x10 x11) x2 x3 := by
  funext i
  obtain ⟨r, q, rfl⟩ : ∃ (r : Fin 20000) (q : Fin 256), i = ix2 r q := ⟨i 0, i 1, eq_ix2 i⟩
  rw [Cert.Spec.gin768_apply, val_main_v20_apply, val_main_v19_apply, val_main_v16_apply, val_main_v18_apply,
    val_main_v17_apply, val_main_call0_v0_apply, val_main_call0_cst_apply]
  simp only [val_main_v15_apply, val_main_v14_apply, val_main_v13_apply, val_main_cst_1_apply, agg1, lidx16, ridx16,
    bidx17, Ideal.maximumf_def, Ideal.addf_def, Ideal.mulf_def, Ideal.ofBits_def, ofBits_one_f32,
    Ideal.ofBits_zero_f32, one_mul]
  rfl

theorem ref_l2 (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 x11 : (⟨S320000, .i32⟩ : BufTy).Contents (Elt Ideal)) :
    val_main_v41 (F := Ideal) x0 x1 x2 x3 x4 x5 x10 x11 = Cert.Spec.gin256 (val_main_v20 (F := Ideal) x0 x1 x2 x3 x10 x11) (Cert.Spec.agg256 (val_main_v20 (F := Ideal) x0 x1 x2 x3 x10 x11) x1 x10 x11) x4 x5 := by
  funext i
  obtain ⟨r, q, rfl⟩ : ∃ (r : Fin 20000) (q : Fin 256), i = ix2 r q := ⟨i 0, i 1, eq_ix2 i⟩
  rw [Cert.Spec.gin256_apply, val_main_v41_apply, val_main_v40_apply, val_main_v37_apply, val_main_v39_apply,
    val_main_v38_apply, val_main_call1_v0_apply, val_main_call1_cst_apply]
  simp only [val_main_v36_apply, val_main_v35_apply, val_main_v34_apply, val_main_cst_5_apply, agg2, lidx37, ridx37,
    bidx38, Ideal.maximumf_def, Ideal.addf_def, Ideal.mulf_def, Ideal.ofBits_def, ofBits_one_f32,
    Ideal.ofBits_zero_f32, one_mul]
  rfl

theorem ref_l3 (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x10 x11 : (⟨S320000, .i32⟩ : BufTy).Contents (Elt Ideal)) :
    val_main_v62 (F := Ideal) x0 x1 x2 x3 x4 x5 x6 x7 x10 x11 = Cert.Spec.gin256 (val_main_v41 (F := Ideal) x0 x1 x2 x3 x4 x5 x10 x11) (Cert.Spec.agg256 (val_main_v41 (F := Ideal) x0 x1 x2 x3 x4 x5 x10 x11) x1 x10 x11) x6 x7 := by
  funext i
  obtain ⟨r, q, rfl⟩ : ∃ (r : Fin 20000) (q : Fin 256), i = ix2 r q := ⟨i 0, i 1, eq_ix2 i⟩
  rw [Cert.Spec.gin256_apply, val_main_v62_apply, val_main_v61_apply, val_main_v58_apply, val_main_v60_apply,
    val_main_v59_apply, val_main_call2_v0_apply, val_main_call2_cst_apply]
  simp only [val_main_v57_apply, val_main_v56_apply, val_main_v55_apply, val_main_cst_9_apply, agg3, lidx58, ridx58,
    bidx59, Ideal.maximumf_def, Ideal.addf_def, Ideal.mulf_def, Ideal.ofBits_def, ofBits_one_f32,
    Ideal.ofBits_zero_f32, one_mul]
  rfl

/-! ## The readout, and the whole network -/

theorem ref_readout (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S768x256, .f32⟩ : BufTy).Contents (Elt Ideal)) (x9 : (⟨S256, .f32⟩ : BufTy).Contents (Elt Ideal)) (x10 x11 : (⟨S320000, .i32⟩ : BufTy).Contents (Elt Ideal)) :
    val_main_v68 (F := Ideal) x0 x1 x2 x3 x4 x5 x6 x7 x8 x9 x10 x11
      = Cert.Spec.readout (Cert.Spec.join3 (val_main_v20 (F := Ideal) x0 x1 x2 x3 x10 x11) (val_main_v41 (F := Ideal) x0 x1 x2 x3 x4 x5 x10 x11) (val_main_v62 (F := Ideal) x0 x1 x2 x3 x4 x5 x6 x7 x10 x11)) x8 x9 := by
  funext i
  obtain ⟨r, q, rfl⟩ : ∃ (r : Fin 20000) (q : Fin 256), i = ix2 r q := ⟨i 0, i 1, eq_ix2 i⟩
  rw [Cert.Spec.readout_apply, val_main_v68_apply, val_main_v65_apply, val_main_v67_apply, val_main_v66_apply]
  simp only [val_main_v64_apply, val_main_call3_v0_apply, val_main_call3_cst_apply, join, lidx65, ridx65, bidx66,
    Ideal.maximumf_def, Ideal.addf_def, Ideal.ofBits_def, Ideal.ofBits_zero_f32]
  rfl

/-- The reference program's result is the specification's network of its twelve arguments. -/
theorem ref_net (x0 : (⟨S20000x768, .f32⟩ : BufTy).Contents (Elt Ideal)) (x1 : (⟨S320000, .f32⟩ : BufTy).Contents (Elt Ideal)) (x2 : (⟨S768x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S768x256, .f32⟩ : BufTy).Contents (Elt Ideal)) (x9 : (⟨S256, .f32⟩ : BufTy).Contents (Elt Ideal)) (x10 x11 : (⟨S320000, .i32⟩ : BufTy).Contents (Elt Ideal)) :
    val_main_v68 (F := Ideal) x0 x1 x2 x3 x4 x5 x6 x7 x8 x9 x10 x11 = Cert.Spec.net x0 x1 x2 x3 x4 x5 x6 x7 x8 x9 x10 x11 := by
  rw [ref_readout, ref_l3, ref_l2, ref_l1]
  rfl

end Cert.Val

end
-- ==== Proof.lean ====
/-
  The certificate's claim: the kernel program (read at machine words and at exact arithmetic) and the reference
  program each run to the end without a fault and leave their twelve arguments unchanged, and at exact arithmetic
  the two end with the same result.

  The kernel program is four kernel regions among host operations. Each region's body loads its blocks, computes
  one value and stores it over its output block, so at any float instance the region leaves every buffer but its
  result unchanged (Proof/KI, Proof/K: the two printed namespaces, one text); the buffers' contents are followed
  through the eight items and read off the final memory (`run_all`). At exact arithmetic a layer's region leaves
  max((h + g)·W + b, 0) of the arrays it is entered with and the readout's leaves max(x, 0)·W + b (Proof/Val/Final*),
  and the host operations between them compute the neighbour sums g and join the three layers (Proof/Val/Host), so
  the result is the specification's network of the arguments (Proof/Val/Compose). The reference computes the same
  network with the host's matrix product, a bias broadcast and a factor 1 on h, which is the identity on the
  extended reals (Proof/Val/Ref). No step needs the inputs finite: only commutativity-free rewriting of the same
  sums, and 1·x = x.
-/
import proofs.«118984_j51049981280515_1_alg».proof.Defs
import proofs.«118984_j51049981280515_1_alg».proof.Proof.Gen.Kernel
import proofs.«118984_j51049981280515_1_alg».proof.Proof.Gen.KernelIdeal
import proofs.«118984_j51049981280515_1_alg».proof.Proof.Gen.ReferenceIdeal
import proofs.«118984_j51049981280515_1_alg».proof.Proof.Gen.ReferenceIdeal.Run
import proofs.«118984_j51049981280515_1_alg».proof.Proof.Gen.ReferenceIdeal.Read
import proofs.«118984_j51049981280515_1_alg».proof.Proof.Gen.Pre_finite_inputs
import proofs.«118984_j51049981280515_1_alg».proof.Proof.K.Run
import proofs.«118984_j51049981280515_1_alg».proof.Proof.KI.Run
import proofs.«118984_j51049981280515_1_alg».proof.Proof.Val.Compose
import proofs.«118984_j51049981280515_1_alg».proof.Proof.Val.Ref
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the run with every buffer named, read at the arguments. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W8_main_arg0 m c),
      (h c _ (Cert.Kernel.Fr.mem_uc Cert.Kernel.main_arg1 (by decide))).trans (Cert.Kernel.Fr.W8_main_arg1 m c),
      (h c _ (Cert.Kernel.Fr.mem_uc Cert.Kernel.main_arg2 (by decide))).trans (Cert.Kernel.Fr.W8_main_arg2 m c),
      (h c _ (Cert.Kernel.Fr.mem_uc Cert.Kernel.main_arg3 (by decide))).trans (Cert.Kernel.Fr.W8_main_arg3 m c),
      (h c _ (Cert.Kernel.Fr.mem_uc Cert.Kernel.main_arg4 (by decide))).trans (Cert.Kernel.Fr.W8_main_arg4 m c),
      (h c _ (Cert.Kernel.Fr.mem_uc Cert.Kernel.main_arg5 (by decide))).trans (Cert.Kernel.Fr.W8_main_arg5 m c),
      (h c _ (Cert.Kernel.Fr.mem_uc Cert.Kernel.main_arg6 (by decide))).trans (Cert.Kernel.Fr.W8_main_arg6 m c),
      (h c _ (Cert.Kernel.Fr.mem_uc Cert.Kernel.main_arg7 (by decide))).trans (Cert.Kernel.Fr.W8_main_arg7 m c),
      (h c _ (Cert.Kernel.Fr.mem_uc Cert.Kernel.main_arg8 (by decide))).trans (Cert.Kernel.Fr.W8_main_arg8 m c),
      (h c _ (Cert.Kernel.Fr.mem_uc Cert.Kernel.main_arg9 (by decide))).trans (Cert.Kernel.Fr.W8_main_arg9 m c),
      (h c _ (Cert.Kernel.Fr.mem_uc Cert.Kernel.main_arg10 (by decide))).trans (Cert.Kernel.Fr.W8_main_arg10 m c),
      (h c _ (Cert.Kernel.Fr.mem_uc Cert.Kernel.main_arg11 (by decide))).trans (Cert.Kernel.Fr.W8_main_arg11 m c)⟩)
    (Cert.Kernel.Fr.run_all (F := Bits) m ρ)

/-- The same at exact arithmetic. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W8_main_arg0 m c),
      (h c _ (Cert.KernelIdeal.Fr.mem_uc Cert.KernelIdeal.main_arg1 (by decide))).trans (Cert.KernelIdeal.Fr.W8_main_arg1 m c),
      (h c _ (Cert.KernelIdeal.Fr.mem_uc Cert.KernelIdeal.main_arg2 (by decide))).trans (Cert.KernelIdeal.Fr.W8_main_arg2 m c),
      (h c _ (Cert.KernelIdeal.Fr.mem_uc Cert.KernelIdeal.main_arg3 (by decide))).trans (Cert.KernelIdeal.Fr.W8_main_arg3 m c),
      (h c _ (Cert.KernelIdeal.Fr.mem_uc Cert.KernelIdeal.main_arg4 (by decide))).trans (Cert.KernelIdeal.Fr.W8_main_arg4 m c),
      (h c _ (Cert.KernelIdeal.Fr.mem_uc Cert.KernelIdeal.main_arg5 (by decide))).trans (Cert.KernelIdeal.Fr.W8_main_arg5 m c),
      (h c _ (Cert.KernelIdeal.Fr.mem_uc Cert.KernelIdeal.main_arg6 (by decide))).trans (Cert.KernelIdeal.Fr.W8_main_arg6 m c),
      (h c _ (Cert.KernelIdeal.Fr.mem_uc Cert.KernelIdeal.main_arg7 (by decide))).trans (Cert.KernelIdeal.Fr.W8_main_arg7 m c),
      (h c _ (Cert.KernelIdeal.Fr.mem_uc Cert.KernelIdeal.main_arg8 (by decide))).trans (Cert.KernelIdeal.Fr.W8_main_arg8 m c),
      (h c _ (Cert.KernelIdeal.Fr.mem_uc Cert.KernelIdeal.main_arg9 (by decide))).trans (Cert.KernelIdeal.Fr.W8_main_arg9 m c),
      (h c _ (Cert.KernelIdeal.Fr.mem_uc Cert.KernelIdeal.main_arg10 (by decide))).trans (Cert.KernelIdeal.Fr.W8_main_arg10 m c),
      (h c _ (Cert.KernelIdeal.Fr.mem_uc Cert.KernelIdeal.main_arg11 (by decide))).trans (Cert.KernelIdeal.Fr.W8_main_arg11 m c)⟩)
    (Cert.KernelIdeal.Fr.run_all (F := Ideal) m ρ)

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: nothing to preserve. -/
theorem preserves : Cert.preserves_Kernel_KernelIdeal := trivial

/-- From memories that agree on the arguments both programs end at the network of the arguments. -/
theorem algebraic : Cert.algebraic_KernelIdeal_ReferenceIdeal := by
  intro m ρ m' ρ' _ hagree
  refine ⟨fun c => Cert.Spec.net (Cert.Val.a0 m c) (Cert.Val.a1 m c) (Cert.Val.a2 m c) (Cert.Val.a3 m c) (Cert.Val.a4 m c) (Cert.Val.a5 m c)
      (Cert.Val.a6 m c) (Cert.Val.a7 m c) (Cert.Val.a8 m c) (Cert.Val.a9 m c) (Cert.Val.a10 m c) (Cert.Val.a11 m c), ?_, ?_⟩
  · exact (θ_run Cert.KernelIdeal.defs _ _).mono (fun r h c =>
      ⟨(h c _ (Cert.KernelIdeal.Fr.mem_uc Cert.KernelIdeal.main_v47 (by decide))).trans (Cert.Val.kernel_value m c),
      (h c _ (Cert.KernelIdeal.Fr.mem_uc Cert.KernelIdeal.main_arg0 (by decide))).trans (Cert.KernelIdeal.Fr.W8_main_arg0 m c),
      (h c _ (Cert.KernelIdeal.Fr.mem_uc Cert.KernelIdeal.main_arg1 (by decide))).trans (Cert.KernelIdeal.Fr.W8_main_arg1 m c),
      (h c _ (Cert.KernelIdeal.Fr.mem_uc Cert.KernelIdeal.main_arg2 (by decide))).trans (Cert.KernelIdeal.Fr.W8_main_arg2 m c),
      (h c _ (Cert.KernelIdeal.Fr.mem_uc Cert.KernelIdeal.main_arg3 (by decide))).trans (Cert.KernelIdeal.Fr.W8_main_arg3 m c),
      (h c _ (Cert.KernelIdeal.Fr.mem_uc Cert.KernelIdeal.main_arg4 (by decide))).trans (Cert.KernelIdeal.Fr.W8_main_arg4 m c),
      (h c _ (Cert.KernelIdeal.Fr.mem_uc Cert.KernelIdeal.main_arg5 (by decide))).trans (Cert.KernelIdeal.Fr.W8_main_arg5 m c),
      (h c _ (Cert.KernelIdeal.Fr.mem_uc Cert.KernelIdeal.main_arg6 (by decide))).trans (Cert.KernelIdeal.Fr.W8_main_arg6 m c),
      (h c _ (Cert.KernelIdeal.Fr.mem_uc Cert.KernelIdeal.main_arg7 (by decide))).trans (Cert.KernelIdeal.Fr.W8_main_arg7 m c),
      (h c _ (Cert.KernelIdeal.Fr.mem_uc Cert.KernelIdeal.main_arg8 (by decide))).trans (Cert.KernelIdeal.Fr.W8_main_arg8 m c),
      (h c _ (Cert.KernelIdeal.Fr.mem_uc Cert.KernelIdeal.main_arg9 (by decide))).trans (Cert.KernelIdeal.Fr.W8_main_arg9 m c),
      (h c _ (Cert.KernelIdeal.Fr.mem_uc Cert.KernelIdeal.main_arg10 (by decide))).trans (Cert.KernelIdeal.Fr.W8_main_arg10 m c),
      (h c _ (Cert.KernelIdeal.Fr.mem_uc Cert.KernelIdeal.main_arg11 (by decide))).trans (Cert.KernelIdeal.Fr.W8_main_arg11 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, Cert.Val.ref_net, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
